-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S2048x1024 : Shape := ⟨2, ![2048, 1024]⟩
abbrev S4096x512 : Shape := ⟨2, ![4096, 512]⟩
abbrev S_ : Shape := ⟨0, ![]⟩
abbrev S16 : Shape := ⟨1, ![16]⟩
abbrev S1 : Shape := ⟨1, ![1]⟩
abbrev S64x512 : Shape := ⟨2, ![64, 512]⟩
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | _, _ => ⟨S2048x1024, .f32⟩

abbrev bufScoped : (cs : CoreSpace) → Fin (nBuf (.core cs)) → Bool
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_6 : BitVec 32 := 4#32
  let v14 : BitVec 32 := Scalar.muli v10 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9 : BitVec 32 := 8#32
  let v18 : BitVec 32 := Scalar.muli v9 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_20 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v25 : BitVec 32 := Scalar.muli v5 c2048_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_14 : BitVec 32 := 1024#32
  let v26 : BitVec 32 := Scalar.muli v2 c1024_i32_14
  let v27 : BitVec 32 := Scalar.addi v25 v26
  let v36 : BitVec 32 := Scalar.addi v27 c0_i32_20
  let c0_i32_27 : BitVec 32 := 0#32
  ![v36.toNat, 0]
def k0_off2 (d0 : Dev nD) (c0_i32_19 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v24 : BitVec 32 := Scalar.muli v2 c1024_i32
  let v34 : BitVec 32 := Scalar.addi v24 c0_i32_19
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c512_i32 : BitVec 32 := 512#32
  let v35 : BitVec 32 := Scalar.muli v10 c512_i32
  ![v34.toNat, v35.toNat]
def k0_dev3 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v37 : BitVec 32 := Scalar.muli v2 c8_i32_23
  let v38 : BitVec 32 := Scalar.addi c0_i32_24 v37
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_25 : BitVec 32 := 4#32
  let v39 : BitVec 32 := Scalar.muli v10 c4_i32_25
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v41 : BitVec 32 := Scalar.muli v8 c1_i32_26
  let v42 : BitVec 32 := Scalar.addi v40 v41
  v42.toNat
def k0_dev4 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v52 : BitVec 32 := Scalar.muli v2 c8_i32_32
  let v53 : BitVec 32 := Scalar.addi c0_i32_33 v52
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_34 : BitVec 32 := 4#32
  let v54 : BitVec 32 := Scalar.muli v10 c4_i32_34
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v56 : BitVec 32 := Scalar.muli v8 c1_i32_35
  let v57 : BitVec 32 := Scalar.addi v55 v56
  v57.toNat
def k0_dev5 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v67 : BitVec 32 := Scalar.muli v2 c8_i32_41
  let v68 : BitVec 32 := Scalar.addi c0_i32_42 v67
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_43 : BitVec 32 := 4#32
  let v69 : BitVec 32 := Scalar.muli v10 c4_i32_43
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v71 : BitVec 32 := Scalar.muli v8 c1_i32_44
  let v72 : BitVec 32 := Scalar.addi v70 v71
  v72.toNat
def k0_dev6 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v82 : BitVec 32 := Scalar.muli v2 c8_i32_49
  let v83 : BitVec 32 := Scalar.addi c0_i32_50 v82
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_51 : BitVec 32 := 4#32
  let v84 : BitVec 32 := Scalar.muli v10 c4_i32_51
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v86 : BitVec 32 := Scalar.muli v8 c1_i32_52
  let v87 : BitVec 32 := Scalar.addi v85 v86
  v87.toNat
def k0_dev7 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v97 : BitVec 32 := Scalar.muli v2 c8_i32_58
  let v98 : BitVec 32 := Scalar.addi c0_i32_59 v97
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_60 : BitVec 32 := 4#32
  let v99 : BitVec 32 := Scalar.muli v10 c4_i32_60
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v101 : BitVec 32 := Scalar.muli v8 c1_i32_61
  let v102 : BitVec 32 := Scalar.addi v100 v101
  v102.toNat
def k0_dev8 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v112 : BitVec 32 := Scalar.muli v2 c8_i32_66
  let v113 : BitVec 32 := Scalar.addi c0_i32_67 v112
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_68 : BitVec 32 := 4#32
  let v114 : BitVec 32 := Scalar.muli v10 c4_i32_68
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v116 : BitVec 32 := Scalar.muli v8 c1_i32_69
  let v117 : BitVec 32 := Scalar.addi v115 v116
  v117.toNat
def k0_dev9 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v127 : BitVec 32 := Scalar.muli v2 c8_i32_74
  let v128 : BitVec 32 := Scalar.addi c0_i32_75 v127
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_76 : BitVec 32 := 4#32
  let v129 : BitVec 32 := Scalar.muli v10 c4_i32_76
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v131 : BitVec 32 := Scalar.muli v8 c1_i32_77
  let v132 : BitVec 32 := Scalar.addi v130 v131
  v132.toNat
def k0_dev10 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v142 : BitVec 32 := Scalar.muli v2 c8_i32_82
  let v143 : BitVec 32 := Scalar.addi c0_i32_83 v142
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_84 : BitVec 32 := 4#32
  let v144 : BitVec 32 := Scalar.muli v10 c4_i32_84
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v146 : BitVec 32 := Scalar.muli v8 c1_i32_85
  let v147 : BitVec 32 := Scalar.addi v145 v146
  v147.toNat
def k0_dev11 (d0 : Dev nD) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v157 : BitVec 32 := Scalar.muli v2 c8_i32_92
  let v158 : BitVec 32 := Scalar.addi c0_i32_93 v157
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_94 : BitVec 32 := 4#32
  let v159 : BitVec 32 := Scalar.muli v10 c4_i32_94
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v161 : BitVec 32 := Scalar.muli v8 c1_i32_95
  let v162 : BitVec 32 := Scalar.addi v160 v161
  v162.toNat
def k0_dev12 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v172 : BitVec 32 := Scalar.muli v2 c8_i32_100
  let v173 : BitVec 32 := Scalar.addi c0_i32_101 v172
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_102 : BitVec 32 := 4#32
  let v174 : BitVec 32 := Scalar.muli v10 c4_i32_102
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v176 : BitVec 32 := Scalar.muli v8 c1_i32_103
  let v177 : BitVec 32 := Scalar.addi v175 v176
  v177.toNat
def k0_dev13 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v187 : BitVec 32 := Scalar.muli v2 c8_i32_108
  let v188 : BitVec 32 := Scalar.addi c0_i32_109 v187
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_110 : BitVec 32 := 4#32
  let v189 : BitVec 32 := Scalar.muli v10 c4_i32_110
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v191 : BitVec 32 := Scalar.muli v8 c1_i32_111
  let v192 : BitVec 32 := Scalar.addi v190 v191
  v192.toNat
def k0_dev14 (d0 : Dev nD) : Nat :=
  let c0_i32_117 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_116 : BitVec 32 := 8#32
  let v202 : BitVec 32 := Scalar.muli v2 c8_i32_116
  let v203 : BitVec 32 := Scalar.addi c0_i32_117 v202
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_118 : BitVec 32 := 4#32
  let v204 : BitVec 32 := Scalar.muli v10 c4_i32_118
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v206 : BitVec 32 := Scalar.muli v8 c1_i32_119
  let v207 : BitVec 32 := Scalar.addi v205 v206
  v207.toNat
def k0_dev15 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v217 : BitVec 32 := Scalar.muli v2 c8_i32_124
  let v218 : BitVec 32 := Scalar.addi c0_i32_125 v217
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_126 : BitVec 32 := 4#32
  let v219 : BitVec 32 := Scalar.muli v10 c4_i32_126
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v221 : BitVec 32 := Scalar.muli v8 c1_i32_127
  let v222 : BitVec 32 := Scalar.addi v220 v221
  v222.toNat
def k0_dev16 (d0 : Dev nD) : Nat :=
  let c0_i32_133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_132 : BitVec 32 := 8#32
  let v232 : BitVec 32 := Scalar.muli v2 c8_i32_132
  let v233 : BitVec 32 := Scalar.addi c0_i32_133 v232
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_134 : BitVec 32 := 4#32
  let v234 : BitVec 32 := Scalar.muli v10 c4_i32_134
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v236 : BitVec 32 := Scalar.muli v8 c1_i32_135
  let v237 : BitVec 32 := Scalar.addi v235 v236
  v237.toNat
def k0_dev17 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v247 : BitVec 32 := Scalar.muli v2 c8_i32_140
  let v248 : BitVec 32 := Scalar.addi c0_i32_141 v247
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_142 : BitVec 32 := 4#32
  let v249 : BitVec 32 := Scalar.muli v10 c4_i32_142
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v251 : BitVec 32 := Scalar.muli v8 c1_i32_143
  let v252 : BitVec 32 := Scalar.addi v250 v251
  v252.toNat
def k0_dev18 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_148 : BitVec 32 := 8#32
  let v262 : BitVec 32 := Scalar.muli v2 c8_i32_148
  let v263 : BitVec 32 := Scalar.addi c0_i32_149 v262
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_150 : BitVec 32 := 4#32
  let v264 : BitVec 32 := Scalar.muli v10 c4_i32_150
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v266 : BitVec 32 := Scalar.muli v8 c1_i32_151
  let v267 : BitVec 32 := Scalar.addi v265 v266
  v267.toNat
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_154 : BitVec 32 := 2048#32
  let v275 : BitVec 32 := Scalar.muli v5 c2048_i32_154
  let c0_i32_155 : BitVec 32 := 0#32
  ![v275.toNat, 0]
def k0_off4 (d0 : Dev nD) : Fin 2 → Nat :=
  let c0_i32_156 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_153 : BitVec 32 := 512#32
  let v274 : BitVec 32 := Scalar.muli v5 c512_i32_153
  ![0, v274.toNat]
def k0_off5 (d0 : Dev nD) (c0_i32_157 : BitVec 32) : Fin 2 → Nat :=
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c2048_i32_15 : BitVec 32 := 2048#32
  let v28 : BitVec 32 := Scalar.muli v10 c2048_i32_15
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_16 : BitVec 32 := 1024#32
  let v29 : BitVec 32 := Scalar.muli v2 c1024_i32_16
  let v30 : BitVec 32 := Scalar.addi v28 v29
  let v278 : BitVec 32 := Scalar.addi v30 c0_i32_157
  let c0_i32_164 : BitVec 32 := 0#32
  ![v278.toNat, 0]
def k0_dev19 (d0 : Dev nD) : Nat :=
  let c0_i32_172 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_171 : BitVec 32 := 8#32
  let v291 : BitVec 32 := Scalar.muli v9 c8_i32_171
  let v292 : BitVec 32 := Scalar.addi c0_i32_172 v291
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v293 : BitVec 32 := Scalar.muli v5 c4_i32_173
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v295 : BitVec 32 := Scalar.muli v8 c1_i32_174
  let v296 : BitVec 32 := Scalar.addi v294 v295
  v296.toNat
def k0_dev20 (d0 : Dev nD) : Nat :=
  let c0_i32_192 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_191 : BitVec 32 := 8#32
  let v316 : BitVec 32 := Scalar.muli v9 c8_i32_191
  let v317 : BitVec 32 := Scalar.addi c0_i32_192 v316
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v318 : BitVec 32 := Scalar.muli v5 c4_i32_193
  let v319 : BitVec 32 := Scalar.addi v317 v318
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v320 : BitVec 32 := Scalar.muli v8 c1_i32_194
  let v321 : BitVec 32 := Scalar.addi v319 v320
  v321.toNat
def k0_dev21 (d0 : Dev nD) : Nat :=
  let c0_i32_212 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_211 : BitVec 32 := 8#32
  let v341 : BitVec 32 := Scalar.muli v9 c8_i32_211
  let v342 : BitVec 32 := Scalar.addi c0_i32_212 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_213 : BitVec 32 := 4#32
  let v343 : BitVec 32 := Scalar.muli v5 c4_i32_213
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v345 : BitVec 32 := Scalar.muli v8 c1_i32_214
  let v346 : BitVec 32 := Scalar.addi v344 v345
  v346.toNat
def k0_dev22 (d0 : Dev nD) : Nat :=
  let c0_i32_232 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_231 : BitVec 32 := 8#32
  let v366 : BitVec 32 := Scalar.muli v9 c8_i32_231
  let v367 : BitVec 32 := Scalar.addi c0_i32_232 v366
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_233 : BitVec 32 := 4#32
  let v368 : BitVec 32 := Scalar.muli v5 c4_i32_233
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v370 : BitVec 32 := Scalar.muli v8 c1_i32_234
  let v371 : BitVec 32 := Scalar.addi v369 v370
  v371.toNat
def k0_dev23 (d0 : Dev nD) : Nat :=
  let c0_i32_252 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_251 : BitVec 32 := 8#32
  let v391 : BitVec 32 := Scalar.muli v9 c8_i32_251
  let v392 : BitVec 32 := Scalar.addi c0_i32_252 v391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_253 : BitVec 32 := 4#32
  let v393 : BitVec 32 := Scalar.muli v5 c4_i32_253
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v395 : BitVec 32 := Scalar.muli v8 c1_i32_254
  let v396 : BitVec 32 := Scalar.addi v394 v395
  v396.toNat
def k0_dev24 (d0 : Dev nD) : Nat :=
  let c0_i32_272 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_271 : BitVec 32 := 8#32
  let v416 : BitVec 32 := Scalar.muli v9 c8_i32_271
  let v417 : BitVec 32 := Scalar.addi c0_i32_272 v416
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_273 : BitVec 32 := 4#32
  let v418 : BitVec 32 := Scalar.muli v5 c4_i32_273
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v420 : BitVec 32 := Scalar.muli v8 c1_i32_274
  let v421 : BitVec 32 := Scalar.addi v419 v420
  v421.toNat
def k0_dev25 (d0 : Dev nD) : Nat :=
  let c0_i32_292 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_291 : BitVec 32 := 8#32
  let v441 : BitVec 32 := Scalar.muli v9 c8_i32_291
  let v442 : BitVec 32 := Scalar.addi c0_i32_292 v441
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_293 : BitVec 32 := 4#32
  let v443 : BitVec 32 := Scalar.muli v5 c4_i32_293
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_294 : BitVec 32 := 1#32
  let v445 : BitVec 32 := Scalar.muli v8 c1_i32_294
  let v446 : BitVec 32 := Scalar.addi v444 v445
  v446.toNat
def k0_dev26 (d0 : Dev nD) : Nat :=
  let c0_i32_312 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_311 : BitVec 32 := 8#32
  let v466 : BitVec 32 := Scalar.muli v9 c8_i32_311
  let v467 : BitVec 32 := Scalar.addi c0_i32_312 v466
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v468 : BitVec 32 := Scalar.muli v5 c4_i32_313
  let v469 : BitVec 32 := Scalar.addi v467 v468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v470 : BitVec 32 := Scalar.muli v8 c1_i32_314
  let v471 : BitVec 32 := Scalar.addi v469 v470
  v471.toNat
def k0_dev27 (d0 : Dev nD) : Nat :=
  let c0_i32_332 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_331 : BitVec 32 := 8#32
  let v491 : BitVec 32 := Scalar.muli v9 c8_i32_331
  let v492 : BitVec 32 := Scalar.addi c0_i32_332 v491
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_333 : BitVec 32 := 4#32
  let v493 : BitVec 32 := Scalar.muli v5 c4_i32_333
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v495 : BitVec 32 := Scalar.muli v8 c1_i32_334
  let v496 : BitVec 32 := Scalar.addi v494 v495
  v496.toNat
def k0_dev28 (d0 : Dev nD) : Nat :=
  let c0_i32_352 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_351 : BitVec 32 := 8#32
  let v516 : BitVec 32 := Scalar.muli v9 c8_i32_351
  let v517 : BitVec 32 := Scalar.addi c0_i32_352 v516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_353 : BitVec 32 := 4#32
  let v518 : BitVec 32 := Scalar.muli v5 c4_i32_353
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v520 : BitVec 32 := Scalar.muli v8 c1_i32_354
  let v521 : BitVec 32 := Scalar.addi v519 v520
  v521.toNat
def k0_dev29 (d0 : Dev nD) : Nat :=
  let c0_i32_372 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_371 : BitVec 32 := 8#32
  let v541 : BitVec 32 := Scalar.muli v9 c8_i32_371
  let v542 : BitVec 32 := Scalar.addi c0_i32_372 v541
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v543 : BitVec 32 := Scalar.muli v5 c4_i32_373
  let v544 : BitVec 32 := Scalar.addi v542 v543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v545 : BitVec 32 := Scalar.muli v8 c1_i32_374
  let v546 : BitVec 32 := Scalar.addi v544 v545
  v546.toNat
def k0_dev30 (d0 : Dev nD) : Nat :=
  let c0_i32_392 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_391 : BitVec 32 := 8#32
  let v566 : BitVec 32 := Scalar.muli v9 c8_i32_391
  let v567 : BitVec 32 := Scalar.addi c0_i32_392 v566
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_393 : BitVec 32 := 4#32
  let v568 : BitVec 32 := Scalar.muli v5 c4_i32_393
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v570 : BitVec 32 := Scalar.muli v8 c1_i32_394
  let v571 : BitVec 32 := Scalar.addi v569 v570
  v571.toNat
def k0_dev31 (d0 : Dev nD) : Nat :=
  let c0_i32_412 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_411 : BitVec 32 := 8#32
  let v591 : BitVec 32 := Scalar.muli v9 c8_i32_411
  let v592 : BitVec 32 := Scalar.addi c0_i32_412 v591
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_413 : BitVec 32 := 4#32
  let v593 : BitVec 32 := Scalar.muli v5 c4_i32_413
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_414 : BitVec 32 := 1#32
  let v595 : BitVec 32 := Scalar.muli v8 c1_i32_414
  let v596 : BitVec 32 := Scalar.addi v594 v595
  v596.toNat
def k0_dev32 (d0 : Dev nD) : Nat :=
  let c0_i32_432 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_431 : BitVec 32 := 8#32
  let v616 : BitVec 32 := Scalar.muli v9 c8_i32_431
  let v617 : BitVec 32 := Scalar.addi c0_i32_432 v616
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_433 : BitVec 32 := 4#32
  let v618 : BitVec 32 := Scalar.muli v5 c4_i32_433
  let v619 : BitVec 32 := Scalar.addi v617 v618
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_434 : BitVec 32 := 1#32
  let v620 : BitVec 32 := Scalar.muli v8 c1_i32_434
  let v621 : BitVec 32 := Scalar.addi v619 v620
  v621.toNat
def k0_dev33 (d0 : Dev nD) : Nat :=
  let c0_i32_452 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_451 : BitVec 32 := 8#32
  let v641 : BitVec 32 := Scalar.muli v9 c8_i32_451
  let v642 : BitVec 32 := Scalar.addi c0_i32_452 v641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_453 : BitVec 32 := 4#32
  let v643 : BitVec 32 := Scalar.muli v5 c4_i32_453
  let v644 : BitVec 32 := Scalar.addi v642 v643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_454 : BitVec 32 := 1#32
  let v645 : BitVec 32 := Scalar.muli v8 c1_i32_454
  let v646 : BitVec 32 := Scalar.addi v644 v645
  v646.toNat
def k0_dev34 (d0 : Dev nD) : Nat :=
  let c0_i32_472 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_471 : BitVec 32 := 8#32
  let v666 : BitVec 32 := Scalar.muli v9 c8_i32_471
  let v667 : BitVec 32 := Scalar.addi c0_i32_472 v666
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v668 : BitVec 32 := Scalar.muli v5 c4_i32_473
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_474 : BitVec 32 := 1#32
  let v670 : BitVec 32 := Scalar.muli v8 c1_i32_474
  let v671 : BitVec 32 := Scalar.addi v669 v670
  v671.toNat
def k0_off6 (d0 : Dev nD) (c0_i32_477 : BitVec 32) : Fin 2 → Nat :=
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c2048_i32_17 : BitVec 32 := 2048#32
  let v31 : BitVec 32 := Scalar.muli v10 c2048_i32_17
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c1024_i32_18 : BitVec 32 := 1024#32
  let v32 : BitVec 32 := Scalar.muli v9 c1024_i32_18
  let v33 : BitVec 32 := Scalar.addi v31 v32
  let v678 : BitVec 32 := Scalar.addi v33 c0_i32_477
  let c0_i32_484 : BitVec 32 := 0#32
  ![v678.toNat, 0]

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S2048x1024_S64x512_0_0 : ∀ a, (![0, 0] : Fin 2 → Nat) a + S64x512.size a ≤ S2048x1024.size a
  hcc0_scratch0 : 0 + S_.numel ≤ 65
  hcc0_scratch1 : 1 + S16.numel ≤ 65
  hcc0_scratch2 : 17 + S16.numel ≤ 65
  hcc0_scratch3 : 33 + S16.numel ≤ 65
  hcc0_scratch4 : 49 + S16.numel ≤ 65
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (64 * r.val))) a + S64x512.size a ≤ S4096x512.size a
  k0_off2_inb : ∀ d0 : Dev nD, ∀ (r : Fin 16), ∀ a, (k0_off2 d0 (BitVec.ofNat 32 (64 * r.val))) a + S64x512.size a ≤ S2048x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ a, (k0_off3 d0) a + S2048x512.size a ≤ S4096x512.size a
  k0_off4_inb : ∀ d0 : Dev nD, ∀ a, (k0_off4 d0) a + S2048x512.size a ≤ S2048x1024.size a
  k0_off5_inb : ∀ d0 : Dev nD, ∀ (r : Fin 16), ∀ a, (k0_off5 d0 (BitVec.ofNat 32 (64 * r.val))) a + S64x512.size a ≤ S4096x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off6_inb : ∀ d0 : Dev nD, ∀ (r : Fin 16), ∀ a, (k0_off6 d0 (BitVec.ofNat 32 (64 * r.val))) a + S64x512.size a ≤ S4096x512.size a

variable [Facts₀]

abbrev cc0_scratch0 : DmaSems sig S_ := SemArray.consecutive 0 S_ hcc0_scratch0
abbrev cc0_scratch1 : DmaSems sig S16 := SemArray.consecutive 1 S16 hcc0_scratch1
abbrev cc0_scratch2 : DmaSems sig S16 := SemArray.consecutive 17 S16 hcc0_scratch2
abbrev cc0_scratch3 : DmaSems sig S16 := SemArray.consecutive 33 S16 hcc0_scratch3
abbrev cc0_scratch4 : DmaSems sig S16 := SemArray.consecutive 49 S16 hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdeal.Mesh.lean ====
/- The mesh: sixteen devices numbered 8·x + 4·y + z over (x, y, z) ∈ 2 × 2 × 4. Each device exchanges with its
   neighbour along the y axis (the other y, same x and z) and its neighbour along the x axis (the other x, same y
   and z); both maps are involutions and they commute. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The two neighbours -/

/-- The neighbour along y: the y coordinate flipped. -/
def yn (c : Dev nD) : Dev nD := ⟨(8 * (c.val / 8) + (c.val % 4) + 4) - 4 * ((c.val / 4) % 2), by have : c.val < 16 := c.isLt; show _ < 16; omega⟩
/-- The neighbour along x: the x coordinate flipped. -/
def xn (c : Dev nD) : Dev nD := ⟨(4 * ((c.val / 4) % 2) + (c.val % 4) + 8) - 8 * (c.val / 8), by have : c.val < 16 := c.isLt; show _ < 16; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne (c : Dev nD) : yn c ≠ c := by revert c; decide
theorem xn_ne (c : Dev nD) : xn c ≠ c := by revert c; decide
theorem yn_ne_xn (c : Dev nD) : yn c ≠ xn c := by revert c; decide

def ynE : Dev nD ≃ Dev nD := ⟨yn, yn, yn_yn, yn_yn⟩
def xnE : Dev nD ≃ Dev nD := ⟨xn, xn, xn_xn, xn_xn⟩

/-- The x and y coordinates of a device. -/
def mx (c : Dev nD) : Nat := c.val / 8
def my (c : Dev nD) : Nat := (c.val / 4) % 2
theorem mx_lt (c : Dev nD) : mx c < 2 := by unfold mx; have : c.val < 16 := c.isLt; omega
theorem my_lt (c : Dev nD) : my c < 2 := by unfold my; omega
theorem mx_yn (c : Dev nD) : mx (yn c) = mx c := by revert c; decide
theorem my_yn (c : Dev nD) : my (yn c) = 1 - my c := by revert c; decide
theorem mx_xn (c : Dev nD) : mx (xn c) = 1 - mx c := by revert c; decide
theorem my_xn (c : Dev nD) : my (xn c) = my c := by revert c; decide

/-! ## The printed device chains name those neighbours -/

theorem dev1_eq (c : Dev nD) : (⟨k0_dev1 c, k0_dev1_lt c⟩ : Dev nD) = yn c := Fin.ext (k0_dev1_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = yn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = yn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = yn c := Fin.ext (k0_dev10_eq c)
theorem dev11_eq (c : Dev nD) : (⟨k0_dev11 c, k0_dev11_lt c⟩ : Dev nD) = yn c := Fin.ext (k0_dev11_eq c)
theorem dev12_eq (c : Dev nD) : (⟨k0_dev12 c, k0_dev12_lt c⟩ : Dev nD) = yn c := Fin.ext (k0_dev12_eq c)
theorem dev13_eq (c : Dev nD) : (⟨k0_dev13 c, k0_dev13_lt c⟩ : Dev nD) = yn c := Fin.ext (k0_dev13_eq c)
theorem dev14_eq (c : Dev nD) : (⟨k0_dev14 c, k0_dev14_lt c⟩ : Dev nD) = yn c := Fin.ext (k0_dev14_eq c)
theorem dev15_eq (c : Dev nD) : (⟨k0_dev15 c, k0_dev15_lt c⟩ : Dev nD) = yn c := Fin.ext (k0_dev15_eq c)
theorem dev16_eq (c : Dev nD) : (⟨k0_dev16 c, k0_dev16_lt c⟩ : Dev nD) = yn c := Fin.ext (k0_dev16_eq c)
theorem dev17_eq (c : Dev nD) : (⟨k0_dev17 c, k0_dev17_lt c⟩ : Dev nD) = yn c := Fin.ext (k0_dev17_eq c)
theorem dev18_eq (c : Dev nD) : (⟨k0_dev18 c, k0_dev18_lt c⟩ : Dev nD) = yn c := Fin.ext (k0_dev18_eq c)
theorem dev2_eq (c : Dev nD) : (⟨k0_dev2 c, k0_dev2_lt c⟩ : Dev nD) = xn c := Fin.ext (k0_dev2_eq c)
theorem dev19_eq (c : Dev nD) : (⟨k0_dev19 c, k0_dev19_lt c⟩ : Dev nD) = xn c := Fin.ext (k0_dev19_eq c)
theorem dev20_eq (c : Dev nD) : (⟨k0_dev20 c, k0_dev20_lt c⟩ : Dev nD) = xn c := Fin.ext (k0_dev20_eq c)
theorem dev21_eq (c : Dev nD) : (⟨k0_dev21 c, k0_dev21_lt c⟩ : Dev nD) = xn c := Fin.ext (k0_dev21_eq c)
theorem dev22_eq (c : Dev nD) : (⟨k0_dev22 c, k0_dev22_lt c⟩ : Dev nD) = xn c := Fin.ext (k0_dev22_eq c)
theorem dev23_eq (c : Dev nD) : (⟨k0_dev23 c, k0_dev23_lt c⟩ : Dev nD) = xn c := Fin.ext (k0_dev23_eq c)
theorem dev24_eq (c : Dev nD) : (⟨k0_dev24 c, k0_dev24_lt c⟩ : Dev nD) = xn c := Fin.ext (k0_dev24_eq c)
theorem dev25_eq (c : Dev nD) : (⟨k0_dev25 c, k0_dev25_lt c⟩ : Dev nD) = xn c := Fin.ext (k0_dev25_eq c)
theorem dev26_eq (c : Dev nD) : (⟨k0_dev26 c, k0_dev26_lt c⟩ : Dev nD) = xn c := Fin.ext (k0_dev26_eq c)
theorem dev27_eq (c : Dev nD) : (⟨k0_dev27 c, k0_dev27_lt c⟩ : Dev nD) = xn c := Fin.ext (k0_dev27_eq c)
theorem dev28_eq (c : Dev nD) : (⟨k0_dev28 c, k0_dev28_lt c⟩ : Dev nD) = xn c := Fin.ext (k0_dev28_eq c)
theorem dev29_eq (c : Dev nD) : (⟨k0_dev29 c, k0_dev29_lt c⟩ : Dev nD) = xn c := Fin.ext (k0_dev29_eq c)
theorem dev30_eq (c : Dev nD) : (⟨k0_dev30 c, k0_dev30_lt c⟩ : Dev nD) = xn c := Fin.ext (k0_dev30_eq c)
theorem dev31_eq (c : Dev nD) : (⟨k0_dev31 c, k0_dev31_lt c⟩ : Dev nD) = xn c := Fin.ext (k0_dev31_eq c)
theorem dev32_eq (c : Dev nD) : (⟨k0_dev32 c, k0_dev32_lt c⟩ : Dev nD) = xn c := Fin.ext (k0_dev32_eq c)
theorem dev33_eq (c : Dev nD) : (⟨k0_dev33 c, k0_dev33_lt c⟩ : Dev nD) = xn c := Fin.ext (k0_dev33_eq c)
theorem dev34_eq (c : Dev nD) : (⟨k0_dev34 c, k0_dev34_lt c⟩ : Dev nD) = xn c := Fin.ext (k0_dev34_eq c)

/-! ## The printed offsets, by coordinates -/

/-- The word of chunk `r`'s row offset inside a half block: 64·r. -/
abbrev cw (r : Fin 16) : BitVec 32 := BitVec.ofNat 32 (64 * r.val)

theorem off1_eq (c : Dev nD) (r : Fin 16) : k0_off1 c (cw r) = ![2048 * my c + 1024 * mx c + 64 * r.val, 0] := k0_off1_eq c r
theorem off2_eq (c : Dev nD) (r : Fin 16) : k0_off2 c (cw r) = ![1024 * mx c + 64 * r.val, 512 - 512 * my c] := k0_off2_eq c r
theorem off3_eq (c : Dev nD) : k0_off3 c = ![2048 * my c, 0] := k0_off3_eq c
theorem off4_eq (c : Dev nD) : k0_off4 c = ![0, 512 * my c] := k0_off4_eq c
theorem off5_eq (c : Dev nD) (r : Fin 16) : k0_off5 c (cw r) = ![(1024 * mx c + 64 * r.val + 2048) - 2048 * my c, 0] := k0_off5_eq c r
theorem off6_eq (c : Dev nD) (r : Fin 16) : k0_off6 c (cw r) = ![(64 * r.val + 3072) - (2048 * my c + 1024 * mx c), 0] := k0_off6_eq c r

/-- Where a device's chunk lands on its y neighbour is where that neighbour forwards it from; -/
theorem off1_eq_off5 (c : Dev nD) (r : Fin 16) : k0_off1 c (cw r) = k0_off5 (yn c) (cw r) := by
  rw [off1_eq, off5_eq, mx_yn, my_yn]; have := my_lt c
  congr 1; omega
/-- where a device's forwarded chunk lands on its x neighbour is that neighbour's other half. -/
theorem off5_eq_off6 (c : Dev nD) (r : Fin 16) : k0_off5 c (cw r) = k0_off6 (xn c) (cw r) := by
  rw [off5_eq, off6_eq, mx_xn, my_xn]; have := my_lt c; have := mx_lt c
  congr 1; omega

end Cert.KernelIdeal.A2A

end
-- ==== Proof.KernelIdeal.Proto.lean ====
/- The all-to-all along y, as a protocol of semaphore cells. Every device holds one block of rows of the input and
   must end with one block of columns of it. It copies its own rows' share of its columns locally, sends the
   other column half of its half of the rows, chunk by chunk, to its y neighbour, and forwards what the y
   neighbour sends it, chunk by chunk, to its x neighbour, so that each device ends with the other row block's
   columns half from its y neighbour directly and half through its x neighbour. Before any transfer the device
   and its two neighbours exchange one unit each on the runtime's barrier semaphore; with its unit a device hands
   the neighbour the rows of its result that the neighbour will write. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Mesh
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline library's copy and the protocol's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

/-- The runtime's barrier semaphore of collective id 0. -/
abbrev barS : Sem sig := (SemArray.scalar (sig.barrier 0 rfl) : Sems sig S_).sem
/-- The DMA semaphores: the local copy's; per chunk the y send's, the y receive's, the x send's, the x receive's. -/
def lSem : DmaSem sig := ⟨0, by decide⟩
def ysSem (r : Fin 16) : DmaSem sig := ⟨1 + r.val, by have := r.isLt; show 1 + r.val < 65; omega⟩
def yrSem (r : Fin 16) : DmaSem sig := ⟨17 + r.val, by have := r.isLt; show 17 + r.val < 65; omega⟩
def xsSem (r : Fin 16) : DmaSem sig := ⟨33 + r.val, by have := r.isLt; show 33 + r.val < 65; omega⟩
def xrSem (r : Fin 16) : DmaSem sig := ⟨49 + r.val, by have := r.isLt; show 49 + r.val < 65; omega⟩

abbrev barCell (c : Dev nD) : GSem nD τ sig := ((c : Thread nD τ), .reg barS)
abbrev dCell (c : Dev nD) (q : DmaSem sig) : GSem nD τ sig := ((c : Thread nD τ), .dma q)
abbrev lCell (c : Dev nD) : GSem nD τ sig := dCell c lSem
abbrev ysCell (c : Dev nD) (r : Fin 16) : GSem nD τ sig := dCell c (ysSem r)
abbrev yrCell (c : Dev nD) (r : Fin 16) : GSem nD τ sig := dCell c (yrSem r)
abbrev xsCell (c : Dev nD) (r : Fin 16) : GSem nD τ sig := dCell c (xsSem r)
abbrev xrCell (c : Dev nD) (r : Fin 16) : GSem nD τ sig := dCell c (xrSem r)

/-! ## The views the transfers go through -/

abbrev xW : Memref sig .tc .hbm S2048x1024 .f32 := Memref.whole main_arg0
abbrev oW : Memref sig .tc .hbm S4096x512 .f32 := Memref.whole main_v1

/-- Chunk `r` of the device's rows to send along y: rows 1024·x + 64·r on, the other y's columns. -/
abbrev srcY (c : Dev nD) (r : Fin 16) : Memref sig .tc .hbm S64x512 .f32 :=
  xW.slice (Rect.unit (s := S2048x1024) (k0_off2 c (cw r)) S64x512.size (k0_off2_inb c r)) (fun _ => rfl)
/-- Where it lands, in the RECEIVER's result: the sender's row block, the sender's half, chunk `r`. -/
abbrev dstY (c : Dev nD) (r : Fin 16) : Memref sig .tc .hbm S64x512 .f32 :=
  oW.slice (Rect.unit (s := S4096x512) (k0_off1 c (cw r)) S64x512.size (k0_off1_inb c r)) (fun _ => rfl)
/-- Chunk `r` of what the y neighbour sends, in the device's own result; forwarded from there to the same rows of the x neighbour's. -/
abbrev fwdV (c : Dev nD) (r : Fin 16) : Memref sig .tc .hbm S64x512 .f32 :=
  oW.slice (Rect.unit (s := S4096x512) (k0_off5 c (cw r)) S64x512.size (k0_off5_inb c r)) (fun _ => rfl)
/-- Chunk `r` of what the x neighbour forwards, in the device's own result. -/
abbrev othV (c : Dev nD) (r : Fin 16) : Memref sig .tc .hbm S64x512 .f32 :=
  oW.slice (Rect.unit (s := S4096x512) (k0_off6 c (cw r)) S64x512.size (k0_off6_inb c r)) (fun _ => rfl)
/-- The local copy: all the device's rows at its own y's columns, into its own row block of the result. -/
abbrev locS (c : Dev nD) : Memref sig .tc .hbm S2048x512 .f32 :=
  xW.slice (Rect.unit (s := S2048x1024) (k0_off4 c) S2048x512.size (k0_off4_inb c)) (fun _ => rfl)
abbrev locD (c : Dev nD) : Memref sig .tc .hbm S2048x512 .f32 :=
  oW.slice (Rect.unit (s := S4096x512) (k0_off3 c) S2048x512.size (k0_off3_inb c)) (fun _ => rfl)

/-- Slices of one memref through unit rectangles of the same sizes at equal offsets are equal. -/
theorem slice_congr {sp : Space} {s : Shape} {e : EltTy} (M : Memref sig .tc sp s e) {off off' size : Fin s.rank → Nat} (h : off = off')
    (p : ∀ a, off a + size a ≤ s.size a) (p' : ∀ a, off' a + size a ≤ s.size a) :
    M.slice (Rect.unit off size p) (fun _ => rfl) = M.slice (Rect.unit off' size p') (fun _ => rfl) := by
  subst h; rfl

theorem dstY_eq (c : Dev nD) (r : Fin 16) : dstY c r = fwdV (yn c) r := slice_congr oW (off1_eq_off5 c r) _ _
theorem fwdV_eq (c : Dev nD) (r : Fin 16) : fwdV c r = othV (xn c) r := slice_congr oW (off5_eq_off6 c r) _ _

/-- The credit of one chunk and of the local copy. -/
abbrev N64 : ℕ := (fwdV (0 : Dev nD) 0).view.dmaCredit
abbrev NL : ℕ := (locD (0 : Dev nD)).view.dmaCredit

/-! ## Contents -/

/-- Device `c`'s block of the input, as launched. -/
abbrev Xb (c : Dev nD) : Buf (Elt F) ((c : Thread nD τ).loc main_arg0) := m ((c : Thread nD τ).loc main_arg0)

/-- What device `c`'s result holds at the end: row `i`, column `j` is row `i mod 2048`, column `512·y + j` of the
    input block of the device the row came from — the device itself for its own row block, its y neighbour for
    its own half of the other row block, its x neighbour's y neighbour for the other half. -/
def Gfin (c : Dev nD) : Buf (Elt F) ((c : Thread nD τ).loc main_v1) := fun i =>
  let ri : Fin 2048 := ⟨(i 0).val % 2048, Nat.mod_lt _ (by decide)⟩
  let ci : Fin 1024 := ⟨512 * my c + (i 1).val, by have h1 : (i 1).val < 512 := (i 1).isLt; have h2 := my_lt c; show _ < 1024; omega⟩
  if (i 0).val / 2048 = my c then Xb m c (ix2 ri ci)
  else if ((i 0).val % 2048) / 1024 = mx c then Xb m (yn c) (ix2 ri ci)
  else Xb m (yn (xn c)) (ix2 ri ci)

/-- Points-to of the elements under a view on device `c`, at contents `f`. -/
abbrev vPts {sp : Space} {s : Shape} {e : EltTy} (c : Dev nD) (v : Memref sig .tc sp s e) (f : Buf (Elt F) (v.view.loc (c : Thread nD τ))) : sProp 𝕄 :=
  v.view.loc (c : Thread nD τ) ↦[v.view.set]{fullShare} f

/-! ## The schedule: one round -/

/-- What the y neighbour's unit on `c`'s barrier hands `c`: the rows of the y neighbour's result that `c`'s sixteen
    sends write, at whatever they hold, and that the y neighbour's receive cells are at round 0. -/
def barPayY (c : Dev nD) : sProp 𝕄 :=
  bigSep Finset.univ fun r : Fin 16 => iprop((∃ f, vPts (yn c) (fwdV (yn c) r) f) ∗ reached ER (yrCell (yn c) r) 0)
/-- What the x neighbour's unit hands `c`: the rows of the x neighbour's result that `c`'s sixteen forwards write. -/
def barPayX (c : Dev nD) : sProp 𝕄 :=
  bigSep Finset.univ fun r : Fin 16 => iprop((∃ f, vPts (xn c) (othV (xn c) r) f) ∗ reached ER (xrCell (xn c) r) 0)
/-- The local copy's landing: the device's row block of its result written, and the source back. -/
def lPay (c : Dev nD) : sProp 𝕄 := iprop(vPts c (locD c) (Gfin m c) ∗ vPts c (locS c) (Xb m c))
/-- A y send's completion: the source chunk back. -/
def ysPay (c : Dev nD) (r : Fin 16) : sProp 𝕄 := vPts c (srcY c r) (Xb m c)
/-- A y receive: chunk `r` of the y neighbour's rows, landed. -/
def yrPay (c : Dev nD) (r : Fin 16) : sProp 𝕄 := vPts c (fwdV c r) (Gfin m c)
/-- An x send's completion: the forwarded chunk back. -/
def xsPay (c : Dev nD) (r : Fin 16) : sProp 𝕄 := vPts c (fwdV c r) (Gfin m c)
/-- An x receive: chunk `r` of what the x neighbour forwards, landed. -/
def xrPay (c : Dev nD) (r : Fin 16) : sProp 𝕄 := vPts c (othV c r) (Gfin m c)

/-- Which chunk a DMA semaphore past the first belongs to. -/
def chunkOf (q : DmaSem sig) : Fin 16 := ⟨(q.val - 1) % 16, Nat.mod_lt _ (by decide)⟩

def dmaPay (c : Dev nD) (q : DmaSem sig) : sProp 𝕄 :=
  if q.val = 0 then lPay m c
  else if q.val < 17 then ysPay m c (chunkOf q)
  else if q.val < 33 then yrPay m c (chunkOf q)
  else if q.val < 49 then xsPay m c (chunkOf q)
  else xrPay m c (chunkOf q)

/-- One round, round 0. A barrier cell has two duties of one unit: `false` paid by the y neighbour, `true` by the x
    neighbour. A DMA cell has the one duty `false` of its transfer's credit. -/
def sched : Rounds.Schedule (GSem nD τ sig) Bool 𝕄 where
  duties g r := if r = 0 ∧ g.1.2 = .tc then (match g.2 with | .reg s => if s = barS then Finset.univ else ∅ | .dma _ => {false}) else ∅
  unitless _ := False
  amount g _ _ := match g.2 with | .reg _ => 1 | .dma q => if q.val = 0 then NL else N64
  payload g _ d := match g.2 with
    | .reg _ => if d then barPayX g.1.1 else barPayY g.1.1
    | .dma q => dmaPay m g.1.1 q
  amount_pos g _ _ _ := by
    rcases g with ⟨t, sm⟩
    cases sm with
    | reg s => exact Nat.one_pos
    | dma q =>
      show 0 < (if q.val = 0 then NL else N64)
      split
      · exact View.dmaCredit_pos _ (by decide)
      · exact View.dmaCredit_pos _ (by decide)

end Cert.KernelIdeal.A2A

end
-- ==== Proof.KernelIdeal.Iface.lean ====
/- What each device owes its neighbours' cells at launch, the order in which its body pays that off, the levels that
   order the waits, and the ghost state and points-to a device's body starts from and ends with. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## What a device owes, in the order its body pays -/

/-- The chunks in program order. -/
abbrev chunks : List (Fin 16) := [0, 1, 2, 3, 4, 5, 6, 7, 8, 9, 10, 11, 12, 13, 14, 15]

/-- The forwards still to make: each owes the x neighbour's receive cell a chunk's credit. -/
def OX (c : Dev nD) : List (Fin 16) → CellTallies nD τ sig Unit
  | [] => 0
  | r :: rs => OX c rs + tallyAt (xrCell (xn c) r) () N64
/-- The y sends still to make, over all the forwards. -/
def OY (c : Dev nD) : List (Fin 16) → CellTallies nD τ sig Unit
  | [] => OX c chunks
  | r :: rs => OY c rs + tallyAt (yrCell (yn c) r) () N64
/-- After the first signal; at launch. The first signal goes to the y neighbour's barrier, the second to the x neighbour's. -/
def O₁ (c : Dev nD) : CellTallies nD τ sig Unit := OY c chunks + tallyAt (barCell (xn c)) () 1
def O₀ (c : Dev nD) : CellTallies nD τ sig Unit := O₁ c + tallyAt (barCell (yn c)) () 1

/-! ## Levels: barrier cells below y-receive cells below x-receive cells; every other cell at the bottom -/

def L (g : GSem nD τ sig) : Finset Unit := if g.1.2 = .tc then {()} else ∅
def lv (g : GSem nD τ sig) (_ : Unit) : ℕ :=
  match g.2 with
  | .reg _ => 1
  | .dma q => if 17 ≤ q.val ∧ q.val < 33 then 2 else if 49 ≤ q.val then 3 else 0

/-! ## The cells of the mesh, indexed -/

/-- A device's cells: its barrier cell (`none`) and its sixty-five DMA cells. -/
abbrev csem : Option (DmaSem sig) → SemLoc sig := fun | none => .reg barS | some q => .dma q
abbrev kcell (ck : Dev nD × Option (DmaSem sig)) : GSem nD τ sig := ((ck.1 : Thread nD τ), csem ck.2)

/-- Every cell's invariant, under the names `K` the launch allocated them at, and that every cell is at round 0. -/
def records (K : Dev nD × Option (DmaSem sig) → ℕ) : sProp 𝕄 :=
  iprop((bigSep Finset.univ fun ck : Dev nD × Option (DmaSem sig) => cellInv ER (sched m) (K ck) (kcell ck))
    ∗ bigSep Finset.univ fun ck : Dev nD × Option (DmaSem sig) => reached ER (kcell ck) 0)

instance records_persistent (K : Dev nD × Option (DmaSem sig) → ℕ) : BI.Persistent (records m K) := by unfold records; infer_instance

/-- The tokens of the duties device `c` pays: its unit on each neighbour's barrier; its local copy; per chunk its y send
    (its own send cell, the y neighbour's receive cell) and its forward (its own send cell, the x neighbour's receive cell). -/
def payToks (c : Dev nD) : sProp 𝕄 :=
  iprop(dutyTok ER (barCell (yn c)) 0 false ∗ dutyTok ER (barCell (xn c)) 0 true ∗ dutyTok ER (lCell c) 0 false
    ∗ bigSep Finset.univ fun r : Fin 16 =>
        iprop(dutyTok ER (ysCell c r) 0 false ∗ dutyTok ER (yrCell (yn c) r) 0 false
          ∗ dutyTok ER (xsCell c r) 0 false ∗ dutyTok ER (xrCell (xn c) r) 0 false))

/-- Its positions: every own cell at round 0, nothing taken. -/
def positions (c : Dev nD) : sProp 𝕄 :=
  bigSep Finset.univ fun o : Option (DmaSem sig) => atPos ER (kcell (c, o)) 0 ∅ 0

def ghost (K : Dev nD × Option (DmaSem sig) → ℕ) (c : Dev nD) : sProp 𝕄 := iprop(records m K ∗ positions c ∗ payToks c)

/-- The credit other devices owe `c`'s cells: two units on its barrier, a chunk's credit on each receive cell. -/
def launchCreds (c : Dev nD) : sProp 𝕄 :=
  iprop(cred (tallyAt (barCell c) () 2)
    ∗ (bigSep Finset.univ fun r : Fin 16 => cred (tallyAt (yrCell c r) () N64))
    ∗ (bigSep Finset.univ fun r : Fin 16 => cred (tallyAt (xrCell c r) () N64)))

/-- What device `c`'s body starts from. -/
def start (c : Dev nD) : sProp 𝕄 :=
  iprop((∃ K, ghost m K c) ∗ launchCreds c ∗ levAts L lv
    ∗ (((c : Thread nD τ).loc main_arg0) ↦{fullShare} Xb m c) ∗ (∃ f, ((c : Thread nD τ).loc main_v1) ↦{fullShare} f))

/-- What it ends with: the input as it was, the result at its final contents, every own DMA semaphore at zero. -/
def finish (c : Dev nD) : sProp 𝕄 :=
  iprop((((c : Thread nD τ).loc main_arg0) ↦{fullShare} Xb m c) ∗ (((c : Thread nD τ).loc main_v1) ↦{fullShare} Gfin m c)
    ∗ bigSep Finset.univ fun q : DmaSem sig => semVal (dCell c q) 0)

/-! ## The pipeline's proof data: no windows, one point -/

def dats (_ : Fin 1) (c : Dev nD) : Dat τ (Elt F) Unit ℕ UU ℕ cfg0 c where
  A w := w.elim0
  after w _ := w.elim0
  Φ t := match t with
    | ⟨0, _⟩ => start m c
    | ⟨_ + 1, _⟩ => finish m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.A2A

end
-- ==== Proof.KernelIdeal.Sched.lean ====
/- The schedule's table, cell by cell: which duties a cell has, their amounts, what a round expects, what each duty hands over. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ### Every payload can be kept in a cell's invariant -/

instance barPayY_storable (c : Dev nD) : BI.Storable (upEmb : UEmb _ 𝕄) (barPayY (F := F) c) := by unfold barPayY; infer_instance
instance barPayX_storable (c : Dev nD) : BI.Storable (upEmb : UEmb _ 𝕄) (barPayX (F := F) c) := by unfold barPayX; infer_instance
instance lPay_storable (c : Dev nD) : BI.Storable (upEmb : UEmb _ 𝕄) (lPay m c) := by unfold lPay; infer_instance
instance ysPay_storable (c : Dev nD) (r : Fin 16) : BI.Storable (upEmb : UEmb _ 𝕄) (ysPay m c r) := by unfold ysPay; infer_instance
instance yrPay_storable (c : Dev nD) (r : Fin 16) : BI.Storable (upEmb : UEmb _ 𝕄) (yrPay m c r) := by unfold yrPay; infer_instance
instance xsPay_storable (c : Dev nD) (r : Fin 16) : BI.Storable (upEmb : UEmb _ 𝕄) (xsPay m c r) := by unfold xsPay; infer_instance
instance xrPay_storable (c : Dev nD) (r : Fin 16) : BI.Storable (upEmb : UEmb _ 𝕄) (xrPay m c r) := by unfold xrPay; infer_instance
instance dmaPay_storable (c : Dev nD) (q : DmaSem sig) : BI.Storable (upEmb : UEmb _ 𝕄) (dmaPay m c q) := by
  unfold dmaPay
  split
  · infer_instance
  split
  · infer_instance
  split
  · infer_instance
  split
  · infer_instance
  · infer_instance

instance sched_payload_storable (g : GSem nD τ sig) (r : ℕ) (d : Bool) :
    BI.Storable (upEmb : UEmb _ 𝕄) ((sched (F := F) m).payload g r d) := by
  rcases g with ⟨t, sm⟩
  cases sm with
  | reg s =>
    cases d
    · show BI.Storable upEmb (barPayY t.1); infer_instance
    · show BI.Storable upEmb (barPayX t.1); infer_instance
  | dma q =>
    show BI.Storable upEmb (dmaPay m t.1 q)
    infer_instance

section Sched
variable (c : Dev nD)

/-! ### Which semaphore is which: the index ranges, and the chunk of a semaphore past the first -/

theorem lSem_val : (lSem : DmaSem sig).val = 0 := rfl
theorem ysSem_val (r : Fin 16) : (ysSem r : DmaSem sig).val = 1 + r.val := rfl
theorem yrSem_val (r : Fin 16) : (yrSem r : DmaSem sig).val = 17 + r.val := rfl
theorem xsSem_val (r : Fin 16) : (xsSem r : DmaSem sig).val = 33 + r.val := rfl
theorem xrSem_val (r : Fin 16) : (xrSem r : DmaSem sig).val = 49 + r.val := rfl

theorem chunkOf_ys (r : Fin 16) : chunkOf (ysSem r) = r := by
  apply Fin.ext; show (1 + r.val - 1) % 16 = r.val; have := r.isLt; omega
theorem chunkOf_yr (r : Fin 16) : chunkOf (yrSem r) = r := by
  apply Fin.ext; show (17 + r.val - 1) % 16 = r.val; have := r.isLt; omega
theorem chunkOf_xs (r : Fin 16) : chunkOf (xsSem r) = r := by
  apply Fin.ext; show (33 + r.val - 1) % 16 = r.val; have := r.isLt; omega
theorem chunkOf_xr (r : Fin 16) : chunkOf (xrSem r) = r := by
  apply Fin.ext; show (49 + r.val - 1) % 16 = r.val; have := r.isLt; omega

/-- The payload of each kind of DMA cell, read off the index ranges. -/
theorem dmaPay_l : dmaPay m c lSem = lPay m c := by unfold dmaPay; exact if_pos rfl
theorem dmaPay_ys (r : Fin 16) : dmaPay m c (ysSem r) = ysPay m c r := by
  have := r.isLt
  unfold dmaPay
  rw [if_neg (by rw [ysSem_val]; omega), if_pos (by rw [ysSem_val]; omega), chunkOf_ys]
theorem dmaPay_yr (r : Fin 16) : dmaPay m c (yrSem r) = yrPay m c r := by
  have := r.isLt
  unfold dmaPay
  rw [if_neg (by rw [yrSem_val]; omega), if_neg (by rw [yrSem_val]; omega), if_pos (by rw [yrSem_val]; omega), chunkOf_yr]
theorem dmaPay_xs (r : Fin 16) : dmaPay m c (xsSem r) = xsPay m c r := by
  have := r.isLt
  unfold dmaPay
  rw [if_neg (by rw [xsSem_val]; omega), if_neg (by rw [xsSem_val]; omega), if_neg (by rw [xsSem_val]; omega),
    if_pos (by rw [xsSem_val]; omega), chunkOf_xs]
theorem dmaPay_xr (r : Fin 16) : dmaPay m c (xrSem r) = xrPay m c r := by
  have := r.isLt
  unfold dmaPay
  rw [if_neg (by rw [xrSem_val]; omega), if_neg (by rw [xrSem_val]; omega), if_neg (by rw [xrSem_val]; omega),
    if_neg (by rw [xrSem_val]; omega), chunkOf_xr]

/-! ### Duties -/

theorem duties_bar : (sched (F := F) m).duties (barCell c) 0 = Finset.univ := by
  dsimp only [sched]; rw [if_pos ⟨rfl, rfl⟩]; exact if_pos rfl
theorem duties_d (q : DmaSem sig) : (sched (F := F) m).duties (dCell c q) 0 = {false} := by
  dsimp only [sched]; exact if_pos ⟨rfl, rfl⟩
theorem duties_later (g : GSem nD τ sig) : ∀ r, 1 ≤ r → (sched (F := F) m).duties g r = ∅ :=
  fun r hr => by dsimp only [sched]; exact if_neg fun h => by omega

/-! ### Amounts -/

theorem amount_bar (d : Bool) : (sched (F := F) m).amount (barCell c) 0 d = 1 := rfl
theorem amount_l (d : Bool) : (sched (F := F) m).amount (lCell c) 0 d = NL := by
  dsimp only [sched]; exact if_pos rfl
theorem amount_ys (r : Fin 16) (d : Bool) : (sched (F := F) m).amount (ysCell c r) 0 d = N64 := by
  dsimp only [sched]; exact if_neg (by rw [ysSem_val]; omega)
theorem amount_yr (r : Fin 16) (d : Bool) : (sched (F := F) m).amount (yrCell c r) 0 d = N64 := by
  dsimp only [sched]; exact if_neg (by rw [yrSem_val]; omega)
theorem amount_xs (r : Fin 16) (d : Bool) : (sched (F := F) m).amount (xsCell c r) 0 d = N64 := by
  dsimp only [sched]; exact if_neg (by rw [xsSem_val]; omega)
theorem amount_xr (r : Fin 16) (d : Bool) : (sched (F := F) m).amount (xrCell c r) 0 d = N64 := by
  dsimp only [sched]; exact if_neg (by rw [xrSem_val]; omega)

/-! ### What a round expects: the sum of its duties' amounts -/

theorem expect_bar : (sched (F := F) m).expect (barCell c) 0 = 2 := by
  show ∑ d ∈ (sched (F := F) m).duties (barCell c) 0, (sched (F := F) m).amount (barCell c) 0 d = 2
  rw [duties_bar]
  rfl
/-- A DMA cell's round expects its one duty's amount. -/
theorem expect_d (q : DmaSem sig) (N : ℕ) (h : ∀ d, (sched (F := F) m).amount (dCell c q) 0 d = N) : (sched (F := F) m).expect (dCell c q) 0 = N := by
  show ∑ d ∈ (sched (F := F) m).duties (dCell c q) 0, (sched (F := F) m).amount (dCell c q) 0 d = N
  rw [duties_d]
  exact (Finset.sum_singleton _ _).trans (h false)
theorem expect_l : (sched (F := F) m).expect (lCell c) 0 = NL := expect_d m c lSem NL (amount_l m c)
theorem expect_ys (r : Fin 16) : (sched (F := F) m).expect (ysCell c r) 0 = N64 := expect_d m c _ N64 (amount_ys m c r)
theorem expect_yr (r : Fin 16) : (sched (F := F) m).expect (yrCell c r) 0 = N64 := expect_d m c _ N64 (amount_yr m c r)
theorem expect_xs (r : Fin 16) : (sched (F := F) m).expect (xsCell c r) 0 = N64 := expect_d m c _ N64 (amount_xs m c r)
theorem expect_xr (r : Fin 16) : (sched (F := F) m).expect (xrCell c r) 0 = N64 := expect_d m c _ N64 (amount_xr m c r)

/-! ### Payloads -/

theorem payload_bar_false : (sched (F := F) m).payload (barCell c) 0 false = barPayY c := by
  dsimp only [sched]; exact if_neg Bool.false_ne_true
theorem payload_bar_true : (sched (F := F) m).payload (barCell c) 0 true = barPayX c := by
  dsimp only [sched]; exact if_pos rfl
theorem payload_l (d : Bool) : (sched (F := F) m).payload (lCell c) 0 d = lPay m c := dmaPay_l m c
theorem payload_ys (r : Fin 16) (d : Bool) : (sched (F := F) m).payload (ysCell c r) 0 d = ysPay m c r := dmaPay_ys m c r
theorem payload_yr (r : Fin 16) (d : Bool) : (sched (F := F) m).payload (yrCell c r) 0 d = yrPay m c r := dmaPay_yr m c r
theorem payload_xs (r : Fin 16) (d : Bool) : (sched (F := F) m).payload (xsCell c r) 0 d = xsPay m c r := dmaPay_xs m c r
theorem payload_xr (r : Fin 16) (d : Bool) : (sched (F := F) m).payload (xrCell c r) 0 d = xrPay m c r := dmaPay_xr m c r

/-- The rest of a cell's round when no duty has been taken: every duty's payload. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_l : bigSep ((sched (F := F) m).duties (lCell c) 0 \ ∅) (fun d => (sched (F := F) m).payload (lCell c) 0 d) = lPay m c := by
  rw [Finset.sdiff_empty, duties_d, bigSep_singleton, payload_l]
theorem rest_ys (r : Fin 16) : bigSep ((sched (F := F) m).duties (ysCell c r) 0 \ ∅) (fun d => (sched (F := F) m).payload (ysCell c r) 0 d) = ysPay m c r := by
  rw [Finset.sdiff_empty, duties_d, bigSep_singleton, payload_ys]
theorem rest_yr (r : Fin 16) : bigSep ((sched (F := F) m).duties (yrCell c r) 0 \ ∅) (fun d => (sched (F := F) m).payload (yrCell c r) 0 d) = yrPay m c r := by
  rw [Finset.sdiff_empty, duties_d, bigSep_singleton, payload_yr]
theorem rest_xs (r : Fin 16) : bigSep ((sched (F := F) m).duties (xsCell c r) 0 \ ∅) (fun d => (sched (F := F) m).payload (xsCell c r) 0 d) = xsPay m c r := by
  rw [Finset.sdiff_empty, duties_d, bigSep_singleton, payload_xs]
theorem rest_xr (r : Fin 16) : bigSep ((sched (F := F) m).duties (xrCell c r) 0 \ ∅) (fun d => (sched (F := F) m).payload (xrCell c r) 0 d) = xrPay m c r := by
  rw [Finset.sdiff_empty, duties_d, bigSep_singleton, payload_xr]

end Sched

/-- info: 'Cert.KernelIdeal.A2A.rest_bar' depends on axioms: [propext, Classical.choice, Quot.sound] -/
#guard_msgs in #print axioms rest_bar
/-- info: 'Cert.KernelIdeal.A2A.sched_payload_storable' depends on axioms: [propext, Classical.choice, Quot.sound] -/
#guard_msgs in #print axioms sched_payload_storable

end Cert.KernelIdeal.A2A

end
-- ==== Proof.KernelIdeal.Owes.lean ====
/- The deadlock argument: each wait of a device sits below everything the device still owes; and the credit the
   other devices owe a device's cells at launch. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Where the tallies are positive -/

theorem L_tc (c : Dev nD) (sm : SemLoc sig) : L ((c : Thread nD τ), sm) = {()} := if_pos rfl

/-- A tally on one cell is positive at that cell only. -/
theorem tallyAt_pos {g g' : GSem nD τ sig} {u : Unit} {k : ℕ} (h : 0 < (tallyAt g () k : CellTallies nD τ sig Unit) g' u) : g' = g := by
  rw [tallyAt_apply] at h
  by_contra hn
  rw [if_neg (fun h' => hn h'.1)] at h
  exact Nat.lt_irrefl 0 h

/-- The forwards still owed sit on the x neighbour's receive cells. -/
theorem OX_pos {c : Dev nD} {rs : List (Fin 16)} {g : GSem nD τ sig} {u : Unit} (h : 0 < OX c rs g u) : ∃ r, g = xrCell (xn c) r := by
  induction rs with
  | nil => exact absurd h (Nat.lt_irrefl 0)
  | cons r rs ih =>
    rw [show OX c (r :: rs) = OX c rs + tallyAt (xrCell (xn c) r) () N64 from rfl, Pi.add_apply, Finsupp.add_apply] at h
    rcases Nat.add_pos_iff_pos_or_pos.mp h with h | h
    · exact ih h
    · exact ⟨r, tallyAt_pos h⟩

/-- The y sends still owed sit on the y neighbour's receive cells, the forwards on the x neighbour's. -/
theorem OY_pos {c : Dev nD} {rs : List (Fin 16)} {g : GSem nD τ sig} {u : Unit} (h : 0 < OY c rs g u) :
    (∃ r, g = yrCell (yn c) r) ∨ (∃ r, g = xrCell (xn c) r) := by
  induction rs with
  | nil => exact Or.inr (OX_pos h)
  | cons r rs ih =>
    rw [show OY c (r :: rs) = OY c rs + tallyAt (yrCell (yn c) r) () N64 from rfl, Pi.add_apply, Finsupp.add_apply] at h
    rcases Nat.add_pos_iff_pos_or_pos.mp h with h | h
    · exact ih h
    · exact Or.inl ⟨r, tallyAt_pos h⟩

/-! ## The levels of the cells -/

theorem lv_bar (d : Dev nD) : lv (barCell d) () = 1 := rfl
theorem lv_yr (d : Dev nD) (r : Fin 16) : lv (yrCell d r) () = 2 := by
  have hr := r.isLt
  show (if 17 ≤ 17 + r.val ∧ 17 + r.val < 33 then 2 else if 49 ≤ 17 + r.val then 3 else 0) = 2
  rw [if_pos ⟨by omega, by omega⟩]
theorem lv_xr (d : Dev nD) (r : Fin 16) : lv (xrCell d r) () = 3 := by
  have hr := r.isLt
  show (if 17 ≤ 49 + r.val ∧ 49 + r.val < 33 then 2 else if 49 ≤ 49 + r.val then 3 else 0) = 3
  rw [if_neg (fun h => by omega), if_pos (by omega)]

/-! ## The waits -/

/-- At its barrier wait a device owes only receive cells, all above its barrier cell. -/
theorem mayWait_bar (c : Dev nD) : (levAts L lv : sProp 𝕄) ⊢ MayWait (c : Thread nD τ) (.reg barS) () (OY c chunks) :=
  MayOwe.of_cut (L := L) (lev := lv) 1 (fun p hp => by rw [Finset.mem_singleton.mp hp, L_tc]; exact Finset.mem_singleton_self _)
    (fun g u hg => by
      rcases OY_pos hg with ⟨r, rfl⟩ | ⟨r, rfl⟩ <;> (rw [L_tc]; exact Finset.mem_singleton_self _))
    (fun p hp => by rw [Finset.mem_singleton.mp hp]; exact le_of_eq (lv_bar c))
    (fun g u hg => by
      rcases OY_pos hg with ⟨r, rfl⟩ | ⟨r, rfl⟩
      · rw [show u = () from rfl, lv_yr]; decide
      · rw [show u = () from rfl, lv_xr]; decide)
/-- At a y-receive wait it owes only its x neighbour's receive cells, above its own y-receive cells. -/
theorem mayWait_yr (c : Dev nD) (r : Fin 16) (rs : List (Fin 16)) :
    (levAts L lv : sProp 𝕄) ⊢ MayWait (c : Thread nD τ) (.dma (yrSem r)) () (OX c rs) :=
  MayOwe.of_cut (L := L) (lev := lv) 2 (fun p hp => by rw [Finset.mem_singleton.mp hp, L_tc]; exact Finset.mem_singleton_self _)
    (fun g u hg => by
      obtain ⟨r', rfl⟩ := OX_pos hg
      rw [L_tc]; exact Finset.mem_singleton_self _)
    (fun p hp => by rw [Finset.mem_singleton.mp hp]; exact le_of_eq (lv_yr c r))
    (fun g u hg => by
      obtain ⟨r', rfl⟩ := OX_pos hg
      rw [show u = () from rfl, lv_xr]; decide)

/-! ## The launch credit -/

theorem chunks_nodup : chunks.Nodup := by decide
theorem chunks_toFinset : chunks.toFinset = Finset.univ := by decide

/-- The forwards owed over a list of distinct chunks, as a sum over the chunks. -/
theorem OX_sum (d : Dev nD) (rs : List (Fin 16)) (h : rs.Nodup) :
    OX d rs = ∑ r ∈ rs.toFinset, (tallyAt (xrCell (xn d) r) () N64 : CellTallies nD τ sig Unit) := by
  induction rs with
  | nil => rfl
  | cons r rs ih =>
    rw [List.toFinset_cons, Finset.sum_insert (by rw [List.mem_toFinset]; exact (List.nodup_cons.mp h).1), ← ih (List.nodup_cons.mp h).2, add_comm]
    rfl
/-- The y sends owed over a list of distinct chunks, over all the forwards. -/
theorem OY_sum (d : Dev nD) (rs : List (Fin 16)) (h : rs.Nodup) :
    OY d rs = OX d chunks + ∑ r ∈ rs.toFinset, (tallyAt (yrCell (yn d) r) () N64 : CellTallies nD τ sig Unit) := by
  induction rs with
  | nil => rw [List.toFinset_nil, Finset.sum_empty, add_zero]; rfl
  | cons r rs ih =>
    rw [List.toFinset_cons, Finset.sum_insert (by rw [List.mem_toFinset]; exact (List.nodup_cons.mp h).1), add_comm (tallyAt _ _ _), ← add_assoc,
      ← ih (List.nodup_cons.mp h).2]
    rfl

/-- What a device owes at launch, summand by summand. -/
theorem O₀_eq : (O₀ : Dev nD → CellTallies nD τ sig Unit) = fun d =>
    (((∑ r : Fin 16, (tallyAt (xrCell (xn d) r) () N64 : CellTallies nD τ sig Unit)) + ∑ r : Fin 16, (tallyAt (yrCell (yn d) r) () N64 : CellTallies nD τ sig Unit))
      + tallyAt (barCell (xn d)) () 1) + tallyAt (barCell (yn d)) () 1 := by
  funext d
  unfold O₀ O₁
  rw [OY_sum d chunks chunks_nodup, OX_sum d chunks chunks_nodup, chunks_toFinset]

/-- The credit tokens a device is dealt at launch for what the others owe its cells. -/
theorem creds (c : Dev nD) : (Pipeline.launchCred O₀ c : sProp 𝕄) ⊢ launchCreds (F := F) c := by
  rw [O₀_eq, Pipeline.launchCred_add, Pipeline.launchCred_add, Pipeline.launchCred_add, Pipeline.launchCred_sum, Pipeline.launchCred_sum]
  unfold launchCreds
  have hY : (bigSep Finset.univ fun r : Fin 16 => (Pipeline.launchCred (fun d => tallyAt (yrCell (yn d) r) () N64) c : sProp 𝕄))
      ⊢ bigSep Finset.univ fun r : Fin 16 => cred (tallyAt (yrCell c r) () N64) :=
    bigSep_mono fun r _ => Pipeline.launchCred_tallyAt (.dma (yrSem r)) yn yn yn_yn yn_yn () N64 c
  have hX : (bigSep Finset.univ fun r : Fin 16 => (Pipeline.launchCred (fun d => tallyAt (xrCell (xn d) r) () N64) c : sProp 𝕄))
      ⊢ bigSep Finset.univ fun r : Fin 16 => cred (tallyAt (xrCell c r) () N64) :=
    bigSep_mono fun r _ => Pipeline.launchCred_tallyAt (.dma (xrSem r)) xn xn xn_xn xn_xn () N64 c
  iintro ⟨⟨⟨HX, HY⟩, HBX⟩, HBY⟩
  isplitl [HBX HBY]
  · rw [← tallyAt_add (barCell c) () 1 1]
    iapply (cred_add _ _).2
    isplitl [HBX]
    · iapply (Pipeline.launchCred_tallyAt (.reg barS) xn xn xn_xn xn_xn () 1 c); iexact HBX
    · iapply (Pipeline.launchCred_tallyAt (.reg barS) yn yn yn_yn yn_yn () 1 c); iexact HBY
  isplitl [HY]
  · iapply hY; iexact HY
  · iapply hX; iexact HX

/-- info: 'Cert.KernelIdeal.A2A.mayWait_bar' depends on axioms: [propext, Classical.choice, Quot.sound] -/
#guard_msgs in #print axioms mayWait_bar

/-- info: 'Cert.KernelIdeal.A2A.creds' depends on axioms: [propext, Classical.choice, Quot.sound] -/
#guard_msgs in #print axioms creds

end Cert.KernelIdeal.A2A

end
-- ==== Proof.KernelIdeal.Split.lean ====
/- A device's two arrays cut along the rectangles its transfers go through, and put back together. The result is
   exactly its own row block, the sixteen chunks that arrive from the y neighbour and the sixteen that arrive from
   the x neighbour; the input is the local copy's column half, the sixteen chunks sent along y, and a rest no
   transfer touches. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The element sets of the views, by coordinates -/

theorem locS_set (c : Dev nD) : (locS c).view.set
    = (Rect.unit (s := S2048x1024) (k0_off4 c) S2048x512.size (k0_off4_inb c)).set :=
  View.set_slice_whole main_arg0 _

/-- The local copy reads every row, at the device's own y's columns. -/
theorem mem_locS (c : Dev nD) (i : S2048x1024.Idx) :
    i ∈ (locS c).view.set ↔ 512 * my c ≤ (i 1).val ∧ (i 1).val < 512 * my c + 512 := by
  rw [locS_set, Rect.mem_set_unit, off4_eq, Fin.forall_fin_two]
  have h0 := idx2_lt0 i
  show (0 ≤ (i 0).val ∧ (i 0).val < 0 + 2048) ∧ (512 * my c ≤ (i 1).val ∧ (i 1).val < 512 * my c + 512) ↔ _
  omega

theorem srcY_set (c : Dev nD) (r : Fin 16) : (srcY c r).view.set
    = (Rect.unit (s := S2048x1024) (k0_off2 c (cw r)) S64x512.size (k0_off2_inb c r)).set :=
  View.set_slice_whole main_arg0 _

/-- Chunk `r` sent along y: sixty-four rows from 1024·x + 64·r, at the other y's columns. -/
theorem mem_srcY (c : Dev nD) (r : Fin 16) (i : S2048x1024.Idx) :
    i ∈ (srcY c r).view.set ↔ (1024 * mx c + 64 * r.val ≤ (i 0).val ∧ (i 0).val < 1024 * mx c + 64 * r.val + 64)
      ∧ (512 - 512 * my c ≤ (i 1).val ∧ (i 1).val < 512 - 512 * my c + 512) := by
  rw [srcY_set, Rect.mem_set_unit, off2_eq, Fin.forall_fin_two]
  rfl

theorem locD_set (c : Dev nD) : (locD c).view.set
    = (Rect.unit (s := S4096x512) (k0_off3 c) S2048x512.size (k0_off3_inb c)).set :=
  View.set_slice_whole main_v1 _

/-- The device's own row block of the result: 2048 rows from 2048·y, every column. -/
theorem mem_locD (c : Dev nD) (i : S4096x512.Idx) :
    i ∈ (locD c).view.set ↔ 2048 * my c ≤ (i 0).val ∧ (i 0).val < 2048 * my c + 2048 := by
  rw [locD_set, Rect.mem_set_unit, off3_eq, Fin.forall_fin_two]
  have h1 := idx2_lt1 i
  show (2048 * my c ≤ (i 0).val ∧ (i 0).val < 2048 * my c + 2048) ∧ (0 ≤ (i 1).val ∧ (i 1).val < 0 + 512) ↔ _
  omega

theorem fwdV_set (c : Dev nD) (r : Fin 16) : (fwdV c r).view.set
    = (Rect.unit (s := S4096x512) (k0_off5 c (cw r)) S64x512.size (k0_off5_inb c r)).set :=
  View.set_slice_whole main_v1 _

/-- Chunk `r` from the y neighbour: sixty-four rows of the other row block, in the half the device's x names. -/
theorem mem_fwdV (c : Dev nD) (r : Fin 16) (i : S4096x512.Idx) :
    i ∈ (fwdV c r).view.set ↔ (1024 * mx c + 64 * r.val + 2048) - 2048 * my c ≤ (i 0).val
      ∧ (i 0).val < (1024 * mx c + 64 * r.val + 2048) - 2048 * my c + 64 := by
  rw [fwdV_set, Rect.mem_set_unit, off5_eq, Fin.forall_fin_two]
  have h1 := idx2_lt1 i
  show ((1024 * mx c + 64 * r.val + 2048) - 2048 * my c ≤ (i 0).val
      ∧ (i 0).val < (1024 * mx c + 64 * r.val + 2048) - 2048 * my c + 64) ∧ (0 ≤ (i 1).val ∧ (i 1).val < 0 + 512) ↔ _
  omega

theorem othV_set (c : Dev nD) (r : Fin 16) : (othV c r).view.set
    = (Rect.unit (s := S4096x512) (k0_off6 c (cw r)) S64x512.size (k0_off6_inb c r)).set :=
  View.set_slice_whole main_v1 _

/-- Chunk `r` from the x neighbour: sixty-four rows of the other row block, in the other half. -/
theorem mem_othV (c : Dev nD) (r : Fin 16) (i : S4096x512.Idx) :
    i ∈ (othV c r).view.set ↔ (64 * r.val + 3072) - (2048 * my c + 1024 * mx c) ≤ (i 0).val
      ∧ (i 0).val < (64 * r.val + 3072) - (2048 * my c + 1024 * mx c) + 64 := by
  rw [othV_set, Rect.mem_set_unit, off6_eq, Fin.forall_fin_two]
  have h1 := idx2_lt1 i
  show ((64 * r.val + 3072) - (2048 * my c + 1024 * mx c) ≤ (i 0).val
      ∧ (i 0).val < (64 * r.val + 3072) - (2048 * my c + 1024 * mx c) + 64) ∧ (0 ≤ (i 1).val ∧ (i 1).val < 0 + 512) ↔ _
  omega

/-! ## The input block -/

/-- Two assertions each of which entails the other are equal. -/
theorem eq_of_equiv {P Q : sProp 𝕄} (h : P ⊣⊢ Q) : P = Q := BI.equiv_iff.mp ⟨h.1, h.2⟩

/-- The chunks sent along y lie in different rows. -/
theorem srcY_disjoint (c : Dev nD) (r r' : Fin 16) (h : r ≠ r') :
    Disjoint (srcY c r).view.set (srcY c r').view.set := by
  refine Finset.disjoint_left.mpr fun i hi hj => ?_
  have h1 := (mem_srcY c r i).mp hi
  have h2 := (mem_srcY c r' i).mp hj
  have hne : r.val ≠ r'.val := fun e => h (Fin.ext e)
  omega

/-- The local copy's columns are not the columns sent along y. -/
theorem locS_disjoint (c : Dev nD) :
    Disjoint (locS c).view.set (Finset.univ.biUnion fun r : Fin 16 => (srcY c r).view.set) := by
  refine Finset.disjoint_left.mpr fun i hi hj => ?_
  obtain ⟨r, _, hj⟩ := Finset.mem_biUnion.mp hj
  have h1 := (mem_locS c i).mp hi
  have h2 := (mem_srcY c r i).mp hj
  have := my_lt c
  omega

/-- The part of the input block no transfer reads. -/
def xRestSet (c : Dev nD) : Finset (Idx ((c : Thread nD τ).loc main_arg0)) :=
  Finset.univ \ ((locS c).view.set ∪ Finset.univ.biUnion fun r : Fin 16 => (srcY c r).view.set)

theorem split_x (c : Dev nD) (f : Buf (Elt F) ((c : Thread nD τ).loc main_arg0)) :
    ((((c : Thread nD τ).loc main_arg0) ↦{fullShare} f) : sProp 𝕄)
      ⊣⊢ iprop(vPts c (locS c) f ∗ (bigSep Finset.univ fun r : Fin 16 => vPts c (srcY c r) f)
          ∗ (((c : Thread nD τ).loc main_arg0) ↦[xRestSet c]{fullShare} f)) := by
  refine BIBase.BiEntails.of_eq ?_
  rw [eq_of_equiv (pointsTo_split_subset (q := fullShare) (f := f)
        (Finset.subset_univ ((locS c).view.set ∪ Finset.univ.biUnion fun r : Fin 16 => (srcY c r).view.set))),
    eq_of_equiv (pointsTo_union (locS_disjoint c)),
    pointsTo_biUnion _ _ (fun r _ r' _ h => srcY_disjoint c r r' h),
    eq_of_equiv sep_assoc]
  rfl

/-! ## The result -/

/-- The chunks from the y neighbour lie in different rows; -/
theorem fwdV_disjoint (c : Dev nD) (r r' : Fin 16) (h : r ≠ r') :
    Disjoint (fwdV c r).view.set (fwdV c r').view.set := by
  refine Finset.disjoint_left.mpr fun i hi hj => ?_
  have h1 := (mem_fwdV c r i).mp hi
  have h2 := (mem_fwdV c r' i).mp hj
  have hne : r.val ≠ r'.val := fun e => h (Fin.ext e)
  have := mx_lt c; have := my_lt c
  omega

/-- so do the chunks from the x neighbour; -/
theorem othV_disjoint (c : Dev nD) (r r' : Fin 16) (h : r ≠ r') :
    Disjoint (othV c r).view.set (othV c r').view.set := by
  refine Finset.disjoint_left.mpr fun i hi hj => ?_
  have h1 := (mem_othV c r i).mp hi
  have h2 := (mem_othV c r' i).mp hj
  have hne : r.val ≠ r'.val := fun e => h (Fin.ext e)
  have := mx_lt c; have := my_lt c
  omega

/-- the two families fill different halves of the other row block; -/
theorem fwdV_othV_disjoint (c : Dev nD) :
    Disjoint (α := Finset (Idx ((c : Thread nD τ).loc main_v1)))
      (Finset.univ.biUnion fun r : Fin 16 => (fwdV c r).view.set)
      (Finset.univ.biUnion fun r : Fin 16 => (othV c r).view.set) := by
  refine Finset.disjoint_left.mpr fun i hi hj => ?_
  obtain ⟨r, _, hi⟩ := Finset.mem_biUnion.mp hi
  obtain ⟨r', _, hj⟩ := Finset.mem_biUnion.mp hj
  have h1 := (mem_fwdV c r i).mp hi
  have h2 := (mem_othV c r' i).mp hj
  have := mx_lt c; have := my_lt c; have := r.isLt; have := r'.isLt
  omega

/-- and the device's own row block meets neither. -/
theorem locD_disjoint (c : Dev nD) :
    Disjoint (locD c).view.set ((Finset.univ.biUnion fun r : Fin 16 => (fwdV c r).view.set)
      ∪ Finset.univ.biUnion fun r : Fin 16 => (othV c r).view.set) := by
  have := mx_lt c; have := my_lt c
  refine Finset.disjoint_left.mpr fun i hi hj => ?_
  have h1 := (mem_locD c i).mp hi
  rcases Finset.mem_union.mp hj with hj | hj
  · obtain ⟨r, _, hj⟩ := Finset.mem_biUnion.mp hj
    have h2 := (mem_fwdV c r i).mp hj
    have := r.isLt
    omega
  · obtain ⟨r, _, hj⟩ := Finset.mem_biUnion.mp hj
    have h2 := (mem_othV c r i).mp hj
    have := r.isLt
    omega

/-- Every row of the result is in the device's own row block or, in the other one, in a chunk of the half its
    position there names: chunk (row mod 1024) / 64. -/
theorem o_cover (c : Dev nD) : (Finset.univ : Finset S4096x512.Idx)
    = (locD c).view.set ∪ ((Finset.univ.biUnion fun r : Fin 16 => (fwdV c r).view.set)
        ∪ Finset.univ.biUnion fun r : Fin 16 => (othV c r).view.set) := by
  refine (Finset.eq_univ_of_forall fun i => ?_).symm
  have h0 := idx2_lt0 i
  have hx := mx_lt c
  have hy := my_lt c
  by_cases hl : 2048 * my c ≤ (i 0).val ∧ (i 0).val < 2048 * my c + 2048
  · exact Finset.mem_union_left _ ((mem_locD c i).mpr hl)
  · refine Finset.mem_union_right _ ?_
    have hr : ((i 0).val % 1024) / 64 < 16 := by omega
    by_cases hf : ((i 0).val % 2048) / 1024 = mx c
    · exact Finset.mem_union_left _ (Finset.mem_biUnion.mpr
        ⟨⟨_, hr⟩, Finset.mem_univ _, (mem_fwdV c _ i).mpr (by dsimp only; omega)⟩)
    · exact Finset.mem_union_right _ (Finset.mem_biUnion.mpr
        ⟨⟨_, hr⟩, Finset.mem_univ _, (mem_othV c _ i).mpr (by dsimp only; omega)⟩)

theorem split_o (c : Dev nD) (f : Buf (Elt F) ((c : Thread nD τ).loc main_v1)) :
    ((((c : Thread nD τ).loc main_v1) ↦{fullShare} f) : sProp 𝕄)
      ⊣⊢ iprop(vPts c (locD c) f ∗ (bigSep Finset.univ fun r : Fin 16 => vPts c (fwdV c r) f)
          ∗ (bigSep Finset.univ fun r : Fin 16 => vPts c (othV c r) f)) := by
  refine BIBase.BiEntails.of_eq ?_
  have hU : (Finset.univ : Finset (Idx ((c : Thread nD τ).loc main_v1))) = _ := o_cover c
  rw [hU, eq_of_equiv (pointsTo_union (locD_disjoint c)),
    eq_of_equiv (pointsTo_union (fwdV_othV_disjoint c)),
    pointsTo_biUnion _ _ (fun r _ r' _ h => fwdV_disjoint c r r' h),
    pointsTo_biUnion _ _ (fun r _ r' _ h => othV_disjoint c r r' h)]

/-- info: 'Cert.KernelIdeal.A2A.split_x' depends on axioms: [propext, Classical.choice, Quot.sound] -/
#guard_msgs in #print axioms split_x

/-- info: 'Cert.KernelIdeal.A2A.split_o' depends on axioms: [propext, Classical.choice, Quot.sound] -/
#guard_msgs in #print axioms split_o

end Cert.KernelIdeal.A2A

end
-- ==== Proof.KernelIdeal.Land.lean ====
/- What each transfer leaves under its destination is the final contents of the receiving device's result there. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Reading a window's elements by coordinates

Every transfer here goes between unit-stride windows of the whole input block and the whole result. Under such a window
the element at window coordinates `(a, b)` is the buffer's element at `(off 0 + a, off 1 + b)`; the final contents of
a result at `(p, q)` are one of three input blocks' element `(p mod 2048, 512·y + q)`, by which quarter of the result
`p` falls in. A landing writes the source's elements over the destination's, so the written contents and the final
contents agree on the destination once the two coordinate computations are compared. -/

/-- Two blocks of the input agree where the devices agree and the coordinates agree. -/
theorem Xb_congr {c c' : Dev nD} (h : c = c') (i i' : S2048x1024.Idx) (hi : ∀ a, (i a).val = (i' a).val) :
    Xb m c i = Xb m c' i' := by
  subst h; congr 1; funext a; exact Fin.ext (hi a)

/-- An element under a unit-stride window of the whole result sits, on each axis, at the window's offset plus its
    own coordinate. -/
theorem oW_emb_val {size : Fin 2 → Nat} (off off' : Fin 2 → Nat) (h : off = off') (p : ∀ a, off a + size a ≤ S4096x512.size a)
    (y : (Rect.unit (s := S4096x512) off size p).shape.Idx) (a : Fin 2) :
    (((oW.slice (Rect.unit (s := S4096x512) off size p) (fun _ => rfl)).view.emb y) a).val = off' a + (y a).val := by
  subst h; show off a + 1 * (y a).val = _; omega

/-- The same for a window of the whole input block. -/
theorem xW_emb_val {size : Fin 2 → Nat} (off off' : Fin 2 → Nat) (h : off = off') (p : ∀ a, off a + size a ≤ S2048x1024.size a)
    (y : (Rect.unit (s := S2048x1024) off size p).shape.Idx) (a : Fin 2) :
    (((xW.slice (Rect.unit (s := S2048x1024) off size p) (fun _ => rfl)).view.emb y) a).val = off' a + (y a).val := by
  subst h; show off a + 1 * (y a).val = _; omega

/-- The final contents at row `p`, column `q`, read at any index `j` of the input block with coordinates
    `p mod 2048` and `512·y + q`. -/
theorem Gfin_at (c : Dev nD) (i : S4096x512.Idx) (p q : Nat) (hp : (i 0).val = p) (hq : (i 1).val = q)
    (j : S2048x1024.Idx) (hj0 : (j 0).val = p % 2048) (hj1 : (j 1).val = 512 * my c + q) :
    Gfin m c i = if p / 2048 = my c then Xb m c j
      else if (p % 2048) / 1024 = mx c then Xb m (yn c) j else Xb m (yn (xn c)) j := by
  subst hp hq
  have hj : j = ix2 (⟨(i 0).val % 2048, Nat.mod_lt _ (by decide)⟩ : Fin 2048)
      (⟨512 * my c + (i 1).val, by have h1 : (i 1).val < 512 := (i 1).isLt; have h2 := my_lt c; omega⟩ : Fin 1024) := by
    funext a
    match a with
    | ⟨0, _⟩ => exact Fin.ext hj0
    | ⟨1, _⟩ => exact Fin.ext hj1
  rw [hj]; rfl

/-- An index of the input block with given row (mod 2048) and column `512·y + q`. -/
theorem exists_src (c : Dev nD) (p q : Nat) (hq : q < 512) :
    ∃ j : S2048x1024.Idx, (j 0).val = p % 2048 ∧ (j 1).val = 512 * my c + q :=
  ⟨ix2 (⟨p % 2048, Nat.mod_lt _ (by decide)⟩ : Fin 2048) (⟨512 * my c + q, by have := my_lt c; omega⟩ : Fin 1024), rfl, rfl⟩

/-- A y send's chunk, landed on the y neighbour. -/
theorem land_y (c : Dev nD) (r : Fin 16) (fd : Buf (Elt F) ((dstY c r).view.loc (yn c : Thread nD τ))) :
    (vPts (yn c) (dstY c r) ((dstY c r).view.write (Elt F) fd ((srcY c r).view.read (Elt F) (Xb m c)) Finset.univ) : sProp 𝕄)
      = vPts (yn c) (dstY c r) (Gfin m (yn c)) := by
  refine pointsTo_congr (fun i hi => ?_)
  obtain ⟨y, rfl⟩ := View.exists_emb_of_mem_set _ hi
  rw [View.write_emb_of_mem _ _ (Finset.mem_univ y)]
  show Xb m c ((srcY c r).view.emb y) = Gfin m (yn c) ((dstY c r).view.emb y)
  have d0 : (((dstY c r).view.emb y) 0).val = 2048 * my c + 1024 * mx c + 64 * r.val + (y 0).val :=
    oW_emb_val _ _ (off1_eq c r) (k0_off1_inb c r) y 0
  have d1 : (((dstY c r).view.emb y) 1).val = 0 + (y 1).val :=
    oW_emb_val _ _ (off1_eq c r) (k0_off1_inb c r) y 1
  have s0 : (((srcY c r).view.emb y) 0).val = 1024 * mx c + 64 * r.val + (y 0).val :=
    xW_emb_val _ _ (off2_eq c r) (k0_off2_inb c r) y 0
  have s1 : (((srcY c r).view.emb y) 1).val = 512 - 512 * my c + (y 1).val :=
    xW_emb_val _ _ (off2_eq c r) (k0_off2_inb c r) y 1
  have hy0 : (y 0).val < 64 := (y 0).isLt
  have hy1 : (y 1).val < 512 := (y 1).isLt
  have hx := mx_lt c; have hm := my_lt c; have hr := r.isLt
  rw [Gfin_at m (yn c) _ _ _ d0 d1 ((srcY c r).view.emb y) (by rw [s0]; omega) (by rw [s1, my_yn]; omega),
    if_neg (by rw [my_yn]; omega), if_pos (by rw [mx_yn]; omega)]
  exact Xb_congr m (yn_yn c).symm _ _ (fun _ => rfl)

/-- A forwarded chunk, landed on the x neighbour. -/
theorem land_x (c : Dev nD) (r : Fin 16) (fd : Buf (Elt F) ((fwdV c r).view.loc (xn c : Thread nD τ))) :
    (vPts (xn c) (fwdV c r) ((fwdV c r).view.write (Elt F) fd ((fwdV c r).view.read (Elt F) (Gfin m c)) Finset.univ) : sProp 𝕄)
      = vPts (xn c) (fwdV c r) (Gfin m (xn c)) := by
  refine pointsTo_congr (fun i hi => ?_)
  obtain ⟨y, rfl⟩ := View.exists_emb_of_mem_set _ hi
  rw [View.write_emb_of_mem _ _ (Finset.mem_univ y)]
  show Gfin m c ((fwdV c r).view.emb y) = Gfin m (xn c) ((fwdV c r).view.emb y)
  have f0 : (((fwdV c r).view.emb y) 0).val = (1024 * mx c + 64 * r.val + 2048) - 2048 * my c + (y 0).val :=
    oW_emb_val _ _ (off5_eq c r) (k0_off5_inb c r) y 0
  have f1 : (((fwdV c r).view.emb y) 1).val = 0 + (y 1).val :=
    oW_emb_val _ _ (off5_eq c r) (k0_off5_inb c r) y 1
  have hy0 : (y 0).val < 64 := (y 0).isLt
  have hy1 : (y 1).val < 512 := (y 1).isLt
  have hx := mx_lt c; have hm := my_lt c; have hr := r.isLt
  obtain ⟨j, hj0, hj1⟩ := exists_src c ((1024 * mx c + 64 * r.val + 2048) - 2048 * my c + (y 0).val) (0 + (y 1).val) (by omega)
  rw [Gfin_at m c _ _ _ f0 f1 j hj0 hj1, Gfin_at m (xn c) _ _ _ f0 f1 j hj0 (by rw [my_xn]; exact hj1),
    if_neg (by omega), if_pos (by omega), if_neg (by rw [my_xn]; omega), if_neg (by rw [mx_xn]; omega)]
  exact Xb_congr m (by rw [xn_xn]) _ _ (fun _ => rfl)

/-- The local copy, landed. -/
theorem land_l (c : Dev nD) (fd : Buf (Elt F) ((locD c).view.loc (c : Thread nD τ))) :
    (vPts c (locD c) ((locD c).view.write (Elt F) fd ((locS c).view.read (Elt F) (Xb m c)) Finset.univ) : sProp 𝕄)
      = vPts c (locD c) (Gfin m c) := by
  refine pointsTo_congr (fun i hi => ?_)
  obtain ⟨y, rfl⟩ := View.exists_emb_of_mem_set _ hi
  rw [View.write_emb_of_mem _ _ (Finset.mem_univ y)]
  show Xb m c ((locS c).view.emb y) = Gfin m c ((locD c).view.emb y)
  have l0 : (((locD c).view.emb y) 0).val = 2048 * my c + (y 0).val :=
    oW_emb_val _ _ (off3_eq c) (k0_off3_inb c) y 0
  have l1 : (((locD c).view.emb y) 1).val = 0 + (y 1).val :=
    oW_emb_val _ _ (off3_eq c) (k0_off3_inb c) y 1
  have t0 : (((locS c).view.emb y) 0).val = 0 + (y 0).val :=
    xW_emb_val _ _ (off4_eq c) (k0_off4_inb c) y 0
  have t1 : (((locS c).view.emb y) 1).val = 512 * my c + (y 1).val :=
    xW_emb_val _ _ (off4_eq c) (k0_off4_inb c) y 1
  have hy0 : (y 0).val < 2048 := (y 0).isLt
  have hy1 : (y 1).val < 512 := (y 1).isLt
  have hm := my_lt c
  rw [Gfin_at m c _ _ _ l0 l1 ((locS c).view.emb y) (by rw [t0]; omega) (by rw [t1]; omega), if_pos (by omega)]

/-- info: 'Cert.KernelIdeal.A2A.land_y' depends on axioms: [propext, Classical.choice, Quot.sound] -/
#guard_msgs in #print axioms land_y

/-- info: 'Cert.KernelIdeal.A2A.land_x' depends on axioms: [propext, Classical.choice, Quot.sound] -/
#guard_msgs in #print axioms land_x

end Cert.KernelIdeal.A2A

end
-- ==== Proof.KernelIdeal.Reindex.lean ====
/- Sums over a device's cells, cut by kind: the barrier cell and the DMA cells; the DMA cells into the local copy's and, per chunk, the four of that chunk. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- A separating conjunction over a device's sixty-six cells: the barrier cell's summand and the DMA cells'. -/
theorem bigSep_opt (Φ : Option (DmaSem sig) → sProp 𝕄) :
    bigSep Finset.univ Φ = iprop(Φ none ∗ bigSep Finset.univ fun q : DmaSem sig => Φ (some q)) := by
  have h : (Finset.univ : Finset (Option (DmaSem sig))).erase none = Finset.univ.map Function.Embedding.some := by
    ext o
    rw [Finset.mem_erase, Finset.mem_map]
    constructor
    · rintro ⟨hne, -⟩
      cases o with
      | none => exact absurd rfl hne
      | some q => exact ⟨q, Finset.mem_univ _, rfl⟩
    · rintro ⟨q, -, rfl⟩
      exact ⟨fun h => (by cases h), Finset.mem_univ _⟩
  rw [bigSep_univ_at Φ none, h, bigSep_map]
  rfl

/-- The DMA semaphore of kind k (y send, y receive, x send, x receive) and chunk r: number 1 + 16·k + r. -/
def kindSem (kr : Fin 4 × Fin 16) : DmaSem sig :=
  ⟨1 + 16 * kr.1.val + kr.2.val, by have h1 := kr.1.isLt; have h2 := kr.2.isLt; show 1 + 16 * kr.1.val + kr.2.val < 65; omega⟩

theorem kindSem_injective : Function.Injective kindSem := by
  rintro ⟨k, r⟩ ⟨k', r'⟩ h
  have h' : 1 + 16 * k.val + r.val = 1 + 16 * k'.val + r'.val := congrArg Fin.val h
  have h1 := r.isLt
  have h2 := r'.isLt
  exact Prod.ext (Fin.ext (by show k.val = k'.val; omega)) (Fin.ext (by show r.val = r'.val; omega))

/-- Every DMA semaphore but the local copy's is of exactly one kind and chunk. -/
theorem erase_lSem : (Finset.univ : Finset (DmaSem sig)).erase lSem = Finset.univ.map ⟨kindSem, kindSem_injective⟩ := by
  ext q
  rw [Finset.mem_erase, Finset.mem_map]
  constructor
  · rintro ⟨hne, -⟩
    have hq : q.val < 65 := q.isLt
    have h0 : q.val ≠ 0 := fun h => hne (Fin.ext h)
    refine ⟨(⟨(q.val - 1) / 16, by omega⟩, ⟨(q.val - 1) % 16, by omega⟩), Finset.mem_univ _, Fin.ext ?_⟩
    show 1 + 16 * ((q.val - 1) / 16) + (q.val - 1) % 16 = q.val
    omega
  · rintro ⟨kr, -, rfl⟩
    refine ⟨fun h => ?_, Finset.mem_univ _⟩
    have h' : 1 + 16 * kr.1.val + kr.2.val = 0 := congrArg Fin.val h
    omega

theorem kindSem_ys (r : Fin 16) : kindSem (0, r) = ysSem r := Fin.ext (by show 1 + 16 * 0 + r.val = 1 + r.val; omega)
theorem kindSem_yr (r : Fin 16) : kindSem (1, r) = yrSem r := Fin.ext (by show 1 + 16 * 1 + r.val = 17 + r.val; omega)
theorem kindSem_xs (r : Fin 16) : kindSem (2, r) = xsSem r := Fin.ext (by show 1 + 16 * 2 + r.val = 33 + r.val; omega)
theorem kindSem_xr (r : Fin 16) : kindSem (3, r) = xrSem r := Fin.ext (by show 1 + 16 * 3 + r.val = 49 + r.val; omega)

/-- A separating conjunction over the sixty-five DMA semaphores: the local copy's, and per chunk the y send's, the y receive's, the x send's and the x receive's. -/
theorem bigSep_dma (Φ : DmaSem sig → sProp 𝕄) :
    bigSep Finset.univ Φ = iprop(Φ lSem ∗ bigSep Finset.univ fun r : Fin 16 => iprop(Φ (ysSem r) ∗ Φ (yrSem r) ∗ Φ (xsSem r) ∗ Φ (xrSem r))) := by
  rw [bigSep_univ_at Φ lSem, erase_lSem, bigSep_map, bigSep_univ_prod, bigSep_univ_eq_bigSepL ([0, 1, 2, 3] : List (Fin 4)) (by decide) (by decide),
    bigSep_sep', bigSep_sep', bigSep_sep']
  simp only [← kindSem_ys, ← kindSem_yr, ← kindSem_xs, ← kindSem_xr]
  rfl

/-- A separating conjunction over the sixteen chunks, written out in program order. -/
theorem bigSep_chunks (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL chunks (by decide) (by decide) Φ

/-- info: 'Cert.KernelIdeal.A2A.bigSep_opt' depends on axioms: [propext, Classical.choice, Quot.sound] -/
#guard_msgs in #print axioms bigSep_opt

/-- info: 'Cert.KernelIdeal.A2A.bigSep_dma' depends on axioms: [propext, Classical.choice, Quot.sound] -/
#guard_msgs in #print axioms bigSep_dma

end Cert.KernelIdeal.A2A

end
-- ==== Proof.KernelIdeal.Steps.lean ====
/- One rule per effect of a device's body: the two barrier signals, the barrier wait, a chunk's send along y, the local
   copy, a chunk's receive wait and its forward along x, a forwarded chunk's receive wait, and the waits that close the
   device's own sends. Each is stated at a symbolic device and chunk. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import proofs.«900639_g7700000000000640_dist_a2a_v7x_xyz2x2x4_y_m2048_n512_f32_1_alg».proof.Proof.KernelIdeal.Sched
import proofs.«900639_g7700000000000640_dist_a2a_v7x_xyz2x2x4_y_m2048_n512_f32_1_alg».proof.Proof.KernelIdeal.Owes
import proofs.«900639_g7700000000000640_dist_a2a_v7x_xyz2x2x4_y_m2048_n512_f32_1_alg».proof.Proof.KernelIdeal.Land
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

theorem inv_at (ck : Dev nD × Option (DmaSem sig)) : records m K ⊢ cellInv ER (sched m) (K ck) (kcell ck) := by
  unfold records
  exact sep_elim_left.trans (bigSep_elim (Φ := fun ck : Dev nD × Option (DmaSem sig) => (cellInv ER (sched m) (K ck) (kcell ck) : sProp 𝕄)) (Finset.mem_univ ck))
theorem reached_at (ck : Dev nD × Option (DmaSem sig)) : records m K ⊢ reached ER (kcell ck) 0 := by
  unfold records
  exact sep_elim_right.trans (bigSep_elim (Φ := fun ck : Dev nD × Option (DmaSem sig) => (reached ER (kcell ck) 0 : sProp 𝕄)) (Finset.mem_univ ck))

theorem payY_one (c : Dev nD) (r : Fin 16) :
    iprop(records m K ∗ ∃ f, vPts (F := F) c (fwdV c r) f) ⊢ iprop((∃ f, vPts (F := F) c (fwdV c r) f) ∗ reached ER (yrCell c r) 0) := by
  iintro ⟨#HR, H⟩
  isplitl [H]; · iexact H
  iapply (reached_at m K (c, some (yrSem r))); iexact HR
theorem payX_one (c : Dev nD) (r : Fin 16) :
    iprop(records m K ∗ ∃ f, vPts (F := F) c (othV c r) f) ⊢ iprop((∃ f, vPts (F := F) c (othV c r) f) ∗ reached ER (xrCell c r) 0) := by
  iintro ⟨#HR, H⟩
  isplitl [H]; · iexact H
  iapply (reached_at m K (c, some (xrSem r))); iexact HR

/-- What a device hands its y neighbour with its barrier unit: its own rows that the neighbour's sends write. -/
theorem barPayY_intro (c : Dev nD) :
    iprop(records m K ∗ bigSep Finset.univ fun r : Fin 16 => iprop(∃ f, vPts (F := F) c (fwdV c r) f)) ⊢ barPayY (yn c) := by
  unfold barPayY; rw [yn_yn]
  refine (sep_mono_left (bigSep_of_persistent (Finset.univ : Finset (Fin 16)) (records m K))).trans ?_
  rw [← bigSep_sep']
  exact bigSep_mono fun r _ => payY_one m K c r
/-- What it hands its x neighbour: its own rows that the neighbour's forwards write. -/
theorem barPayX_intro (c : Dev nD) :
    iprop(records m K ∗ bigSep Finset.univ fun r : Fin 16 => iprop(∃ f, vPts (F := F) c (othV c r) f)) ⊢ barPayX (xn c) := by
  unfold barPayX; rw [xn_xn]
  refine (sep_mono_left (bigSep_of_persistent (Finset.univ : Finset (Fin 16)) (records m K))).trans ?_
  rw [← bigSep_sep']
  exact bigSep_mono fun r _ => payX_one m K c r

section Steps

/-- The first signal: the unit on the y neighbour's barrier, handing it the rows of this device's result that it will write. -/
theorem step_signalY {α : Type} {Q : α → sProp 𝕄} {k : PUnit → Prog (TpuEff nD τ sig (Elt F) Λ₀ .tc) α} (c n : Dev nD) (hn : n = yn c) (W : Waits sig Unit) :
    ⊢ iprop(records m K -∗ owes (c : Thread nD τ) (O₀ c) W -∗ dutyTok ER (barCell (yn c)) 0 false
        -∗ (bigSep Finset.univ fun r : Fin 16 => iprop(∃ f, vPts (F := F) c (fwdV c r) f))
        -∗ (owes (c : Thread nD τ) (O₁ c) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS (1#32).toNat) k) Q) := by
  subst hn
  iintro #HR HO Htok Hpay
  iapply (Rounds.wp_signal 𝒱₀ ER (sched m) (c : Thread nD τ) none (dst := (yn c : Thread nD τ)) (κ := K (yn c, none))
      (d := false) (by rw [duties_bar]; exact Finset.mem_univ _) ((amount_bar m (yn c) false).trans (by decide)) () (O₁ c) rfl)
    $$ [HO Htok Hpay]
  isplitr; · iapply (inv_at m K (yn c, none)); iexact HR
  isplitl [HO]; · iexact HO
  isplitl [Htok]; · iexact Htok
  isplitl [Hpay]
  · rw [payload_bar_false]
    iapply (barPayY_intro m K c)
    isplitr; · iexact HR
    iexact Hpay
  · iapply (reached_at m K (yn c, none)); iexact HR

/-- The second signal: the unit on the x neighbour's barrier, handing it the rows it will forward into. -/
theorem step_signalX {α : Type} {Q : α → sProp 𝕄} {k : PUnit → Prog (TpuEff nD τ sig (Elt F) Λ₀ .tc) α} (c n : Dev nD) (hn : n = xn c) (W : Waits sig Unit) :
    ⊢ iprop(records m K -∗ owes (c : Thread nD τ) (O₁ c) W -∗ dutyTok ER (barCell (xn c)) 0 true
        -∗ (bigSep Finset.univ fun r : Fin 16 => iprop(∃ f, vPts (F := F) c (othV c r) f))
        -∗ (owes (c : Thread nD τ) (OY c chunks) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS (1#32).toNat) k) Q) := by
  subst hn
  iintro #HR HO Htok Hpay
  iapply (Rounds.wp_signal 𝒱₀ ER (sched m) (c : Thread nD τ) none (dst := (xn c : Thread nD τ)) (κ := K (xn c, none))
      (d := true) (by rw [duties_bar]; exact Finset.mem_univ _) ((amount_bar m (xn c) true).trans (by decide)) () (OY c chunks) rfl)
    $$ [HO Htok Hpay]
  isplitr; · iapply (inv_at m K (xn c, none)); iexact HR
  isplitl [HO]; · iexact HO
  isplitl [Htok]; · iexact Htok
  isplitl [Hpay]
  · rw [payload_bar_true]
    iapply (barPayX_intro m K c)
    isplitr; · iexact HR
    iexact Hpay
  · iapply (reached_at m K (xn c, none)); iexact HR

/-- The barrier wait: both neighbours are in the kernel, and each has handed over the rows this device writes on it. -/
theorem step_waitBar {α : Type} {Q : α → sProp 𝕄} {k : PUnit → Prog (TpuEff nD τ sig (Elt F) Λ₀ .tc) α} (c : Dev nD) (W : Waits sig Unit) :
    ⊢ iprop(records m K -∗ cred (tallyAt (barCell c) () 2) -∗ owes (c : Thread nD τ) (OY c chunks) W -∗ levAts L lv
        -∗ atPos ER (barCell c) 0 ∅ 0
        -∗ ((owes (c : Thread nD τ) (OY c chunks) (insert (SemLoc.reg barS, ()) W) ∗ atPos ER (barCell c) (0 + 1) ∅ 0 ∗ barPayY (F := F) c ∗ barPayX (F := F) c)
              -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32).toNat) k) Q) := by
  iintro #HR Hc HO #Hlev Hat Hk
  iapply (Rounds.wp_wait_rest_token 𝒱₀ ER (sched m) (c : Thread nD τ) none (κ := K (c, none))
      (wpE_semWait_eq 𝒱₀ (c : Thread nD τ) none Set.univ) (Set.mem_univ _) () (O := OY c chunks) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Points-to under slices of the result at equal offsets are the same assertion. -/
theorem vPts_slice_congr (d : Dev nD) {off off' : Fin 2 → Nat} (h : off = off')
    (p : ∀ a, off a + S64x512.size a ≤ S4096x512.size a) (p' : ∀ a, off' a + S64x512.size a ≤ S4096x512.size a)
    (g : Buf (Elt F) ((d : Thread nD τ).loc main_v1)) :
    (vPts d (oW.slice (Rect.unit (s := S4096x512) off S64x512.size p) (fun _ => rfl)) g : sProp 𝕄)
      = vPts d (oW.slice (Rect.unit (s := S4096x512) off' S64x512.size p') (fun _ => rfl)) g := by
  subst h; rfl
theorem vPts_dstY (c : Dev nD) (r : Fin 16) (d : Dev nD) (g : Buf (Elt F) ((d : Thread nD τ).loc main_v1)) :
    (vPts d (dstY c r) g : sProp 𝕄) = vPts d (fwdV (yn c) r) g := vPts_slice_congr d (off1_eq_off5 c r) _ _ g
theorem vPts_fwdV (c : Dev nD) (r : Fin 16) (d : Dev nD) (g : Buf (Elt F) ((d : Thread nD τ).loc main_v1)) :
    (vPts d (fwdV c r) g : sProp 𝕄) = vPts d (othV (xn c) r) g := vPts_slice_congr d (off5_eq_off6 c r) _ _ g

set_option maxHeartbeats 1600000 in
/-- Chunk `r`'s send along y. -/
theorem step_ysend {α : Type} {Q : α → sProp 𝕄} {k : PUnit → Prog (TpuEff nD τ sig (Elt F) Λ₀ .tc) α} (c n : Dev nD) (hn : n = yn c) (r : Fin 16) (rs : List (Fin 16)) (q₁ q₂ : DmaSem sig) (h₁ : q₁ = ysSem r) (h₂ : q₂ = yrSem r)
    (src dst : Memref sig .tc .hbm S64x512 .f32) (hs : src = srcY c r) (hd : dst = dstY c r)
    {hsc : (dst : Memref sig (Dev.tc n : Thread nD τ).2.kind .hbm S64x512 .f32).view.ref.isScScratch = false}
    {hsrc : src.view.WordExact} {hdst : dst.view.WordExact}
    {hsem : DmaTarget.Typed .hbm (.dma q₂) (.remote (Dev.tc n : Thread nD τ) dst (.dma q₁) hsc)}
    (W : Waits sig Unit) :
    ⊢ iprop(records m K -∗ vPts c (srcY c r) (Xb m c) -∗ (∃ f, vPts (F := F) (yn c) (fwdV (yn c) r) f) -∗ owes (c : Thread nD τ) (OY c (r :: rs)) W
        -∗ dutyTok ER (ysCell c r) 0 false -∗ dutyTok ER (yrCell (yn c) r) 0 false
        -∗ ((cred (tallyAt (ysCell c r) () N64) ∗ owes (c : Thread nD τ) (OY c rs) W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma q₁) hsc) (.dma q₂) hsrc hdst hsem) k) Q) := by
  subst hn h₁ h₂ hs hd
  iintro #HR Hsrc ⟨%fd, Hdst⟩ HO Ht1 Ht2
  ihave Hdst := (Entails.of_eq (vPts_dstY c r (yn c) fd).symm) $$ Hdst
  iapply (Rounds.wp_send_pointsTo 𝒱₀ ER (sched m) (c : Thread nD τ) none (κ₁ := K (c, some (ysSem r))) (κ₂ := K (yn c, some (yrSem r)))
    (c' := (yn c : Thread nD τ)) (src := srcY c r) (dst := dstY c r) (q := fullShare) (fs := Xb m c)
    (r₁ := 0) (r₂ := 0) (d₁ := false) (d₂ := false) (fd := fd)
    (by rw [duties_d]; exact Finset.mem_singleton_self _) (by rw [duties_d]; exact Finset.mem_singleton_self _)
    () () N64 rfl (amount_ys m c r false) (amount_yr m (yn c) r false) (OY c rs) rfl (W := W)
    (by rw [payload_ys]; exact BI.Entails.refl _)
    (by rw [payload_yr]; unfold yrPay; rw [← vPts_dstY]; exact Entails.of_eq (land_y m c r fd))) $$ [Hsrc Hdst HO Ht1 Ht2]
  isplitr; · iapply (inv_at m K (c, some (ysSem r))); iexact HR
  isplitr; · iapply (inv_at m K (yn c, some (yrSem r))); iexact HR
  isplitl [Hsrc]; · iexact Hsrc
  isplitl [Hdst]; · iexact Hdst
  isplitl [HO]; · iexact HO
  isplitl [Ht1]; · iexact Ht1
  isplitr; · iapply (reached_at m K (c, some (ysSem r))); iexact HR
  isplitl [Ht2]; · iexact Ht2
  iapply (reached_at m K (yn c, some (yrSem r))); iexact HR

/-- The local copy. -/
theorem step_local {α : Type} {Q : α → sProp 𝕄} {k : PUnit → Prog (TpuEff nD τ sig (Elt F) Λ₀ .tc) α} (c : Dev nD) (q : DmaSem sig) (hq : q = lSem)
    (src dst : Memref sig .tc .hbm S2048x512 .f32) (hs : src = locS c) (hd : dst = locD c)
    {hsrc : src.view.WordExact} {hdst : dst.view.WordExact} {hsem : DmaTarget.Typed .hbm (.dma q) (DmaTarget.here dst : DmaTarget nD τ sig (c : Thread nD τ).2 .hbm S2048x512 .f32)} :
    ⊢ iprop(records m K -∗ vPts c (locS c) (Xb m c) -∗ (∃ f, vPts (F := F) c (locD c) f) -∗ dutyTok ER (lCell c) 0 false
        -∗ (cred (tallyAt (lCell c) () NL) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma q) hsrc hdst hsem) k) Q) := by
  subst hq hs hd
  iintro #HR Hsrc ⟨%fd, Hdst⟩ Ht
  iapply (Rounds.wp_copy_pointsTo 𝒱₀ ER (sched m) (c : Thread nD τ) none (κ := K (c, some lSem)) (r := 0) (d := false) (fd := fd)
    (by rw [duties_d]; exact Finset.mem_singleton_self _) () NL rfl (amount_l m c false)
    (by rw [payload_l]; unfold lPay; rw [← land_l m c fd])) $$ [Hsrc Hdst Ht]
  isplitr; · iapply (inv_at m K (c, some lSem)); iexact HR
  isplitl [Hsrc]; · iexact Hsrc
  isplitl [Hdst]; · iexact Hdst
  isplitl [Ht]; · iexact Ht
  iapply (reached_at m K (c, some lSem)); iexact HR

/-- A wait on one of the device's own DMA cells for its one duty: the duty's payload comes with it. -/
theorem step_waitD {α : Type} {Q : α → sProp 𝕄} {k : PUnit → Prog (TpuEff nD τ sig (Elt F) Λ₀ .tc) α} (c : Dev nD) (q : DmaSem sig) (q' : DmaSem sig) (hq : q' = q) (N : ℕ) (hexp : (sched (F := F) m).expect (dCell c q) 0 = N)
    {sp sp' : Space} {s s' : Shape} {e e' : EltTy} (sv : Memref sig .tc sp' s' e') (dv : Memref sig .tc sp s e) (hN : dv.view.dmaCredit = N)
    {hsv : sv.view.WordExact} {hdv : dv.view.WordExact}
    (O : CellTallies nD τ sig Unit) (W : Waits sig Unit) :
    ⊢ iprop(records m K -∗ cred (tallyAt (dCell c q) () N) -∗ owes (c : Thread nD τ) O W -∗ MayWait (c : Thread nD τ) (.dma q) () O
        -∗ atPos ER (dCell c q) 0 ∅ 0
        -∗ ((owes (c : Thread nD τ) O (insert (SemLoc.dma q, ()) W) ∗ atPos ER (dCell c q) (0 + 1) ∅ 0
              ∗ bigSep ((sched (F := F) m).duties (dCell c q) 0 \ ∅) (fun d => (sched (F := F) m).payload (dCell c q) 0 d))
              -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q' sv dv hsv hdv) k) Q) := by
  subst hN
  subst q'
  iintro #HR Hc HO Hmw Hat Hk
  iapply (Rounds.wp_wait_rest_token 𝒱₀ ER (sched m) (c : Thread nD τ) none (κ := K (c, some q))
      (wpE_waitDma2_eq 𝒱₀ (c : Thread nD τ) none Set.univ) (Set.mem_univ _) () (O := O) (W := W) (R := 0) (m := 0) (T := ∅)
      (by rw [Nat.zero_add, hexp])) $$ [Hc HO Hmw Hat]
  · isplitr; · iapply (inv_at m K (c, some q)); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iexact Hpay

set_option maxHeartbeats 1600000 in
/-- Chunk `r`'s forward along x, from where the y neighbour's send landed. -/
theorem step_fwd {α : Type} {Q : α → sProp 𝕄} {k : PUnit → Prog (TpuEff nD τ sig (Elt F) Λ₀ .tc) α} (c n : Dev nD) (hn : n = xn c) (r : Fin 16) (rs : List (Fin 16)) (q₁ q₂ : DmaSem sig) (h₁ : q₁ = xsSem r) (h₂ : q₂ = xrSem r)
    (src dst : Memref sig .tc .hbm S64x512 .f32) (hs : src = fwdV c r) (hd : dst = fwdV c r)
    {hsc : (dst : Memref sig (Dev.tc n : Thread nD τ).2.kind .hbm S64x512 .f32).view.ref.isScScratch = false}
    {hsrc : src.view.WordExact} {hdst : dst.view.WordExact}
    {hsem : DmaTarget.Typed .hbm (.dma q₂) (.remote (Dev.tc n : Thread nD τ) dst (.dma q₁) hsc)}
    (W : Waits sig Unit) :
    ⊢ iprop(records m K -∗ vPts c (fwdV c r) (Gfin m c) -∗ (∃ f, vPts (F := F) (xn c) (othV (xn c) r) f) -∗ owes (c : Thread nD τ) (OX c (r :: rs)) W
        -∗ dutyTok ER (xsCell c r) 0 false -∗ dutyTok ER (xrCell (xn c) r) 0 false
        -∗ ((cred (tallyAt (xsCell c r) () N64) ∗ owes (c : Thread nD τ) (OX c rs) W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma q₁) hsc) (.dma q₂) hsrc hdst hsem) k) Q) := by
  subst hn h₁ h₂ hs hd
  iintro #HR Hsrc ⟨%fd, Hdst⟩ HO Ht1 Ht2
  ihave Hdst := (Entails.of_eq (vPts_fwdV c r (xn c) fd).symm) $$ Hdst
  iapply (Rounds.wp_send_pointsTo 𝒱₀ ER (sched m) (c : Thread nD τ) none (κ₁ := K (c, some (xsSem r))) (κ₂ := K (xn c, some (xrSem r)))
    (c' := (xn c : Thread nD τ)) (src := fwdV c r) (dst := fwdV c r) (q := fullShare) (fs := Gfin m c)
    (r₁ := 0) (r₂ := 0) (d₁ := false) (d₂ := false) (fd := fd)
    (by rw [duties_d]; exact Finset.mem_singleton_self _) (by rw [duties_d]; exact Finset.mem_singleton_self _)
    () () N64 rfl (amount_xs m c r false) (amount_xr m (xn c) r false) (OX c rs) rfl (W := W)
    (by rw [payload_xs]; exact BI.Entails.refl _)
    (by rw [payload_xr]; unfold xrPay; rw [← vPts_fwdV]; exact Entails.of_eq (land_x m c r fd))) $$ [Hsrc Hdst HO Ht1 Ht2]
  isplitr; · iapply (inv_at m K (c, some (xsSem r))); iexact HR
  isplitr; · iapply (inv_at m K (xn c, some (xrSem r))); iexact HR
  isplitl [Hsrc]; · iexact Hsrc
  isplitl [Hdst]; · iexact Hdst
  isplitl [HO]; · iexact HO
  isplitl [Ht1]; · iexact Ht1
  isplitr; · iapply (reached_at m K (c, some (xsSem r))); iexact HR
  isplitl [Ht2]; · iexact Ht2
  iapply (reached_at m K (xn c, some (xrSem r))); iexact HR

/-- A device's own DMA cell, its one round over, closes: its counter is zero again. -/
theorem close_one (c : Dev nD) (q : DmaSem sig) :
    iprop(records m K ∗ atPos ER (dCell c q) (0 + 1) ∅ 0) ⊢ iprop(|={Set.univ}=> semVal (dCell c q) 0) := by
  iintro ⟨#HR, Hat⟩
  iapply (Rounds.cell_close ER (sched m) (Set.mem_univ (K (c, some q))) (fun h => h) (R := 0 + 1) (duties_later m (dCell c q)))
  isplitr; · iapply (inv_at m K (c, some q)); iexact HR
  iexact Hat

end Steps

end Cert.KernelIdeal.A2A

end
-- ==== Proof.KernelIdeal.Body.lean ====
/- One device's body, run once at a symbolic device: its two arrays are cut along the transfers' rectangles; the two
   barrier units go out with the rows the neighbours will write; after the barrier wait the sixteen chunks go to the y
   neighbour and the local copy starts; each chunk that arrives from the y neighbour is forwarded to the x neighbour;
   the forwarded chunks of the x neighbour arrive; the local copy and the device's own sends complete; every own
   cell closes and the two arrays are put back together. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import proofs.«900639_g7700000000000640_dist_a2a_v7x_xyz2x2x4_y_m2048_n512_f32_1_alg».proof.Proof.KernelIdeal.Sched
import proofs.«900639_g7700000000000640_dist_a2a_v7x_xyz2x2x4_y_m2048_n512_f32_1_alg».proof.Proof.KernelIdeal.Owes
import proofs.«900639_g7700000000000640_dist_a2a_v7x_xyz2x2x4_y_m2048_n512_f32_1_alg».proof.Proof.KernelIdeal.Split
import proofs.«900639_g7700000000000640_dist_a2a_v7x_xyz2x2x4_y_m2048_n512_f32_1_alg».proof.Proof.KernelIdeal.Land
import proofs.«900639_g7700000000000640_dist_a2a_v7x_xyz2x2x4_y_m2048_n512_f32_1_alg».proof.Proof.KernelIdeal.Reindex
import proofs.«900639_g7700000000000640_dist_a2a_v7x_xyz2x2x4_y_m2048_n512_f32_1_alg».proof.Proof.KernelIdeal.Steps
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-- The sixty-five own DMA cells close together. -/
theorem close_all (c : Dev nD) :
    iprop(records m K ∗ bigSep Finset.univ fun q : DmaSem sig => atPos ER (dCell c q) (0 + 1) ∅ 0)
      ⊢ iprop(|={Set.univ}=> bigSep Finset.univ fun q : DmaSem sig => semVal (dCell c q) 0) := by
  refine (sep_mono_left (bigSep_of_persistent (Finset.univ : Finset (DmaSem sig)) (records m K))).trans ?_
  rw [← bigSep_sep']
  exact (bigSep_mono fun q _ => close_one m K c q).trans (bigSep_fupd _ _)

theorem ex_intro_pts {sp : Space} {s : Shape} {e : EltTy} (c : Dev nD) (v : Memref sig .tc sp s e) (f : Buf (Elt F) (v.view.loc (c : Thread nD τ))) :
    (vPts c v f : sProp 𝕄) ⊢ iprop(∃ g, vPts (F := F) c v g) := by
  iintro H; iexists f; iexact H

theorem ex_intro_fw (c : Dev nD) (f0 : Buf (Elt F) ((c : Thread nD τ).loc main_v1)) :
    (bigSep Finset.univ fun r : Fin 16 => vPts (F := F) c (fwdV c r) f0) ⊢ bigSep Finset.univ fun r : Fin 16 => iprop(∃ g, vPts (F := F) c (fwdV c r) g) :=
  bigSep_mono fun r _ => ex_intro_pts c (fwdV c r) f0
theorem ex_intro_ot (c : Dev nD) (f0 : Buf (Elt F) ((c : Thread nD τ).loc main_v1)) :
    (bigSep Finset.univ fun r : Fin 16 => vPts (F := F) c (othV c r) f0) ⊢ bigSep Finset.univ fun r : Fin 16 => iprop(∃ g, vPts (F := F) c (othV c r) g) :=
  bigSep_mono fun r _ => ex_intro_pts c (othV c r) f0

set_option hygiene false in
open Lean in
/-- Chunk `r`'s send along y. -/
local macro "ysend_at " r:num : tactic => do
  let n := r.getNat
  let id (s : String) := mkIdent (Name.mkSimple (s ++ toString n))
  let elems : Array (TSyntax `term) := (List.range (15 - n)).toArray.map fun i => Syntax.mkNumLit (toString (n + 1 + i))
  let rs : TSyntax `term ← `(([$elems,*] : List (Fin 16)))
  `(tactic| (
    iapply (step_ysend m K c _ (by first | exact dev3_eq c | exact dev4_eq c | exact dev5_eq c | exact dev6_eq c | exact dev7_eq c | exact dev8_eq c | exact dev9_eq c | exact dev10_eq c | exact dev11_eq c | exact dev12_eq c | exact dev13_eq c | exact dev14_eq c | exact dev15_eq c | exact dev16_eq c | exact dev17_eq c | exact dev18_eq c) ($r : Fin 16) $rs _ _ (by decide) (by decide) _ _ rfl rfl _) $$ HR $(id "Hsrc"):ident $(id "Hdy"):ident HO $(id "Htys"):ident $(id "Htyr"):ident
    iintro ⟨$(id "Hcys"):ident, HO⟩))

set_option hygiene false in
open Lean in
/-- Chunk `r`'s receive from the y neighbour. -/
local macro "yr_at " r:num : tactic => do
  let n := r.getNat
  let id (s : String) := mkIdent (Name.mkSimple (s ++ toString n))
  let elems0 : Array (TSyntax `term) := (List.range (16 - n)).toArray.map fun i => Syntax.mkNumLit (toString (n + i))
  let rs0 : TSyntax `term ← `(([$elems0,*] : List (Fin 16)))
  `(tactic| (
    iapply (step_waitD m K c (yrSem ($r : Fin 16)) _ (by decide) N64 (expect_yr m c ($r : Fin 16)) _ _ (by rfl) (OX c $rs0) _) $$ HR $(id "Hcyr"):ident HO [] $(id "Hpyr"):ident
    · iapply (mayWait_yr c ($r : Fin 16) $rs0); iexact Hlev
    iintro ⟨HO, $(id "Hpyr"):ident, Hpay⟩
    ihave $(id "Hfw"):ident := (Entails.of_eq ((rest_yr m c ($r : Fin 16)).trans (by unfold yrPay; rfl))) $$ Hpay))

set_option hygiene false in
open Lean in
/-- Chunk `r`'s forward along x. -/
local macro "fwd_at " r:num : tactic => do
  let n := r.getNat
  let id (s : String) := mkIdent (Name.mkSimple (s ++ toString n))
  let elems : Array (TSyntax `term) := (List.range (15 - n)).toArray.map fun i => Syntax.mkNumLit (toString (n + 1 + i))
  let rs : TSyntax `term ← `(([$elems,*] : List (Fin 16)))
  `(tactic| (
    iapply (step_fwd m K c _ (by first | exact dev19_eq c | exact dev20_eq c | exact dev21_eq c | exact dev22_eq c | exact dev23_eq c | exact dev24_eq c | exact dev25_eq c | exact dev26_eq c | exact dev27_eq c | exact dev28_eq c | exact dev29_eq c | exact dev30_eq c | exact dev31_eq c | exact dev32_eq c | exact dev33_eq c | exact dev34_eq c) ($r : Fin 16) $rs _ _ (by decide) (by decide) _ _ rfl rfl _) $$ HR $(id "Hfw"):ident $(id "Hdx"):ident HO $(id "Htxs"):ident $(id "Htxr"):ident
    iintro ⟨$(id "Hcxs"):ident, HO⟩))

set_option hygiene false in
open Lean in
/-- Chunk `r`'s receive from the x neighbour. -/
local macro "xr_at " r:num : tactic => do
  let n := r.getNat
  let id (s : String) := mkIdent (Name.mkSimple (s ++ toString n))
  `(tactic| (
    iapply (step_waitD m K c (xrSem ($r : Fin 16)) _ (by decide) N64 (expect_xr m c ($r : Fin 16)) _ _ (by rfl) 0 _) $$ HR $(id "Hcxr"):ident HO [] $(id "Hpxr"):ident
    · rw [MayWait_zero]; iempintro
    iintro ⟨HO, $(id "Hpxr"):ident, Hpay⟩
    ihave $(id "Hot"):ident := (Entails.of_eq ((rest_xr m c ($r : Fin 16)).trans (by unfold xrPay; rfl))) $$ Hpay))

set_option hygiene false in
open Lean in
/-- Chunk `r`'s send along y completes: the source chunk is the device's again. -/
local macro "ys_at " r:num : tactic => do
  let n := r.getNat
  let id (s : String) := mkIdent (Name.mkSimple (s ++ toString n))
  `(tactic| (
    iapply (step_waitD m K c (ysSem ($r : Fin 16)) _ (by decide) N64 (expect_ys m c ($r : Fin 16)) _ _ (by rfl) 0 _) $$ HR $(id "Hcys"):ident HO [] $(id "Hpys"):ident
    · rw [MayWait_zero]; iempintro
    iintro ⟨HO, $(id "Hpys"):ident, Hpay⟩
    ihave $(id "Hsrc"):ident := (Entails.of_eq ((rest_ys m c ($r : Fin 16)).trans (by unfold ysPay; rfl))) $$ Hpay))

set_option hygiene false in
open Lean in
/-- Chunk `r`'s forward completes: the forwarded chunk is the device's again. -/
local macro "xs_at " r:num : tactic => do
  let n := r.getNat
  let id (s : String) := mkIdent (Name.mkSimple (s ++ toString n))
  `(tactic| (
    iapply (step_waitD m K c (xsSem ($r : Fin 16)) _ (by decide) N64 (expect_xs m c ($r : Fin 16)) _ _ (by rfl) 0 _) $$ HR $(id "Hcxs"):ident HO [] $(id "Hpxs"):ident
    · rw [MayWait_zero]; iempintro
    iintro ⟨HO, $(id "Hpxs"):ident, Hpay⟩
    ihave $(id "Hfw"):ident := (Entails.of_eq ((rest_xs m c ($r : Fin 16)).trans (by unfold xsPay; rfl))) $$ Hpay))

/-- The head of the program put in the form the rules are stated for. -/
local macro "norm" : tactic =>
  `(tactic| try simp only [semSignalWord, semWaitWord, Prog.lift, Prog.bind_op, Prog.bind_ret, Prog.pure_eq_ret, wp_deviceId])
/-- A printed part's last statement returns: on to what follows it. -/
local macro "leave" : tactic => `(tactic| (rw [wp_ret]; imodintro; try dsimp only))

set_option maxHeartbeats 40000000 in
/-- The body, from what the launch hands device `c` to what it hands back. -/
theorem sound_body (c : Dev nD) (W : Waits sig Unit) (Kt : PUnit → sProp 𝕄) :
    iprop((ghost m K c ∗ launchCreds (F := F) c ∗ levAts L lv
        ∗ (((c : Thread nD τ).loc main_arg0) ↦{fullShare} Xb m c) ∗ (∃ f, ((c : Thread nD τ).loc main_v1) ↦{fullShare} f))
        ∗ owes (c : Thread nD τ) (O₀ c) W
        ∗ ((finish m c ∗ ∃ W' : Waits sig Unit, owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2 cc0_scratch3 cc0_scratch4) Kt := by
  unfold cc0_body
  simp only [wp_bind]
  unfold k0_part32
  simp only [wp_bind]
  unfold k0_part1
  norm
  unfold ghost positions payToks launchCreds
  simp only [bigSep_opt, bigSep_dma, bigSep_sep']
  iintro ⟨⟨⟨#HR, ⟨HpB, HpL, Hpys, Hpyr, Hpxs, Hpxr⟩, HtBY, HtBX, HtL, Htys, Htyr, Htxs, Htxr⟩, ⟨HcB, Hcyr, Hcxr⟩, #Hlev, Hx, ⟨%f0, Ho⟩⟩, HO, Hk⟩
  -- the arrays, cut along the transfers' rectangles
  ihave Hx := (split_x c (Xb m c)).1 $$ Hx
  icases Hx with ⟨HlocS, Hsrc, Hxrest⟩
  ihave Ho := (split_o c f0).1 $$ Ho
  icases Ho with ⟨HlocD, Hfw, Hot⟩
  ihave Hfw := (ex_intro_fw c f0) $$ Hfw
  ihave Hot := (ex_intro_ot c f0) $$ Hot
  ihave HlocD := (ex_intro_pts c (locD c) f0) $$ HlocD
  -- the two barrier units and the wait
  iapply (step_signalY m K c _ (dev1_eq c) _) $$ HR HO HtBY Hfw
  iintro HO
  iapply (step_signalX m K c _ (dev2_eq c) _) $$ HR HO HtBX Hot
  iintro HO
  iapply (step_waitBar m K c _) $$ HR HcB HO Hlev HpB
  iintro ⟨HO, HpB, Hdy, Hdx⟩
  unfold barPayY barPayX
  simp only [bigSep_sep']
  icases Hdy with ⟨Hdy, -⟩
  icases Hdx with ⟨Hdx, -⟩
  -- everything per chunk, chunk by chunk
  simp only [bigSep_chunks]
  icases Hsrc with ⟨Hsrc0, Hsrc1, Hsrc2, Hsrc3, Hsrc4, Hsrc5, Hsrc6, Hsrc7, Hsrc8, Hsrc9, Hsrc10, Hsrc11, Hsrc12, Hsrc13, Hsrc14, Hsrc15⟩
  icases Hdy with ⟨Hdy0, Hdy1, Hdy2, Hdy3, Hdy4, Hdy5, Hdy6, Hdy7, Hdy8, Hdy9, Hdy10, Hdy11, Hdy12, Hdy13, Hdy14, Hdy15⟩
  icases Hdx with ⟨Hdx0, Hdx1, Hdx2, Hdx3, Hdx4, Hdx5, Hdx6, Hdx7, Hdx8, Hdx9, Hdx10, Hdx11, Hdx12, Hdx13, Hdx14, Hdx15⟩
  icases Htys with ⟨Htys0, Htys1, Htys2, Htys3, Htys4, Htys5, Htys6, Htys7, Htys8, Htys9, Htys10, Htys11, Htys12, Htys13, Htys14, Htys15⟩
  icases Htyr with ⟨Htyr0, Htyr1, Htyr2, Htyr3, Htyr4, Htyr5, Htyr6, Htyr7, Htyr8, Htyr9, Htyr10, Htyr11, Htyr12, Htyr13, Htyr14, Htyr15⟩
  icases Htxs with ⟨Htxs0, Htxs1, Htxs2, Htxs3, Htxs4, Htxs5, Htxs6, Htxs7, Htxs8, Htxs9, Htxs10, Htxs11, Htxs12, Htxs13, Htxs14, Htxs15⟩
  icases Htxr with ⟨Htxr0, Htxr1, Htxr2, Htxr3, Htxr4, Htxr5, Htxr6, Htxr7, Htxr8, Htxr9, Htxr10, Htxr11, Htxr12, Htxr13, Htxr14, Htxr15⟩
  icases Hcyr with ⟨Hcyr0, Hcyr1, Hcyr2, Hcyr3, Hcyr4, Hcyr5, Hcyr6, Hcyr7, Hcyr8, Hcyr9, Hcyr10, Hcyr11, Hcyr12, Hcyr13, Hcyr14, Hcyr15⟩
  icases Hcxr with ⟨Hcxr0, Hcxr1, Hcxr2, Hcxr3, Hcxr4, Hcxr5, Hcxr6, Hcxr7, Hcxr8, Hcxr9, Hcxr10, Hcxr11, Hcxr12, Hcxr13, Hcxr14, Hcxr15⟩
  icases Hpys with ⟨Hpys0, Hpys1, Hpys2, Hpys3, Hpys4, Hpys5, Hpys6, Hpys7, Hpys8, Hpys9, Hpys10, Hpys11, Hpys12, Hpys13, Hpys14, Hpys15⟩
  icases Hpyr with ⟨Hpyr0, Hpyr1, Hpyr2, Hpyr3, Hpyr4, Hpyr5, Hpyr6, Hpyr7, Hpyr8, Hpyr9, Hpyr10, Hpyr11, Hpyr12, Hpyr13, Hpyr14, Hpyr15⟩
  icases Hpxs with ⟨Hpxs0, Hpxs1, Hpxs2, Hpxs3, Hpxs4, Hpxs5, Hpxs6, Hpxs7, Hpxs8, Hpxs9, Hpxs10, Hpxs11, Hpxs12, Hpxs13, Hpxs14, Hpxs15⟩
  icases Hpxr with ⟨Hpxr0, Hpxr1, Hpxr2, Hpxr3, Hpxr4, Hpxr5, Hpxr6, Hpxr7, Hpxr8, Hpxr9, Hpxr10, Hpxr11, Hpxr12, Hpxr13, Hpxr14, Hpxr15⟩
  -- the sends along y, the local copy, the chunks from the y neighbour forwarded along x, printed part by printed part
  leave; unfold k0_part2; norm
  ysend_at 0
  ysend_at 1
  leave; unfold k0_part3; norm
  ysend_at 2
  ysend_at 3
  leave; unfold k0_part4; norm
  ysend_at 4
  ysend_at 5
  leave; unfold k0_part5; norm
  ysend_at 6
  ysend_at 7
  ysend_at 8
  leave; unfold k0_part6; norm
  ysend_at 9
  ysend_at 10
  leave; unfold k0_part7; norm
  ysend_at 11
  ysend_at 12
  leave; unfold k0_part8; norm
  ysend_at 13
  ysend_at 14
  leave; unfold k0_part9; norm
  ysend_at 15
  rw [show OY c ([] : List (Fin 16)) = OX c chunks from rfl]
  iapply (step_local m K c _ (by decide) _ _ rfl rfl) $$ HR HlocS HlocD HtL
  iintro HcL
  yr_at 0
  fwd_at 0
  leave; unfold k0_part10; norm
  yr_at 1
  fwd_at 1
  leave; unfold k0_part11; norm
  yr_at 2
  fwd_at 2
  yr_at 3
  leave; unfold k0_part12; norm
  fwd_at 3
  yr_at 4
  leave; unfold k0_part13; norm
  fwd_at 4
  yr_at 5
  fwd_at 5
  leave; unfold k0_part14; norm
  yr_at 6
  fwd_at 6
  leave; unfold k0_part15; norm
  yr_at 7
  fwd_at 7
  yr_at 8
  leave; unfold k0_part16; norm
  fwd_at 8
  yr_at 9
  fwd_at 9
  leave; unfold k0_part17; norm
  yr_at 10
  fwd_at 10
  leave; unfold k0_part18; norm
  yr_at 11
  fwd_at 11
  yr_at 12
  leave; unfold k0_part19; norm
  fwd_at 12
  yr_at 13
  leave; unfold k0_part20; norm
  fwd_at 13
  yr_at 14
  fwd_at 14
  leave; unfold k0_part21; norm
  yr_at 15
  fwd_at 15
  rw [show OX c ([] : List (Fin 16)) = 0 from rfl]
  -- the chunks the x neighbour forwards
  leave; unfold k0_part22; norm
  xr_at 0
  xr_at 1
  xr_at 2
  leave; unfold k0_part23; norm
  xr_at 3
  xr_at 4
  xr_at 5
  leave; unfold k0_part24; norm
  xr_at 6
  xr_at 7
  xr_at 8
  leave; unfold k0_part25; norm
  xr_at 9
  xr_at 10
  leave; unfold k0_part26; norm
  xr_at 11
  xr_at 12
  xr_at 13
  leave; unfold k0_part27; norm
  xr_at 14
  xr_at 15
  -- the local copy lands
  iapply (step_waitD m K c lSem _ (by decide) NL (expect_l m c) _ _ (by rfl) 0 _) $$ HR HcL HO [] HpL
  · rw [MayWait_zero]; iempintro
  iintro ⟨HO, HpL, Hpay⟩
  ihave Hl := (Entails.of_eq ((rest_l m c).trans (by unfold lPay; rfl))) $$ Hpay
  icases Hl with ⟨HlocD, HlocS⟩
  -- the device's own sends complete
  ys_at 0
  xs_at 0
  leave; unfold k0_part28; norm
  ys_at 1
  xs_at 1
  ys_at 2
  xs_at 2
  ys_at 3
  xs_at 3
  leave; unfold k0_part29; norm
  ys_at 4
  xs_at 4
  ys_at 5
  xs_at 5
  ys_at 6
  xs_at 6
  leave; unfold k0_part30; norm
  ys_at 7
  xs_at 7
  ys_at 8
  xs_at 8
  ys_at 9
  xs_at 9
  ys_at 10
  leave; unfold k0_part31; norm
  xs_at 10
  ys_at 11
  xs_at 11
  ys_at 12
  xs_at 12
  ys_at 13
  leave; norm
  xs_at 13
  leave; norm
  ys_at 14
  leave; norm
  xs_at 14
  leave; norm
  leave; norm
  ys_at 15
  leave; norm
  xs_at 15
  leave; norm
  -- every own cell closes
  imod (close_all m K c) $$ [HpL Hpys0 Hpyr0 Hpxs0 Hpxr0 Hpys1 Hpyr1 Hpxs1 Hpxr1 Hpys2 Hpyr2 Hpxs2 Hpxr2 Hpys3 Hpyr3 Hpxs3 Hpxr3 Hpys4 Hpyr4 Hpxs4 Hpxr4 Hpys5 Hpyr5 Hpxs5 Hpxr5 Hpys6 Hpyr6 Hpxs6 Hpxr6 Hpys7 Hpyr7 Hpxs7 Hpxr7 Hpys8 Hpyr8 Hpxs8 Hpxr8 Hpys9 Hpyr9 Hpxs9 Hpxr9 Hpys10 Hpyr10 Hpxs10 Hpxr10 Hpys11 Hpyr11 Hpxs11 Hpxr11 Hpys12 Hpyr12 Hpxs12 Hpxr12 Hpys13 Hpyr13 Hpxs13 Hpxr13 Hpys14 Hpyr14 Hpxs14 Hpxr14 Hpys15 Hpyr15 Hpxs15 Hpxr15] with Hz
  · isplitr; · iexact HR
    rw [bigSep_dma, bigSep_chunks]
    iframe
  -- the arrays, put back together
  ihave Hx := (split_x c (Xb m c)).2 $$ [HlocS Hsrc0 Hsrc1 Hsrc2 Hsrc3 Hsrc4 Hsrc5 Hsrc6 Hsrc7 Hsrc8 Hsrc9 Hsrc10 Hsrc11 Hsrc12 Hsrc13 Hsrc14 Hsrc15 Hxrest]
  · rw [bigSep_chunks]
    iframe
  ihave Ho := (split_o c (Gfin m c)).2 $$ [HlocD Hfw0 Hfw1 Hfw2 Hfw3 Hfw4 Hfw5 Hfw6 Hfw7 Hfw8 Hfw9 Hfw10 Hfw11 Hfw12 Hfw13 Hfw14 Hfw15 Hot0 Hot1 Hot2 Hot3 Hot4 Hot5 Hot6 Hot7 Hot8 Hot9 Hot10 Hot11 Hot12 Hot13 Hot14 Hot15]
  · rw [bigSep_chunks, bigSep_chunks]
    iframe
  rw [wp_ret]; imodintro
  iapply Hk
  unfold finish
  isplitl [Hx Ho Hz]
  · isplitl [Hx]; · iexact Hx
    isplitl [Ho]; · iexact Ho
    iexact Hz
  iexists _; iexact HO

/-- The body obligation on device `c`. -/
theorem body_obligation (c : Dev nD) : BodyObligation (dats (F := F) m 0 c) (defs₀ (F := F)) 𝒱₀ () Set.univ := fun t => by
  rw [fin_N t]
  simp only [Finset.univ_eq_empty, bigSep_empty]
  show iprop(start m c ∗ (dats (F := F) m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2 cc0_scratch3 cc0_scratch4)
    (fun _ => iprop(finish m c ∗ (dats (F := F) m 0 c).owesAt () t₀.succ ∗ emp))
  unfold start Dat.owesAt Pipeline.owesWithin
  rw [show (dats (F := F) m 0 c).owed t₀.castSucc = O₀ c from rfl, show (dats (F := F) m 0 c).owed t₀.succ = 0 from rfl]
  iintro ⟨⟨⟨%K, Hg⟩, Hcr, Hlev, Hx, Ho⟩, ⟨%W, %hW, HO⟩, -⟩
  iapply (sound_body m K c W _)
  isplitl [Hg Hcr Hlev Hx Ho]
  · isplitl [Hg]; · iexact Hg
    isplitl [Hcr]; · iexact Hcr
    isplitl [Hlev]; · iexact Hlev
    isplitl [Hx]; · iexact Hx
    iexact Ho
  isplitl [HO]; · iexact HO
  iintro ⟨Hf, ⟨%W', HO⟩⟩
  isplitl [Hf]; · iexact Hf
  isplitl [HO]
  · iexists W'
    isplitr; · ipureintro; exact fun _ _ => Or.inl trivial
    iexact HO
  iempintro

end Cert.KernelIdeal.A2A

end
-- ==== Proof.KernelIdeal.Launch.lean ====
/- The launch: every device's semaphores at zero become the cells' invariants, allocated for all devices at once; the
   tokens of each cell's duties are dealt to the devices that pay them; each device's body is run; at the end each
   device's result is read back at its final contents and its input as it was. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import proofs.«900639_g7700000000000640_dist_a2a_v7x_xyz2x2x4_y_m2048_n512_f32_1_alg».proof.Proof.KernelIdeal.Reindex
import proofs.«900639_g7700000000000640_dist_a2a_v7x_xyz2x2x4_y_m2048_n512_f32_1_alg».proof.Proof.KernelIdeal.Sched
import proofs.«900639_g7700000000000640_dist_a2a_v7x_xyz2x2x4_y_m2048_n512_f32_1_alg».proof.Proof.KernelIdeal.Owes
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (ρ : Dev nD → PrngReg)

namespace Launch

/-! ## The kernel's own semaphores and the cells of the mesh -/

/-- The kernel's own scoped semaphores: all sixty-five DMA semaphores. -/
abbrev osem : DmaSem sig → SemLoc sig := .dma

theorem ownSemFacts : Pipeline.OwnSemFacts cfg0.spec osem :=
  ⟨(by decide : ∀ k : DmaSem sig, (SemLoc.dma k : SemLoc sig).isScoped .tc = true), fun _ _ h => SemLoc.dma.inj h, fun _ w => w.elim0⟩

theorem kcell_injective : Function.Injective (kcell : Dev nD × Option (DmaSem sig) → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    cases k with
    | none => cases k' with
      | none => rfl
      | some q' => exact absurd h2 (fun h' => by cases h')
    | some q => cases k' with
      | none => exact absurd h2 (fun h' => by cases h')
      | some q' => exact congrArg some (SemLoc.dma.inj h2)
  subst this; rfl

/-- All the cells of the mesh. -/
def meshCells : Finset (GSem nD τ sig) := Finset.univ.map ⟨kcell, kcell_injective⟩

/-- A device's own cells' duty tokens as minted: its barrier's two, and one per DMA cell. -/
abbrev tokOf (cj : Dev nD × (Bool ⊕ DmaSem sig)) : GSem nD τ sig × ℕ × Bool := match cj.2 with
  | .inl b => (barCell cj.1, 0, b) | .inr q => (dCell cj.1 q, 0, false)

theorem tokOf_injective : Function.Injective (tokOf : Dev nD × (Bool ⊕ DmaSem sig) → GSem nD τ sig × ℕ × Bool) := by
  rintro ⟨c, j⟩ ⟨c', j'⟩ h
  have h1 : c = c' := by
    have := congrArg (fun x : GSem nD τ sig × ℕ × Bool => x.1.1.1) h
    rcases j with b | q <;> rcases j' with b' | q' <;> exact this
  subst h1
  have : j = j' := by
    rcases j with b | q <;> rcases j' with b' | q'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (SemLoc.dma.inj (congrArg (fun x : GSem nD τ sig × ℕ × Bool => x.1.2) h))
  subst this; rfl

def meshToks : Finset (GSem nD τ sig × ℕ × Bool) := Finset.univ.map ⟨tokOf, tokOf_injective⟩

/-- The launch element: the pipeline's (no staging cell) beside the protocol's. -/
def u₀ : UU :=
  (initOf (Pipeline.cells cfgs cellOf_inj) (Pipeline.launchToks cfgs cellOf_inj), initOf meshCells meshToks)

/-- The duty tokens of a device's own cells. -/
def toks (c : Dev nD) : sProp 𝕄 :=
  iprop((dutyTok ER (barCell c) 0 false ∗ dutyTok ER (barCell c) 0 true) ∗ bigSep Finset.univ fun q : DmaSem sig => dutyTok ER (dCell c q) 0 false)

/-- What the launch element deals a device: its cells' round states, positions and reached-marks, its cells' tokens. -/
def G (c : Dev nD) : sProp 𝕄 :=
  iprop((bigSep Finset.univ fun o : Option (DmaSem sig) => roundState ER (sched m) (kcell (c, o)) 0)
    ∗ (bigSep Finset.univ fun o : Option (DmaSem sig) => iprop(atPos ER (kcell (c, o)) 0 ∅ 0 ∗ reached ER (kcell (c, o)) 0)) ∗ toks c)

/-- What the global step makes of it. -/
def G' (c : Dev nD) : sProp 𝕄 := iprop(∃ K, ghost m K c)

/-! ## Sums over the index types -/

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-! ## Funding and allocation -/

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun o : Option (DmaSem sig) => Φ (kcell (c, o)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum, bigSep_bool]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (DmaSem sig) => semVal (kcell (c, o)) 0 : sProp 𝕄) := by
  rw [unscopedSems0_eq, bigSep_opt]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option (DmaSem sig) => iprop(∃ κ : ℕ, cellInv ER (sched m) κ (kcell (c, o))))
          ∗ (bigSep Finset.univ fun o : Option (DmaSem sig) => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option (DmaSem sig) => semVal (kcell (c, o)) 0) ∗ bigSep Finset.univ fun o : Option (DmaSem sig) => roundState ER (sched m) (kcell (c, o)) 0)
      ⊢ (|={Set.univ}=> bigSep Finset.univ fun o : Option (DmaSem sig) => iprop(∃ κ : ℕ, cellInv ER (sched m) κ (kcell (c, o))) : sProp 𝕄) from by
        rw [← bigSep_sep']
        exact (bigSep_mono fun o _ => (Rounds.body_intro ER (sched m) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Option (DmaSem sig) → ℕ) (c : Dev nD) : iprop(records m K ∗ (positions c ∗ payToks c)) ⊢ G' m c := by
  unfold G' ghost
  iintro H
  iexists K
  iexact H

/-- The tokens dealt to their payers: a barrier's false token and the y-receive tokens to the y neighbour, its true
    token and the x-receive tokens to the x neighbour; the rest stay. -/
theorem toks_around : (bigSep Finset.univ fun c : Dev nD => (toks c : sProp 𝕄)) ⊢ bigSep Finset.univ fun c : Dev nD => payToks c := by
  unfold toks payToks
  simp only [bigSep_dma, bigSep_sep']
  rw [bigSep_univ_equiv ynE (fun c : Dev nD => (dutyTok ER (barCell c) 0 false : sProp 𝕄)),
    bigSep_univ_equiv xnE (fun c : Dev nD => (dutyTok ER (barCell c) 0 true : sProp 𝕄)),
    bigSep_univ_equiv ynE (fun c : Dev nD => (bigSep Finset.univ fun r : Fin 16 => dutyTok ER (yrCell c r) 0 false : sProp 𝕄)),
    bigSep_univ_equiv xnE (fun c : Dev nD => (bigSep Finset.univ fun r : Fin 16 => dutyTok ER (xrCell c r) 0 false : sProp 𝕄))]
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option (DmaSem sig) => iprop(∃ κ : ℕ, cellInv ER (sched m) κ (kcell (c, o))))
          ∗ (bigSep Finset.univ fun o : Option (DmaSem sig) => iprop(atPos ER (kcell (c, o)) 0 ∅ 0 ∗ reached ER (kcell (c, o)) 0)) ∗ toks c) : sProp 𝕄)
      ⊢ bigSep Finset.univ (G' m) := by
  rw [bigSep_sep', bigSep_sep', ← bigSep_univ_prod (fun ck : Dev nD × Option (DmaSem sig) => iprop(∃ κ : ℕ, cellInv ER (sched m) κ (kcell ck))),
    bigSep_congr (s := Finset.univ) (fun (c : Dev nD) _ => bigSep_sep' Finset.univ (fun o : Option (DmaSem sig) => (atPos ER (kcell (c, o)) 0 ∅ 0 : sProp 𝕄)) (fun o => reached ER (kcell (c, o)) 0)),
    bigSep_sep', ← bigSep_univ_prod (fun ck : Dev nD × Option (DmaSem sig) => (reached ER (kcell ck) 0 : sProp 𝕄))]
  iintro ⟨HI, ⟨Hat, #HR⟩, Htok⟩
  ihave HK := (BI.bigSep_exists_pi Finset.univ (fun (ck : Dev nD × Option (DmaSem sig)) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]
    · unfold positions; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem L_of_ne (g : GSem nD τ sig) (h : g.1.2 ≠ .tc) : L g = ∅ := if_neg h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexists (m ((c : Thread nD τ).loc main_v1)); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- What a device hands back at the end beside its own semaphores: its two arrays. -/
def Yend (c : Dev nD) : sProp 𝕄 :=
  iprop((((c : Thread nD τ).loc main_arg0) ↦{fullShare} Xb m c) ∗ (((c : Thread nD τ).loc main_v1) ↦{fullShare} Gfin m c))

theorem phi1_exit (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = finish m c from rfl, scopedRest0_eq]
  unfold finish Yend Pipeline.ownSems0
  iintro ⟨Hx, Ho, Hs⟩
  isplitl [Hx Ho]
  · isplitl [Hx] <;> iassumption
  isplitl [Hs]; · iexact Hs
  iempintro

theorem waits (c : Dev nD) : (levAts L lv : sProp 𝕄) ⊢ Pipeline.cellsWaits cfgs (dats m) () 0 c :=
  Pipeline.cellsWaits_intro cfgs (dats m) () 0 c fun w => w.elim0

end Launch

/-! ## The run -/

open Launch in
/-- From any memory with zero counters: every weakly fair execution of @main on the sixteen devices terminates, and in
    every final state each device's result holds its final contents and its input is unchanged — given each device's
    body obligation. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c : Thread nD τ).loc main_v1) = Gfin m c ∧ r.2.mem ((c : Thread nD τ).loc main_arg0) = Xb m c) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ w => w.elim0) (hpf := fun _ k => k.elim0)
    (X := start m) (Y := Yend m) (Z := fun _ => iprop(emp))
    (hX := start_intro m ρ) (hin := phi0_intro m) (hout := phi1_exit m)
    (QY := fun c s => s.mem ((c : Thread nD τ).loc main_v1) = Gfin m c ∧ s.mem ((c : Thread nD τ).loc main_arg0) = Xb m c)
    (hY := fun c s' => by
      unfold Yend
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KernelIdeal.Value.lean ====
/- The final contents of a device's result are its block of columns of the whole input, when every device's input is its block of rows. -/
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.KernelIdeal.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic
import Idealize.ShloMosaic.Lib.Layout

set_option maxRecDepth 16384

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- Along a dimension cut by the mesh's y axis, device `c`'s block coordinate is its y coordinate. -/
theorem meshLin_y (c : Dev nD) : Layout.meshLin [2, 2, 4] c.val [1] = my c := by
  simp [Layout.meshLin, Layout.meshCoord, Layout.cutSize, my]

/-- Along a dimension that is not cut there is one block. -/
theorem meshLin_nil (c : Dev nD) : Layout.meshLin [2, 2, 4] c.val [] = 0 := rfl

/-- If every device holds its y coordinate's block of rows of the whole array `W`, device `c`'s final result is its y
    coordinate's block of columns of `W`. -/
theorem Gfin_block (W : (⟨2, ![4096, 1024]⟩ : Shape).Idx → Elt F .f32)
    (h : ∀ c : Dev nD, m ((c : Thread nD τ).loc main_arg0)
      = Layout.blockN ⟨2, ![2048, 1024]⟩ ⟨2, ![4096, 1024]⟩ (Layout.meshBlock [2, 2, 4] ![[1], []] c) W)
    (c : Dev nD) :
    Gfin m c = Layout.blockN ⟨2, ![4096, 512]⟩ ⟨2, ![4096, 1024]⟩ (Layout.meshBlock [2, 2, 4] ![[], [1]] c) W := by
  funext i
  have hi0 : (i 0).val < 4096 := (i 0).isLt
  have hi1 : (i 1).val < 512 := (i 1).isLt
  have hmy := my_lt c
  -- Row `i 0` of the result lies in row block `(i 0) / 2048` of `W`: whichever device `d` of that y coordinate it came
  -- from, `d`'s row `(i 0) % 2048`, column `512·y + i 1` is `W`'s row `i 0`, column `512·y + i 1`.
  have key : ∀ (d : Dev nD) (ri : Fin 2048) (ci : Fin 1024), my d = (i 0).val / 2048 → ri.val = (i 0).val % 2048 →
      ci.val = 512 * my c + (i 1).val →
      m ((d : Thread nD τ).loc main_arg0) (ix2 ri ci)
        = (Layout.blockN ⟨2, ![4096, 512]⟩ ⟨2, ![4096, 1024]⟩ (Layout.meshBlock [2, 2, 4] ![[], [1]] c) W) i := by
    intro d ri ci hd hr hc
    rw [h d, Layout.blockN_apply, Layout.blockN_apply]
    congr 1
    funext b
    apply Fin.ext
    rw [Layout.TilesN.idx_val, Layout.TilesN.idx_val, Layout.meshBlock_val, Layout.meshBlock_val]
    fin_cases b
    · show Layout.meshLin [2, 2, 4] d.val [1] * 2048 + ri.val = Layout.meshLin [2, 2, 4] c.val [] * 4096 + (i 0).val
      rw [meshLin_y, meshLin_nil, hd, hr]; omega
    · show Layout.meshLin [2, 2, 4] d.val [] * 1024 + ci.val = Layout.meshLin [2, 2, 4] c.val [1] * 512 + (i 1).val
      rw [meshLin_y, meshLin_nil, hc]; omega
  unfold Gfin
  simp only []
  split_ifs with h1 h2
  · refine key c _ _ ?_ ?_ ?_
    · omega
    · rfl
    · rfl
  · refine key (yn c) _ _ ?_ ?_ ?_
    · rw [my_yn]; omega
    · rfl
    · rfl
  · refine key (yn (xn c)) _ _ ?_ ?_ ?_
    · rw [my_yn, my_xn]; omega
    · rfl
    · rfl

/-- info: 'Cert.KernelIdeal.A2A.Gfin_block' depends on axioms: [propext, Classical.choice, Quot.sound] -/
#guard_msgs in #print axioms Gfin_block

end Cert.KernelIdeal.A2A

end
-- ==== Proof.Kernel.Mesh.lean ====
/- The mesh: sixteen devices numbered 8·x + 4·y + z over (x, y, z) ∈ 2 × 2 × 4. Each device exchanges with its
   neighbour along the y axis (the other y, same x and z) and its neighbour along the x axis (the other x, same y
   and z); both maps are involutions and they commute. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The two neighbours -/

/-- The neighbour along y: the y coordinate flipped. -/
def yn (c : Dev nD) : Dev nD := ⟨(8 * (c.val / 8) + (c.val % 4) + 4) - 4 * ((c.val / 4) % 2), by have : c.val < 16 := c.isLt; show _ < 16; omega⟩
/-- The neighbour along x: the x coordinate flipped. -/
def xn (c : Dev nD) : Dev nD := ⟨(4 * ((c.val / 4) % 2) + (c.val % 4) + 8) - 8 * (c.val / 8), by have : c.val < 16 := c.isLt; show _ < 16; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne (c : Dev nD) : yn c ≠ c := by revert c; decide
theorem xn_ne (c : Dev nD) : xn c ≠ c := by revert c; decide
theorem yn_ne_xn (c : Dev nD) : yn c ≠ xn c := by revert c; decide

def ynE : Dev nD ≃ Dev nD := ⟨yn, yn, yn_yn, yn_yn⟩
def xnE : Dev nD ≃ Dev nD := ⟨xn, xn, xn_xn, xn_xn⟩

/-- The x and y coordinates of a device. -/
def mx (c : Dev nD) : Nat := c.val / 8
def my (c : Dev nD) : Nat := (c.val / 4) % 2
theorem mx_lt (c : Dev nD) : mx c < 2 := by unfold mx; have : c.val < 16 := c.isLt; omega
theorem my_lt (c : Dev nD) : my c < 2 := by unfold my; omega
theorem mx_yn (c : Dev nD) : mx (yn c) = mx c := by revert c; decide
theorem my_yn (c : Dev nD) : my (yn c) = 1 - my c := by revert c; decide
theorem mx_xn (c : Dev nD) : mx (xn c) = 1 - mx c := by revert c; decide
theorem my_xn (c : Dev nD) : my (xn c) = my c := by revert c; decide

/-! ## The printed device chains name those neighbours -/

theorem dev1_eq (c : Dev nD) : (⟨k0_dev1 c, k0_dev1_lt c⟩ : Dev nD) = yn c := Fin.ext (k0_dev1_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = yn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = yn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = yn c := Fin.ext (k0_dev10_eq c)
theorem dev11_eq (c : Dev nD) : (⟨k0_dev11 c, k0_dev11_lt c⟩ : Dev nD) = yn c := Fin.ext (k0_dev11_eq c)
theorem dev12_eq (c : Dev nD) : (⟨k0_dev12 c, k0_dev12_lt c⟩ : Dev nD) = yn c := Fin.ext (k0_dev12_eq c)
theorem dev13_eq (c : Dev nD) : (⟨k0_dev13 c, k0_dev13_lt c⟩ : Dev nD) = yn c := Fin.ext (k0_dev13_eq c)
theorem dev14_eq (c : Dev nD) : (⟨k0_dev14 c, k0_dev14_lt c⟩ : Dev nD) = yn c := Fin.ext (k0_dev14_eq c)
theorem dev15_eq (c : Dev nD) : (⟨k0_dev15 c, k0_dev15_lt c⟩ : Dev nD) = yn c := Fin.ext (k0_dev15_eq c)
theorem dev16_eq (c : Dev nD) : (⟨k0_dev16 c, k0_dev16_lt c⟩ : Dev nD) = yn c := Fin.ext (k0_dev16_eq c)
theorem dev17_eq (c : Dev nD) : (⟨k0_dev17 c, k0_dev17_lt c⟩ : Dev nD) = yn c := Fin.ext (k0_dev17_eq c)
theorem dev18_eq (c : Dev nD) : (⟨k0_dev18 c, k0_dev18_lt c⟩ : Dev nD) = yn c := Fin.ext (k0_dev18_eq c)
theorem dev2_eq (c : Dev nD) : (⟨k0_dev2 c, k0_dev2_lt c⟩ : Dev nD) = xn c := Fin.ext (k0_dev2_eq c)
theorem dev19_eq (c : Dev nD) : (⟨k0_dev19 c, k0_dev19_lt c⟩ : Dev nD) = xn c := Fin.ext (k0_dev19_eq c)
theorem dev20_eq (c : Dev nD) : (⟨k0_dev20 c, k0_dev20_lt c⟩ : Dev nD) = xn c := Fin.ext (k0_dev20_eq c)
theorem dev21_eq (c : Dev nD) : (⟨k0_dev21 c, k0_dev21_lt c⟩ : Dev nD) = xn c := Fin.ext (k0_dev21_eq c)
theorem dev22_eq (c : Dev nD) : (⟨k0_dev22 c, k0_dev22_lt c⟩ : Dev nD) = xn c := Fin.ext (k0_dev22_eq c)
theorem dev23_eq (c : Dev nD) : (⟨k0_dev23 c, k0_dev23_lt c⟩ : Dev nD) = xn c := Fin.ext (k0_dev23_eq c)
theorem dev24_eq (c : Dev nD) : (⟨k0_dev24 c, k0_dev24_lt c⟩ : Dev nD) = xn c := Fin.ext (k0_dev24_eq c)
theorem dev25_eq (c : Dev nD) : (⟨k0_dev25 c, k0_dev25_lt c⟩ : Dev nD) = xn c := Fin.ext (k0_dev25_eq c)
theorem dev26_eq (c : Dev nD) : (⟨k0_dev26 c, k0_dev26_lt c⟩ : Dev nD) = xn c := Fin.ext (k0_dev26_eq c)
theorem dev27_eq (c : Dev nD) : (⟨k0_dev27 c, k0_dev27_lt c⟩ : Dev nD) = xn c := Fin.ext (k0_dev27_eq c)
theorem dev28_eq (c : Dev nD) : (⟨k0_dev28 c, k0_dev28_lt c⟩ : Dev nD) = xn c := Fin.ext (k0_dev28_eq c)
theorem dev29_eq (c : Dev nD) : (⟨k0_dev29 c, k0_dev29_lt c⟩ : Dev nD) = xn c := Fin.ext (k0_dev29_eq c)
theorem dev30_eq (c : Dev nD) : (⟨k0_dev30 c, k0_dev30_lt c⟩ : Dev nD) = xn c := Fin.ext (k0_dev30_eq c)
theorem dev31_eq (c : Dev nD) : (⟨k0_dev31 c, k0_dev31_lt c⟩ : Dev nD) = xn c := Fin.ext (k0_dev31_eq c)
theorem dev32_eq (c : Dev nD) : (⟨k0_dev32 c, k0_dev32_lt c⟩ : Dev nD) = xn c := Fin.ext (k0_dev32_eq c)
theorem dev33_eq (c : Dev nD) : (⟨k0_dev33 c, k0_dev33_lt c⟩ : Dev nD) = xn c := Fin.ext (k0_dev33_eq c)
theorem dev34_eq (c : Dev nD) : (⟨k0_dev34 c, k0_dev34_lt c⟩ : Dev nD) = xn c := Fin.ext (k0_dev34_eq c)

/-! ## The printed offsets, by coordinates -/

/-- The word of chunk `r`'s row offset inside a half block: 64·r. -/
abbrev cw (r : Fin 16) : BitVec 32 := BitVec.ofNat 32 (64 * r.val)

theorem off1_eq (c : Dev nD) (r : Fin 16) : k0_off1 c (cw r) = ![2048 * my c + 1024 * mx c + 64 * r.val, 0] := k0_off1_eq c r
theorem off2_eq (c : Dev nD) (r : Fin 16) : k0_off2 c (cw r) = ![1024 * mx c + 64 * r.val, 512 - 512 * my c] := k0_off2_eq c r
theorem off3_eq (c : Dev nD) : k0_off3 c = ![2048 * my c, 0] := k0_off3_eq c
theorem off4_eq (c : Dev nD) : k0_off4 c = ![0, 512 * my c] := k0_off4_eq c
theorem off5_eq (c : Dev nD) (r : Fin 16) : k0_off5 c (cw r) = ![(1024 * mx c + 64 * r.val + 2048) - 2048 * my c, 0] := k0_off5_eq c r
theorem off6_eq (c : Dev nD) (r : Fin 16) : k0_off6 c (cw r) = ![(64 * r.val + 3072) - (2048 * my c + 1024 * mx c), 0] := k0_off6_eq c r

/-- Where a device's chunk lands on its y neighbour is where that neighbour forwards it from; -/
theorem off1_eq_off5 (c : Dev nD) (r : Fin 16) : k0_off1 c (cw r) = k0_off5 (yn c) (cw r) := by
  rw [off1_eq, off5_eq, mx_yn, my_yn]; have := my_lt c
  congr 1; omega
/-- where a device's forwarded chunk lands on its x neighbour is that neighbour's other half. -/
theorem off5_eq_off6 (c : Dev nD) (r : Fin 16) : k0_off5 c (cw r) = k0_off6 (xn c) (cw r) := by
  rw [off5_eq, off6_eq, mx_xn, my_xn]; have := my_lt c; have := mx_lt c
  congr 1; omega

end Cert.Kernel.A2A

end
-- ==== Proof.Kernel.Proto.lean ====
/- The all-to-all along y, as a protocol of semaphore cells. Every device holds one block of rows of the input and
   must end with one block of columns of it. It copies its own rows' share of its columns locally, sends the
   other column half of its half of the rows, chunk by chunk, to its y neighbour, and forwards what the y
   neighbour sends it, chunk by chunk, to its x neighbour, so that each device ends with the other row block's
   columns half from its y neighbour directly and half through its x neighbour. Before any transfer the device
   and its two neighbours exchange one unit each on the runtime's barrier semaphore; with its unit a device hands
   the neighbour the rows of its result that the neighbour will write. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Mesh
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline library's copy and the protocol's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

/-- The runtime's barrier semaphore of collective id 0. -/
abbrev barS : Sem sig := (SemArray.scalar (sig.barrier 0 rfl) : Sems sig S_).sem
/-- The DMA semaphores: the local copy's; per chunk the y send's, the y receive's, the x send's, the x receive's. -/
def lSem : DmaSem sig := ⟨0, by decide⟩
def ysSem (r : Fin 16) : DmaSem sig := ⟨1 + r.val, by have := r.isLt; show 1 + r.val < 65; omega⟩
def yrSem (r : Fin 16) : DmaSem sig := ⟨17 + r.val, by have := r.isLt; show 17 + r.val < 65; omega⟩
def xsSem (r : Fin 16) : DmaSem sig := ⟨33 + r.val, by have := r.isLt; show 33 + r.val < 65; omega⟩
def xrSem (r : Fin 16) : DmaSem sig := ⟨49 + r.val, by have := r.isLt; show 49 + r.val < 65; omega⟩

abbrev barCell (c : Dev nD) : GSem nD τ sig := ((c : Thread nD τ), .reg barS)
abbrev dCell (c : Dev nD) (q : DmaSem sig) : GSem nD τ sig := ((c : Thread nD τ), .dma q)
abbrev lCell (c : Dev nD) : GSem nD τ sig := dCell c lSem
abbrev ysCell (c : Dev nD) (r : Fin 16) : GSem nD τ sig := dCell c (ysSem r)
abbrev yrCell (c : Dev nD) (r : Fin 16) : GSem nD τ sig := dCell c (yrSem r)
abbrev xsCell (c : Dev nD) (r : Fin 16) : GSem nD τ sig := dCell c (xsSem r)
abbrev xrCell (c : Dev nD) (r : Fin 16) : GSem nD τ sig := dCell c (xrSem r)

/-! ## The views the transfers go through -/

abbrev xW : Memref sig .tc .hbm S2048x1024 .f32 := Memref.whole main_arg0
abbrev oW : Memref sig .tc .hbm S4096x512 .f32 := Memref.whole main_v1

/-- Chunk `r` of the device's rows to send along y: rows 1024·x + 64·r on, the other y's columns. -/
abbrev srcY (c : Dev nD) (r : Fin 16) : Memref sig .tc .hbm S64x512 .f32 :=
  xW.slice (Rect.unit (s := S2048x1024) (k0_off2 c (cw r)) S64x512.size (k0_off2_inb c r)) (fun _ => rfl)
/-- Where it lands, in the RECEIVER's result: the sender's row block, the sender's half, chunk `r`. -/
abbrev dstY (c : Dev nD) (r : Fin 16) : Memref sig .tc .hbm S64x512 .f32 :=
  oW.slice (Rect.unit (s := S4096x512) (k0_off1 c (cw r)) S64x512.size (k0_off1_inb c r)) (fun _ => rfl)
/-- Chunk `r` of what the y neighbour sends, in the device's own result; forwarded from there to the same rows of the x neighbour's. -/
abbrev fwdV (c : Dev nD) (r : Fin 16) : Memref sig .tc .hbm S64x512 .f32 :=
  oW.slice (Rect.unit (s := S4096x512) (k0_off5 c (cw r)) S64x512.size (k0_off5_inb c r)) (fun _ => rfl)
/-- Chunk `r` of what the x neighbour forwards, in the device's own result. -/
abbrev othV (c : Dev nD) (r : Fin 16) : Memref sig .tc .hbm S64x512 .f32 :=
  oW.slice (Rect.unit (s := S4096x512) (k0_off6 c (cw r)) S64x512.size (k0_off6_inb c r)) (fun _ => rfl)
/-- The local copy: all the device's rows at its own y's columns, into its own row block of the result. -/
abbrev locS (c : Dev nD) : Memref sig .tc .hbm S2048x512 .f32 :=
  xW.slice (Rect.unit (s := S2048x1024) (k0_off4 c) S2048x512.size (k0_off4_inb c)) (fun _ => rfl)
abbrev locD (c : Dev nD) : Memref sig .tc .hbm S2048x512 .f32 :=
  oW.slice (Rect.unit (s := S4096x512) (k0_off3 c) S2048x512.size (k0_off3_inb c)) (fun _ => rfl)

/-- Slices of one memref through unit rectangles of the same sizes at equal offsets are equal. -/
theorem slice_congr {sp : Space} {s : Shape} {e : EltTy} (M : Memref sig .tc sp s e) {off off' size : Fin s.rank → Nat} (h : off = off')
    (p : ∀ a, off a + size a ≤ s.size a) (p' : ∀ a, off' a + size a ≤ s.size a) :
    M.slice (Rect.unit off size p) (fun _ => rfl) = M.slice (Rect.unit off' size p') (fun _ => rfl) := by
  subst h; rfl

theorem dstY_eq (c : Dev nD) (r : Fin 16) : dstY c r = fwdV (yn c) r := slice_congr oW (off1_eq_off5 c r) _ _
theorem fwdV_eq (c : Dev nD) (r : Fin 16) : fwdV c r = othV (xn c) r := slice_congr oW (off5_eq_off6 c r) _ _

/-- The credit of one chunk and of the local copy. -/
abbrev N64 : ℕ := (fwdV (0 : Dev nD) 0).view.dmaCredit
abbrev NL : ℕ := (locD (0 : Dev nD)).view.dmaCredit

/-! ## Contents -/

/-- Device `c`'s block of the input, as launched. -/
abbrev Xb (c : Dev nD) : Buf (Elt F) ((c : Thread nD τ).loc main_arg0) := m ((c : Thread nD τ).loc main_arg0)

/-- What device `c`'s result holds at the end: row `i`, column `j` is row `i mod 2048`, column `512·y + j` of the
    input block of the device the row came from — the device itself for its own row block, its y neighbour for
    its own half of the other row block, its x neighbour's y neighbour for the other half. -/
def Gfin (c : Dev nD) : Buf (Elt F) ((c : Thread nD τ).loc main_v1) := fun i =>
  let ri : Fin 2048 := ⟨(i 0).val % 2048, Nat.mod_lt _ (by decide)⟩
  let ci : Fin 1024 := ⟨512 * my c + (i 1).val, by have h1 : (i 1).val < 512 := (i 1).isLt; have h2 := my_lt c; show _ < 1024; omega⟩
  if (i 0).val / 2048 = my c then Xb m c (ix2 ri ci)
  else if ((i 0).val % 2048) / 1024 = mx c then Xb m (yn c) (ix2 ri ci)
  else Xb m (yn (xn c)) (ix2 ri ci)

/-- Points-to of the elements under a view on device `c`, at contents `f`. -/
abbrev vPts {sp : Space} {s : Shape} {e : EltTy} (c : Dev nD) (v : Memref sig .tc sp s e) (f : Buf (Elt F) (v.view.loc (c : Thread nD τ))) : sProp 𝕄 :=
  v.view.loc (c : Thread nD τ) ↦[v.view.set]{fullShare} f

/-! ## The schedule: one round -/

/-- What the y neighbour's unit on `c`'s barrier hands `c`: the rows of the y neighbour's result that `c`'s sixteen
    sends write, at whatever they hold, and that the y neighbour's receive cells are at round 0. -/
def barPayY (c : Dev nD) : sProp 𝕄 :=
  bigSep Finset.univ fun r : Fin 16 => iprop((∃ f, vPts (yn c) (fwdV (yn c) r) f) ∗ reached ER (yrCell (yn c) r) 0)
/-- What the x neighbour's unit hands `c`: the rows of the x neighbour's result that `c`'s sixteen forwards write. -/
def barPayX (c : Dev nD) : sProp 𝕄 :=
  bigSep Finset.univ fun r : Fin 16 => iprop((∃ f, vPts (xn c) (othV (xn c) r) f) ∗ reached ER (xrCell (xn c) r) 0)
/-- The local copy's landing: the device's row block of its result written, and the source back. -/
def lPay (c : Dev nD) : sProp 𝕄 := iprop(vPts c (locD c) (Gfin m c) ∗ vPts c (locS c) (Xb m c))
/-- A y send's completion: the source chunk back. -/
def ysPay (c : Dev nD) (r : Fin 16) : sProp 𝕄 := vPts c (srcY c r) (Xb m c)
/-- A y receive: chunk `r` of the y neighbour's rows, landed. -/
def yrPay (c : Dev nD) (r : Fin 16) : sProp 𝕄 := vPts c (fwdV c r) (Gfin m c)
/-- An x send's completion: the forwarded chunk back. -/
def xsPay (c : Dev nD) (r : Fin 16) : sProp 𝕄 := vPts c (fwdV c r) (Gfin m c)
/-- An x receive: chunk `r` of what the x neighbour forwards, landed. -/
def xrPay (c : Dev nD) (r : Fin 16) : sProp 𝕄 := vPts c (othV c r) (Gfin m c)

/-- Which chunk a DMA semaphore past the first belongs to. -/
def chunkOf (q : DmaSem sig) : Fin 16 := ⟨(q.val - 1) % 16, Nat.mod_lt _ (by decide)⟩

def dmaPay (c : Dev nD) (q : DmaSem sig) : sProp 𝕄 :=
  if q.val = 0 then lPay m c
  else if q.val < 17 then ysPay m c (chunkOf q)
  else if q.val < 33 then yrPay m c (chunkOf q)
  else if q.val < 49 then xsPay m c (chunkOf q)
  else xrPay m c (chunkOf q)

/-- One round, round 0. A barrier cell has two duties of one unit: `false` paid by the y neighbour, `true` by the x
    neighbour. A DMA cell has the one duty `false` of its transfer's credit. -/
def sched : Rounds.Schedule (GSem nD τ sig) Bool 𝕄 where
  duties g r := if r = 0 ∧ g.1.2 = .tc then (match g.2 with | .reg s => if s = barS then Finset.univ else ∅ | .dma _ => {false}) else ∅
  unitless _ := False
  amount g _ _ := match g.2 with | .reg _ => 1 | .dma q => if q.val = 0 then NL else N64
  payload g _ d := match g.2 with
    | .reg _ => if d then barPayX g.1.1 else barPayY g.1.1
    | .dma q => dmaPay m g.1.1 q
  amount_pos g _ _ _ := by
    rcases g with ⟨t, sm⟩
    cases sm with
    | reg s => exact Nat.one_pos
    | dma q =>
      show 0 < (if q.val = 0 then NL else N64)
      split
      · exact View.dmaCredit_pos _ (by decide)
      · exact View.dmaCredit_pos _ (by decide)

end Cert.Kernel.A2A

end
-- ==== Proof.Kernel.Iface.lean ====
/- What each device owes its neighbours' cells at launch, the order in which its body pays that off, the levels that
   order the waits, and the ghost state and points-to a device's body starts from and ends with. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## What a device owes, in the order its body pays -/

/-- The chunks in program order. -/
abbrev chunks : List (Fin 16) := [0, 1, 2, 3, 4, 5, 6, 7, 8, 9, 10, 11, 12, 13, 14, 15]

/-- The forwards still to make: each owes the x neighbour's receive cell a chunk's credit. -/
def OX (c : Dev nD) : List (Fin 16) → CellTallies nD τ sig Unit
  | [] => 0
  | r :: rs => OX c rs + tallyAt (xrCell (xn c) r) () N64
/-- The y sends still to make, over all the forwards. -/
def OY (c : Dev nD) : List (Fin 16) → CellTallies nD τ sig Unit
  | [] => OX c chunks
  | r :: rs => OY c rs + tallyAt (yrCell (yn c) r) () N64
/-- After the first signal; at launch. The first signal goes to the y neighbour's barrier, the second to the x neighbour's. -/
def O₁ (c : Dev nD) : CellTallies nD τ sig Unit := OY c chunks + tallyAt (barCell (xn c)) () 1
def O₀ (c : Dev nD) : CellTallies nD τ sig Unit := O₁ c + tallyAt (barCell (yn c)) () 1

/-! ## Levels: barrier cells below y-receive cells below x-receive cells; every other cell at the bottom -/

def L (g : GSem nD τ sig) : Finset Unit := if g.1.2 = .tc then {()} else ∅
def lv (g : GSem nD τ sig) (_ : Unit) : ℕ :=
  match g.2 with
  | .reg _ => 1
  | .dma q => if 17 ≤ q.val ∧ q.val < 33 then 2 else if 49 ≤ q.val then 3 else 0

/-! ## The cells of the mesh, indexed -/

/-- A device's cells: its barrier cell (`none`) and its sixty-five DMA cells. -/
abbrev csem : Option (DmaSem sig) → SemLoc sig := fun | none => .reg barS | some q => .dma q
abbrev kcell (ck : Dev nD × Option (DmaSem sig)) : GSem nD τ sig := ((ck.1 : Thread nD τ), csem ck.2)

/-- Every cell's invariant, under the names `K` the launch allocated them at, and that every cell is at round 0. -/
def records (K : Dev nD × Option (DmaSem sig) → ℕ) : sProp 𝕄 :=
  iprop((bigSep Finset.univ fun ck : Dev nD × Option (DmaSem sig) => cellInv ER (sched m) (K ck) (kcell ck))
    ∗ bigSep Finset.univ fun ck : Dev nD × Option (DmaSem sig) => reached ER (kcell ck) 0)

instance records_persistent (K : Dev nD × Option (DmaSem sig) → ℕ) : BI.Persistent (records m K) := by unfold records; infer_instance

/-- The tokens of the duties device `c` pays: its unit on each neighbour's barrier; its local copy; per chunk its y send
    (its own send cell, the y neighbour's receive cell) and its forward (its own send cell, the x neighbour's receive cell). -/
def payToks (c : Dev nD) : sProp 𝕄 :=
  iprop(dutyTok ER (barCell (yn c)) 0 false ∗ dutyTok ER (barCell (xn c)) 0 true ∗ dutyTok ER (lCell c) 0 false
    ∗ bigSep Finset.univ fun r : Fin 16 =>
        iprop(dutyTok ER (ysCell c r) 0 false ∗ dutyTok ER (yrCell (yn c) r) 0 false
          ∗ dutyTok ER (xsCell c r) 0 false ∗ dutyTok ER (xrCell (xn c) r) 0 false))

/-- Its positions: every own cell at round 0, nothing taken. -/
def positions (c : Dev nD) : sProp 𝕄 :=
  bigSep Finset.univ fun o : Option (DmaSem sig) => atPos ER (kcell (c, o)) 0 ∅ 0

def ghost (K : Dev nD × Option (DmaSem sig) → ℕ) (c : Dev nD) : sProp 𝕄 := iprop(records m K ∗ positions c ∗ payToks c)

/-- The credit other devices owe `c`'s cells: two units on its barrier, a chunk's credit on each receive cell. -/
def launchCreds (c : Dev nD) : sProp 𝕄 :=
  iprop(cred (tallyAt (barCell c) () 2)
    ∗ (bigSep Finset.univ fun r : Fin 16 => cred (tallyAt (yrCell c r) () N64))
    ∗ (bigSep Finset.univ fun r : Fin 16 => cred (tallyAt (xrCell c r) () N64)))

/-- What device `c`'s body starts from. -/
def start (c : Dev nD) : sProp 𝕄 :=
  iprop((∃ K, ghost m K c) ∗ launchCreds c ∗ levAts L lv
    ∗ (((c : Thread nD τ).loc main_arg0) ↦{fullShare} Xb m c) ∗ (∃ f, ((c : Thread nD τ).loc main_v1) ↦{fullShare} f))

/-- What it ends with: the input as it was, the result at its final contents, every own DMA semaphore at zero. -/
def finish (c : Dev nD) : sProp 𝕄 :=
  iprop((((c : Thread nD τ).loc main_arg0) ↦{fullShare} Xb m c) ∗ (((c : Thread nD τ).loc main_v1) ↦{fullShare} Gfin m c)
    ∗ bigSep Finset.univ fun q : DmaSem sig => semVal (dCell c q) 0)

/-! ## The pipeline's proof data: no windows, one point -/

def dats (_ : Fin 1) (c : Dev nD) : Dat τ (Elt F) Unit ℕ UU ℕ cfg0 c where
  A w := w.elim0
  after w _ := w.elim0
  Φ t := match t with
    | ⟨0, _⟩ => start m c
    | ⟨_ + 1, _⟩ => finish m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.A2A

end
-- ==== Proof.Kernel.Sched.lean ====
/- The schedule's table, cell by cell: which duties a cell has, their amounts, what a round expects, what each duty hands over. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ### Every payload can be kept in a cell's invariant -/

instance barPayY_storable (c : Dev nD) : BI.Storable (upEmb : UEmb _ 𝕄) (barPayY (F := F) c) := by unfold barPayY; infer_instance
instance barPayX_storable (c : Dev nD) : BI.Storable (upEmb : UEmb _ 𝕄) (barPayX (F := F) c) := by unfold barPayX; infer_instance
instance lPay_storable (c : Dev nD) : BI.Storable (upEmb : UEmb _ 𝕄) (lPay m c) := by unfold lPay; infer_instance
instance ysPay_storable (c : Dev nD) (r : Fin 16) : BI.Storable (upEmb : UEmb _ 𝕄) (ysPay m c r) := by unfold ysPay; infer_instance
instance yrPay_storable (c : Dev nD) (r : Fin 16) : BI.Storable (upEmb : UEmb _ 𝕄) (yrPay m c r) := by unfold yrPay; infer_instance
instance xsPay_storable (c : Dev nD) (r : Fin 16) : BI.Storable (upEmb : UEmb _ 𝕄) (xsPay m c r) := by unfold xsPay; infer_instance
instance xrPay_storable (c : Dev nD) (r : Fin 16) : BI.Storable (upEmb : UEmb _ 𝕄) (xrPay m c r) := by unfold xrPay; infer_instance
instance dmaPay_storable (c : Dev nD) (q : DmaSem sig) : BI.Storable (upEmb : UEmb _ 𝕄) (dmaPay m c q) := by
  unfold dmaPay
  split
  · infer_instance
  split
  · infer_instance
  split
  · infer_instance
  split
  · infer_instance
  · infer_instance

instance sched_payload_storable (g : GSem nD τ sig) (r : ℕ) (d : Bool) :
    BI.Storable (upEmb : UEmb _ 𝕄) ((sched (F := F) m).payload g r d) := by
  rcases g with ⟨t, sm⟩
  cases sm with
  | reg s =>
    cases d
    · show BI.Storable upEmb (barPayY t.1); infer_instance
    · show BI.Storable upEmb (barPayX t.1); infer_instance
  | dma q =>
    show BI.Storable upEmb (dmaPay m t.1 q)
    infer_instance

section Sched
variable (c : Dev nD)

/-! ### Which semaphore is which: the index ranges, and the chunk of a semaphore past the first -/

theorem lSem_val : (lSem : DmaSem sig).val = 0 := rfl
theorem ysSem_val (r : Fin 16) : (ysSem r : DmaSem sig).val = 1 + r.val := rfl
theorem yrSem_val (r : Fin 16) : (yrSem r : DmaSem sig).val = 17 + r.val := rfl
theorem xsSem_val (r : Fin 16) : (xsSem r : DmaSem sig).val = 33 + r.val := rfl
theorem xrSem_val (r : Fin 16) : (xrSem r : DmaSem sig).val = 49 + r.val := rfl

theorem chunkOf_ys (r : Fin 16) : chunkOf (ysSem r) = r := by
  apply Fin.ext; show (1 + r.val - 1) % 16 = r.val; have := r.isLt; omega
theorem chunkOf_yr (r : Fin 16) : chunkOf (yrSem r) = r := by
  apply Fin.ext; show (17 + r.val - 1) % 16 = r.val; have := r.isLt; omega
theorem chunkOf_xs (r : Fin 16) : chunkOf (xsSem r) = r := by
  apply Fin.ext; show (33 + r.val - 1) % 16 = r.val; have := r.isLt; omega
theorem chunkOf_xr (r : Fin 16) : chunkOf (xrSem r) = r := by
  apply Fin.ext; show (49 + r.val - 1) % 16 = r.val; have := r.isLt; omega

/-- The payload of each kind of DMA cell, read off the index ranges. -/
theorem dmaPay_l : dmaPay m c lSem = lPay m c := by unfold dmaPay; exact if_pos rfl
theorem dmaPay_ys (r : Fin 16) : dmaPay m c (ysSem r) = ysPay m c r := by
  have := r.isLt
  unfold dmaPay
  rw [if_neg (by rw [ysSem_val]; omega), if_pos (by rw [ysSem_val]; omega), chunkOf_ys]
theorem dmaPay_yr (r : Fin 16) : dmaPay m c (yrSem r) = yrPay m c r := by
  have := r.isLt
  unfold dmaPay
  rw [if_neg (by rw [yrSem_val]; omega), if_neg (by rw [yrSem_val]; omega), if_pos (by rw [yrSem_val]; omega), chunkOf_yr]
theorem dmaPay_xs (r : Fin 16) : dmaPay m c (xsSem r) = xsPay m c r := by
  have := r.isLt
  unfold dmaPay
  rw [if_neg (by rw [xsSem_val]; omega), if_neg (by rw [xsSem_val]; omega), if_neg (by rw [xsSem_val]; omega),
    if_pos (by rw [xsSem_val]; omega), chunkOf_xs]
theorem dmaPay_xr (r : Fin 16) : dmaPay m c (xrSem r) = xrPay m c r := by
  have := r.isLt
  unfold dmaPay
  rw [if_neg (by rw [xrSem_val]; omega), if_neg (by rw [xrSem_val]; omega), if_neg (by rw [xrSem_val]; omega),
    if_neg (by rw [xrSem_val]; omega), chunkOf_xr]

/-! ### Duties -/

theorem duties_bar : (sched (F := F) m).duties (barCell c) 0 = Finset.univ := by
  dsimp only [sched]; rw [if_pos ⟨rfl, rfl⟩]; exact if_pos rfl
theorem duties_d (q : DmaSem sig) : (sched (F := F) m).duties (dCell c q) 0 = {false} := by
  dsimp only [sched]; exact if_pos ⟨rfl, rfl⟩
theorem duties_later (g : GSem nD τ sig) : ∀ r, 1 ≤ r → (sched (F := F) m).duties g r = ∅ :=
  fun r hr => by dsimp only [sched]; exact if_neg fun h => by omega

/-! ### Amounts -/

theorem amount_bar (d : Bool) : (sched (F := F) m).amount (barCell c) 0 d = 1 := rfl
theorem amount_l (d : Bool) : (sched (F := F) m).amount (lCell c) 0 d = NL := by
  dsimp only [sched]; exact if_pos rfl
theorem amount_ys (r : Fin 16) (d : Bool) : (sched (F := F) m).amount (ysCell c r) 0 d = N64 := by
  dsimp only [sched]; exact if_neg (by rw [ysSem_val]; omega)
theorem amount_yr (r : Fin 16) (d : Bool) : (sched (F := F) m).amount (yrCell c r) 0 d = N64 := by
  dsimp only [sched]; exact if_neg (by rw [yrSem_val]; omega)
theorem amount_xs (r : Fin 16) (d : Bool) : (sched (F := F) m).amount (xsCell c r) 0 d = N64 := by
  dsimp only [sched]; exact if_neg (by rw [xsSem_val]; omega)
theorem amount_xr (r : Fin 16) (d : Bool) : (sched (F := F) m).amount (xrCell c r) 0 d = N64 := by
  dsimp only [sched]; exact if_neg (by rw [xrSem_val]; omega)

/-! ### What a round expects: the sum of its duties' amounts -/

theorem expect_bar : (sched (F := F) m).expect (barCell c) 0 = 2 := by
  show ∑ d ∈ (sched (F := F) m).duties (barCell c) 0, (sched (F := F) m).amount (barCell c) 0 d = 2
  rw [duties_bar]
  rfl
/-- A DMA cell's round expects its one duty's amount. -/
theorem expect_d (q : DmaSem sig) (N : ℕ) (h : ∀ d, (sched (F := F) m).amount (dCell c q) 0 d = N) : (sched (F := F) m).expect (dCell c q) 0 = N := by
  show ∑ d ∈ (sched (F := F) m).duties (dCell c q) 0, (sched (F := F) m).amount (dCell c q) 0 d = N
  rw [duties_d]
  exact (Finset.sum_singleton _ _).trans (h false)
theorem expect_l : (sched (F := F) m).expect (lCell c) 0 = NL := expect_d m c lSem NL (amount_l m c)
theorem expect_ys (r : Fin 16) : (sched (F := F) m).expect (ysCell c r) 0 = N64 := expect_d m c _ N64 (amount_ys m c r)
theorem expect_yr (r : Fin 16) : (sched (F := F) m).expect (yrCell c r) 0 = N64 := expect_d m c _ N64 (amount_yr m c r)
theorem expect_xs (r : Fin 16) : (sched (F := F) m).expect (xsCell c r) 0 = N64 := expect_d m c _ N64 (amount_xs m c r)
theorem expect_xr (r : Fin 16) : (sched (F := F) m).expect (xrCell c r) 0 = N64 := expect_d m c _ N64 (amount_xr m c r)

/-! ### Payloads -/

theorem payload_bar_false : (sched (F := F) m).payload (barCell c) 0 false = barPayY c := by
  dsimp only [sched]; exact if_neg Bool.false_ne_true
theorem payload_bar_true : (sched (F := F) m).payload (barCell c) 0 true = barPayX c := by
  dsimp only [sched]; exact if_pos rfl
theorem payload_l (d : Bool) : (sched (F := F) m).payload (lCell c) 0 d = lPay m c := dmaPay_l m c
theorem payload_ys (r : Fin 16) (d : Bool) : (sched (F := F) m).payload (ysCell c r) 0 d = ysPay m c r := dmaPay_ys m c r
theorem payload_yr (r : Fin 16) (d : Bool) : (sched (F := F) m).payload (yrCell c r) 0 d = yrPay m c r := dmaPay_yr m c r
theorem payload_xs (r : Fin 16) (d : Bool) : (sched (F := F) m).payload (xsCell c r) 0 d = xsPay m c r := dmaPay_xs m c r
theorem payload_xr (r : Fin 16) (d : Bool) : (sched (F := F) m).payload (xrCell c r) 0 d = xrPay m c r := dmaPay_xr m c r

/-- The rest of a cell's round when no duty has been taken: every duty's payload. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_l : bigSep ((sched (F := F) m).duties (lCell c) 0 \ ∅) (fun d => (sched (F := F) m).payload (lCell c) 0 d) = lPay m c := by
  rw [Finset.sdiff_empty, duties_d, bigSep_singleton, payload_l]
theorem rest_ys (r : Fin 16) : bigSep ((sched (F := F) m).duties (ysCell c r) 0 \ ∅) (fun d => (sched (F := F) m).payload (ysCell c r) 0 d) = ysPay m c r := by
  rw [Finset.sdiff_empty, duties_d, bigSep_singleton, payload_ys]
theorem rest_yr (r : Fin 16) : bigSep ((sched (F := F) m).duties (yrCell c r) 0 \ ∅) (fun d => (sched (F := F) m).payload (yrCell c r) 0 d) = yrPay m c r := by
  rw [Finset.sdiff_empty, duties_d, bigSep_singleton, payload_yr]
theorem rest_xs (r : Fin 16) : bigSep ((sched (F := F) m).duties (xsCell c r) 0 \ ∅) (fun d => (sched (F := F) m).payload (xsCell c r) 0 d) = xsPay m c r := by
  rw [Finset.sdiff_empty, duties_d, bigSep_singleton, payload_xs]
theorem rest_xr (r : Fin 16) : bigSep ((sched (F := F) m).duties (xrCell c r) 0 \ ∅) (fun d => (sched (F := F) m).payload (xrCell c r) 0 d) = xrPay m c r := by
  rw [Finset.sdiff_empty, duties_d, bigSep_singleton, payload_xr]

end Sched

/-- info: 'Cert.Kernel.A2A.rest_bar' depends on axioms: [propext, Classical.choice, Quot.sound] -/
#guard_msgs in #print axioms rest_bar
/-- info: 'Cert.Kernel.A2A.sched_payload_storable' depends on axioms: [propext, Classical.choice, Quot.sound] -/
#guard_msgs in #print axioms sched_payload_storable

end Cert.Kernel.A2A

end
-- ==== Proof.Kernel.Owes.lean ====
/- The deadlock argument: each wait of a device sits below everything the device still owes; and the credit the
   other devices owe a device's cells at launch. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Where the tallies are positive -/

theorem L_tc (c : Dev nD) (sm : SemLoc sig) : L ((c : Thread nD τ), sm) = {()} := if_pos rfl

/-- A tally on one cell is positive at that cell only. -/
theorem tallyAt_pos {g g' : GSem nD τ sig} {u : Unit} {k : ℕ} (h : 0 < (tallyAt g () k : CellTallies nD τ sig Unit) g' u) : g' = g := by
  rw [tallyAt_apply] at h
  by_contra hn
  rw [if_neg (fun h' => hn h'.1)] at h
  exact Nat.lt_irrefl 0 h

/-- The forwards still owed sit on the x neighbour's receive cells. -/
theorem OX_pos {c : Dev nD} {rs : List (Fin 16)} {g : GSem nD τ sig} {u : Unit} (h : 0 < OX c rs g u) : ∃ r, g = xrCell (xn c) r := by
  induction rs with
  | nil => exact absurd h (Nat.lt_irrefl 0)
  | cons r rs ih =>
    rw [show OX c (r :: rs) = OX c rs + tallyAt (xrCell (xn c) r) () N64 from rfl, Pi.add_apply, Finsupp.add_apply] at h
    rcases Nat.add_pos_iff_pos_or_pos.mp h with h | h
    · exact ih h
    · exact ⟨r, tallyAt_pos h⟩

/-- The y sends still owed sit on the y neighbour's receive cells, the forwards on the x neighbour's. -/
theorem OY_pos {c : Dev nD} {rs : List (Fin 16)} {g : GSem nD τ sig} {u : Unit} (h : 0 < OY c rs g u) :
    (∃ r, g = yrCell (yn c) r) ∨ (∃ r, g = xrCell (xn c) r) := by
  induction rs with
  | nil => exact Or.inr (OX_pos h)
  | cons r rs ih =>
    rw [show OY c (r :: rs) = OY c rs + tallyAt (yrCell (yn c) r) () N64 from rfl, Pi.add_apply, Finsupp.add_apply] at h
    rcases Nat.add_pos_iff_pos_or_pos.mp h with h | h
    · exact ih h
    · exact Or.inl ⟨r, tallyAt_pos h⟩

/-! ## The levels of the cells -/

theorem lv_bar (d : Dev nD) : lv (barCell d) () = 1 := rfl
theorem lv_yr (d : Dev nD) (r : Fin 16) : lv (yrCell d r) () = 2 := by
  have hr := r.isLt
  show (if 17 ≤ 17 + r.val ∧ 17 + r.val < 33 then 2 else if 49 ≤ 17 + r.val then 3 else 0) = 2
  rw [if_pos ⟨by omega, by omega⟩]
theorem lv_xr (d : Dev nD) (r : Fin 16) : lv (xrCell d r) () = 3 := by
  have hr := r.isLt
  show (if 17 ≤ 49 + r.val ∧ 49 + r.val < 33 then 2 else if 49 ≤ 49 + r.val then 3 else 0) = 3
  rw [if_neg (fun h => by omega), if_pos (by omega)]

/-! ## The waits -/

/-- At its barrier wait a device owes only receive cells, all above its barrier cell. -/
theorem mayWait_bar (c : Dev nD) : (levAts L lv : sProp 𝕄) ⊢ MayWait (c : Thread nD τ) (.reg barS) () (OY c chunks) :=
  MayOwe.of_cut (L := L) (lev := lv) 1 (fun p hp => by rw [Finset.mem_singleton.mp hp, L_tc]; exact Finset.mem_singleton_self _)
    (fun g u hg => by
      rcases OY_pos hg with ⟨r, rfl⟩ | ⟨r, rfl⟩ <;> (rw [L_tc]; exact Finset.mem_singleton_self _))
    (fun p hp => by rw [Finset.mem_singleton.mp hp]; exact le_of_eq (lv_bar c))
    (fun g u hg => by
      rcases OY_pos hg with ⟨r, rfl⟩ | ⟨r, rfl⟩
      · rw [show u = () from rfl, lv_yr]; decide
      · rw [show u = () from rfl, lv_xr]; decide)
/-- At a y-receive wait it owes only its x neighbour's receive cells, above its own y-receive cells. -/
theorem mayWait_yr (c : Dev nD) (r : Fin 16) (rs : List (Fin 16)) :
    (levAts L lv : sProp 𝕄) ⊢ MayWait (c : Thread nD τ) (.dma (yrSem r)) () (OX c rs) :=
  MayOwe.of_cut (L := L) (lev := lv) 2 (fun p hp => by rw [Finset.mem_singleton.mp hp, L_tc]; exact Finset.mem_singleton_self _)
    (fun g u hg => by
      obtain ⟨r', rfl⟩ := OX_pos hg
      rw [L_tc]; exact Finset.mem_singleton_self _)
    (fun p hp => by rw [Finset.mem_singleton.mp hp]; exact le_of_eq (lv_yr c r))
    (fun g u hg => by
      obtain ⟨r', rfl⟩ := OX_pos hg
      rw [show u = () from rfl, lv_xr]; decide)

/-! ## The launch credit -/

theorem chunks_nodup : chunks.Nodup := by decide
theorem chunks_toFinset : chunks.toFinset = Finset.univ := by decide

/-- The forwards owed over a list of distinct chunks, as a sum over the chunks. -/
theorem OX_sum (d : Dev nD) (rs : List (Fin 16)) (h : rs.Nodup) :
    OX d rs = ∑ r ∈ rs.toFinset, (tallyAt (xrCell (xn d) r) () N64 : CellTallies nD τ sig Unit) := by
  induction rs with
  | nil => rfl
  | cons r rs ih =>
    rw [List.toFinset_cons, Finset.sum_insert (by rw [List.mem_toFinset]; exact (List.nodup_cons.mp h).1), ← ih (List.nodup_cons.mp h).2, add_comm]
    rfl
/-- The y sends owed over a list of distinct chunks, over all the forwards. -/
theorem OY_sum (d : Dev nD) (rs : List (Fin 16)) (h : rs.Nodup) :
    OY d rs = OX d chunks + ∑ r ∈ rs.toFinset, (tallyAt (yrCell (yn d) r) () N64 : CellTallies nD τ sig Unit) := by
  induction rs with
  | nil => rw [List.toFinset_nil, Finset.sum_empty, add_zero]; rfl
  | cons r rs ih =>
    rw [List.toFinset_cons, Finset.sum_insert (by rw [List.mem_toFinset]; exact (List.nodup_cons.mp h).1), add_comm (tallyAt _ _ _), ← add_assoc,
      ← ih (List.nodup_cons.mp h).2]
    rfl

/-- What a device owes at launch, summand by summand. -/
theorem O₀_eq : (O₀ : Dev nD → CellTallies nD τ sig Unit) = fun d =>
    (((∑ r : Fin 16, (tallyAt (xrCell (xn d) r) () N64 : CellTallies nD τ sig Unit)) + ∑ r : Fin 16, (tallyAt (yrCell (yn d) r) () N64 : CellTallies nD τ sig Unit))
      + tallyAt (barCell (xn d)) () 1) + tallyAt (barCell (yn d)) () 1 := by
  funext d
  unfold O₀ O₁
  rw [OY_sum d chunks chunks_nodup, OX_sum d chunks chunks_nodup, chunks_toFinset]

/-- The credit tokens a device is dealt at launch for what the others owe its cells. -/
theorem creds (c : Dev nD) : (Pipeline.launchCred O₀ c : sProp 𝕄) ⊢ launchCreds (F := F) c := by
  rw [O₀_eq, Pipeline.launchCred_add, Pipeline.launchCred_add, Pipeline.launchCred_add, Pipeline.launchCred_sum, Pipeline.launchCred_sum]
  unfold launchCreds
  have hY : (bigSep Finset.univ fun r : Fin 16 => (Pipeline.launchCred (fun d => tallyAt (yrCell (yn d) r) () N64) c : sProp 𝕄))
      ⊢ bigSep Finset.univ fun r : Fin 16 => cred (tallyAt (yrCell c r) () N64) :=
    bigSep_mono fun r _ => Pipeline.launchCred_tallyAt (.dma (yrSem r)) yn yn yn_yn yn_yn () N64 c
  have hX : (bigSep Finset.univ fun r : Fin 16 => (Pipeline.launchCred (fun d => tallyAt (xrCell (xn d) r) () N64) c : sProp 𝕄))
      ⊢ bigSep Finset.univ fun r : Fin 16 => cred (tallyAt (xrCell c r) () N64) :=
    bigSep_mono fun r _ => Pipeline.launchCred_tallyAt (.dma (xrSem r)) xn xn xn_xn xn_xn () N64 c
  iintro ⟨⟨⟨HX, HY⟩, HBX⟩, HBY⟩
  isplitl [HBX HBY]
  · rw [← tallyAt_add (barCell c) () 1 1]
    iapply (cred_add _ _).2
    isplitl [HBX]
    · iapply (Pipeline.launchCred_tallyAt (.reg barS) xn xn xn_xn xn_xn () 1 c); iexact HBX
    · iapply (Pipeline.launchCred_tallyAt (.reg barS) yn yn yn_yn yn_yn () 1 c); iexact HBY
  isplitl [HY]
  · iapply hY; iexact HY
  · iapply hX; iexact HX

/-- info: 'Cert.Kernel.A2A.mayWait_bar' depends on axioms: [propext, Classical.choice, Quot.sound] -/
#guard_msgs in #print axioms mayWait_bar

/-- info: 'Cert.Kernel.A2A.creds' depends on axioms: [propext, Classical.choice, Quot.sound] -/
#guard_msgs in #print axioms creds

end Cert.Kernel.A2A

end
-- ==== Proof.Kernel.Split.lean ====
/- A device's two arrays cut along the rectangles its transfers go through, and put back together. The result is
   exactly its own row block, the sixteen chunks that arrive from the y neighbour and the sixteen that arrive from
   the x neighbour; the input is the local copy's column half, the sixteen chunks sent along y, and a rest no
   transfer touches. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The element sets of the views, by coordinates -/

theorem locS_set (c : Dev nD) : (locS c).view.set
    = (Rect.unit (s := S2048x1024) (k0_off4 c) S2048x512.size (k0_off4_inb c)).set :=
  View.set_slice_whole main_arg0 _

/-- The local copy reads every row, at the device's own y's columns. -/
theorem mem_locS (c : Dev nD) (i : S2048x1024.Idx) :
    i ∈ (locS c).view.set ↔ 512 * my c ≤ (i 1).val ∧ (i 1).val < 512 * my c + 512 := by
  rw [locS_set, Rect.mem_set_unit, off4_eq, Fin.forall_fin_two]
  have h0 := idx2_lt0 i
  show (0 ≤ (i 0).val ∧ (i 0).val < 0 + 2048) ∧ (512 * my c ≤ (i 1).val ∧ (i 1).val < 512 * my c + 512) ↔ _
  omega

theorem srcY_set (c : Dev nD) (r : Fin 16) : (srcY c r).view.set
    = (Rect.unit (s := S2048x1024) (k0_off2 c (cw r)) S64x512.size (k0_off2_inb c r)).set :=
  View.set_slice_whole main_arg0 _

/-- Chunk `r` sent along y: sixty-four rows from 1024·x + 64·r, at the other y's columns. -/
theorem mem_srcY (c : Dev nD) (r : Fin 16) (i : S2048x1024.Idx) :
    i ∈ (srcY c r).view.set ↔ (1024 * mx c + 64 * r.val ≤ (i 0).val ∧ (i 0).val < 1024 * mx c + 64 * r.val + 64)
      ∧ (512 - 512 * my c ≤ (i 1).val ∧ (i 1).val < 512 - 512 * my c + 512) := by
  rw [srcY_set, Rect.mem_set_unit, off2_eq, Fin.forall_fin_two]
  rfl

theorem locD_set (c : Dev nD) : (locD c).view.set
    = (Rect.unit (s := S4096x512) (k0_off3 c) S2048x512.size (k0_off3_inb c)).set :=
  View.set_slice_whole main_v1 _

/-- The device's own row block of the result: 2048 rows from 2048·y, every column. -/
theorem mem_locD (c : Dev nD) (i : S4096x512.Idx) :
    i ∈ (locD c).view.set ↔ 2048 * my c ≤ (i 0).val ∧ (i 0).val < 2048 * my c + 2048 := by
  rw [locD_set, Rect.mem_set_unit, off3_eq, Fin.forall_fin_two]
  have h1 := idx2_lt1 i
  show (2048 * my c ≤ (i 0).val ∧ (i 0).val < 2048 * my c + 2048) ∧ (0 ≤ (i 1).val ∧ (i 1).val < 0 + 512) ↔ _
  omega

theorem fwdV_set (c : Dev nD) (r : Fin 16) : (fwdV c r).view.set
    = (Rect.unit (s := S4096x512) (k0_off5 c (cw r)) S64x512.size (k0_off5_inb c r)).set :=
  View.set_slice_whole main_v1 _

/-- Chunk `r` from the y neighbour: sixty-four rows of the other row block, in the half the device's x names. -/
theorem mem_fwdV (c : Dev nD) (r : Fin 16) (i : S4096x512.Idx) :
    i ∈ (fwdV c r).view.set ↔ (1024 * mx c + 64 * r.val + 2048) - 2048 * my c ≤ (i 0).val
      ∧ (i 0).val < (1024 * mx c + 64 * r.val + 2048) - 2048 * my c + 64 := by
  rw [fwdV_set, Rect.mem_set_unit, off5_eq, Fin.forall_fin_two]
  have h1 := idx2_lt1 i
  show ((1024 * mx c + 64 * r.val + 2048) - 2048 * my c ≤ (i 0).val
      ∧ (i 0).val < (1024 * mx c + 64 * r.val + 2048) - 2048 * my c + 64) ∧ (0 ≤ (i 1).val ∧ (i 1).val < 0 + 512) ↔ _
  omega

theorem othV_set (c : Dev nD) (r : Fin 16) : (othV c r).view.set
    = (Rect.unit (s := S4096x512) (k0_off6 c (cw r)) S64x512.size (k0_off6_inb c r)).set :=
  View.set_slice_whole main_v1 _

/-- Chunk `r` from the x neighbour: sixty-four rows of the other row block, in the other half. -/
theorem mem_othV (c : Dev nD) (r : Fin 16) (i : S4096x512.Idx) :
    i ∈ (othV c r).view.set ↔ (64 * r.val + 3072) - (2048 * my c + 1024 * mx c) ≤ (i 0).val
      ∧ (i 0).val < (64 * r.val + 3072) - (2048 * my c + 1024 * mx c) + 64 := by
  rw [othV_set, Rect.mem_set_unit, off6_eq, Fin.forall_fin_two]
  have h1 := idx2_lt1 i
  show ((64 * r.val + 3072) - (2048 * my c + 1024 * mx c) ≤ (i 0).val
      ∧ (i 0).val < (64 * r.val + 3072) - (2048 * my c + 1024 * mx c) + 64) ∧ (0 ≤ (i 1).val ∧ (i 1).val < 0 + 512) ↔ _
  omega

/-! ## The input block -/

/-- Two assertions each of which entails the other are equal. -/
theorem eq_of_equiv {P Q : sProp 𝕄} (h : P ⊣⊢ Q) : P = Q := BI.equiv_iff.mp ⟨h.1, h.2⟩

/-- The chunks sent along y lie in different rows. -/
theorem srcY_disjoint (c : Dev nD) (r r' : Fin 16) (h : r ≠ r') :
    Disjoint (srcY c r).view.set (srcY c r').view.set := by
  refine Finset.disjoint_left.mpr fun i hi hj => ?_
  have h1 := (mem_srcY c r i).mp hi
  have h2 := (mem_srcY c r' i).mp hj
  have hne : r.val ≠ r'.val := fun e => h (Fin.ext e)
  omega

/-- The local copy's columns are not the columns sent along y. -/
theorem locS_disjoint (c : Dev nD) :
    Disjoint (locS c).view.set (Finset.univ.biUnion fun r : Fin 16 => (srcY c r).view.set) := by
  refine Finset.disjoint_left.mpr fun i hi hj => ?_
  obtain ⟨r, _, hj⟩ := Finset.mem_biUnion.mp hj
  have h1 := (mem_locS c i).mp hi
  have h2 := (mem_srcY c r i).mp hj
  have := my_lt c
  omega

/-- The part of the input block no transfer reads. -/
def xRestSet (c : Dev nD) : Finset (Idx ((c : Thread nD τ).loc main_arg0)) :=
  Finset.univ \ ((locS c).view.set ∪ Finset.univ.biUnion fun r : Fin 16 => (srcY c r).view.set)

theorem split_x (c : Dev nD) (f : Buf (Elt F) ((c : Thread nD τ).loc main_arg0)) :
    ((((c : Thread nD τ).loc main_arg0) ↦{fullShare} f) : sProp 𝕄)
      ⊣⊢ iprop(vPts c (locS c) f ∗ (bigSep Finset.univ fun r : Fin 16 => vPts c (srcY c r) f)
          ∗ (((c : Thread nD τ).loc main_arg0) ↦[xRestSet c]{fullShare} f)) := by
  refine BIBase.BiEntails.of_eq ?_
  rw [eq_of_equiv (pointsTo_split_subset (q := fullShare) (f := f)
        (Finset.subset_univ ((locS c).view.set ∪ Finset.univ.biUnion fun r : Fin 16 => (srcY c r).view.set))),
    eq_of_equiv (pointsTo_union (locS_disjoint c)),
    pointsTo_biUnion _ _ (fun r _ r' _ h => srcY_disjoint c r r' h),
    eq_of_equiv sep_assoc]
  rfl

/-! ## The result -/

/-- The chunks from the y neighbour lie in different rows; -/
theorem fwdV_disjoint (c : Dev nD) (r r' : Fin 16) (h : r ≠ r') :
    Disjoint (fwdV c r).view.set (fwdV c r').view.set := by
  refine Finset.disjoint_left.mpr fun i hi hj => ?_
  have h1 := (mem_fwdV c r i).mp hi
  have h2 := (mem_fwdV c r' i).mp hj
  have hne : r.val ≠ r'.val := fun e => h (Fin.ext e)
  have := mx_lt c; have := my_lt c
  omega

/-- so do the chunks from the x neighbour; -/
theorem othV_disjoint (c : Dev nD) (r r' : Fin 16) (h : r ≠ r') :
    Disjoint (othV c r).view.set (othV c r').view.set := by
  refine Finset.disjoint_left.mpr fun i hi hj => ?_
  have h1 := (mem_othV c r i).mp hi
  have h2 := (mem_othV c r' i).mp hj
  have hne : r.val ≠ r'.val := fun e => h (Fin.ext e)
  have := mx_lt c; have := my_lt c
  omega

/-- the two families fill different halves of the other row block; -/
theorem fwdV_othV_disjoint (c : Dev nD) :
    Disjoint (α := Finset (Idx ((c : Thread nD τ).loc main_v1)))
      (Finset.univ.biUnion fun r : Fin 16 => (fwdV c r).view.set)
      (Finset.univ.biUnion fun r : Fin 16 => (othV c r).view.set) := by
  refine Finset.disjoint_left.mpr fun i hi hj => ?_
  obtain ⟨r, _, hi⟩ := Finset.mem_biUnion.mp hi
  obtain ⟨r', _, hj⟩ := Finset.mem_biUnion.mp hj
  have h1 := (mem_fwdV c r i).mp hi
  have h2 := (mem_othV c r' i).mp hj
  have := mx_lt c; have := my_lt c; have := r.isLt; have := r'.isLt
  omega

/-- and the device's own row block meets neither. -/
theorem locD_disjoint (c : Dev nD) :
    Disjoint (locD c).view.set ((Finset.univ.biUnion fun r : Fin 16 => (fwdV c r).view.set)
      ∪ Finset.univ.biUnion fun r : Fin 16 => (othV c r).view.set) := by
  have := mx_lt c; have := my_lt c
  refine Finset.disjoint_left.mpr fun i hi hj => ?_
  have h1 := (mem_locD c i).mp hi
  rcases Finset.mem_union.mp hj with hj | hj
  · obtain ⟨r, _, hj⟩ := Finset.mem_biUnion.mp hj
    have h2 := (mem_fwdV c r i).mp hj
    have := r.isLt
    omega
  · obtain ⟨r, _, hj⟩ := Finset.mem_biUnion.mp hj
    have h2 := (mem_othV c r i).mp hj
    have := r.isLt
    omega

/-- Every row of the result is in the device's own row block or, in the other one, in a chunk of the half its
    position there names: chunk (row mod 1024) / 64. -/
theorem o_cover (c : Dev nD) : (Finset.univ : Finset S4096x512.Idx)
    = (locD c).view.set ∪ ((Finset.univ.biUnion fun r : Fin 16 => (fwdV c r).view.set)
        ∪ Finset.univ.biUnion fun r : Fin 16 => (othV c r).view.set) := by
  refine (Finset.eq_univ_of_forall fun i => ?_).symm
  have h0 := idx2_lt0 i
  have hx := mx_lt c
  have hy := my_lt c
  by_cases hl : 2048 * my c ≤ (i 0).val ∧ (i 0).val < 2048 * my c + 2048
  · exact Finset.mem_union_left _ ((mem_locD c i).mpr hl)
  · refine Finset.mem_union_right _ ?_
    have hr : ((i 0).val % 1024) / 64 < 16 := by omega
    by_cases hf : ((i 0).val % 2048) / 1024 = mx c
    · exact Finset.mem_union_left _ (Finset.mem_biUnion.mpr
        ⟨⟨_, hr⟩, Finset.mem_univ _, (mem_fwdV c _ i).mpr (by dsimp only; omega)⟩)
    · exact Finset.mem_union_right _ (Finset.mem_biUnion.mpr
        ⟨⟨_, hr⟩, Finset.mem_univ _, (mem_othV c _ i).mpr (by dsimp only; omega)⟩)

theorem split_o (c : Dev nD) (f : Buf (Elt F) ((c : Thread nD τ).loc main_v1)) :
    ((((c : Thread nD τ).loc main_v1) ↦{fullShare} f) : sProp 𝕄)
      ⊣⊢ iprop(vPts c (locD c) f ∗ (bigSep Finset.univ fun r : Fin 16 => vPts c (fwdV c r) f)
          ∗ (bigSep Finset.univ fun r : Fin 16 => vPts c (othV c r) f)) := by
  refine BIBase.BiEntails.of_eq ?_
  have hU : (Finset.univ : Finset (Idx ((c : Thread nD τ).loc main_v1))) = _ := o_cover c
  rw [hU, eq_of_equiv (pointsTo_union (locD_disjoint c)),
    eq_of_equiv (pointsTo_union (fwdV_othV_disjoint c)),
    pointsTo_biUnion _ _ (fun r _ r' _ h => fwdV_disjoint c r r' h),
    pointsTo_biUnion _ _ (fun r _ r' _ h => othV_disjoint c r r' h)]

/-- info: 'Cert.Kernel.A2A.split_x' depends on axioms: [propext, Classical.choice, Quot.sound] -/
#guard_msgs in #print axioms split_x

/-- info: 'Cert.Kernel.A2A.split_o' depends on axioms: [propext, Classical.choice, Quot.sound] -/
#guard_msgs in #print axioms split_o

end Cert.Kernel.A2A

end
-- ==== Proof.Kernel.Land.lean ====
/- What each transfer leaves under its destination is the final contents of the receiving device's result there. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Reading a window's elements by coordinates

Every transfer here goes between unit-stride windows of the whole input block and the whole result. Under such a window
the element at window coordinates `(a, b)` is the buffer's element at `(off 0 + a, off 1 + b)`; the final contents of
a result at `(p, q)` are one of three input blocks' element `(p mod 2048, 512·y + q)`, by which quarter of the result
`p` falls in. A landing writes the source's elements over the destination's, so the written contents and the final
contents agree on the destination once the two coordinate computations are compared. -/

/-- Two blocks of the input agree where the devices agree and the coordinates agree. -/
theorem Xb_congr {c c' : Dev nD} (h : c = c') (i i' : S2048x1024.Idx) (hi : ∀ a, (i a).val = (i' a).val) :
    Xb m c i = Xb m c' i' := by
  subst h; congr 1; funext a; exact Fin.ext (hi a)

/-- An element under a unit-stride window of the whole result sits, on each axis, at the window's offset plus its
    own coordinate. -/
theorem oW_emb_val {size : Fin 2 → Nat} (off off' : Fin 2 → Nat) (h : off = off') (p : ∀ a, off a + size a ≤ S4096x512.size a)
    (y : (Rect.unit (s := S4096x512) off size p).shape.Idx) (a : Fin 2) :
    (((oW.slice (Rect.unit (s := S4096x512) off size p) (fun _ => rfl)).view.emb y) a).val = off' a + (y a).val := by
  subst h; show off a + 1 * (y a).val = _; omega

/-- The same for a window of the whole input block. -/
theorem xW_emb_val {size : Fin 2 → Nat} (off off' : Fin 2 → Nat) (h : off = off') (p : ∀ a, off a + size a ≤ S2048x1024.size a)
    (y : (Rect.unit (s := S2048x1024) off size p).shape.Idx) (a : Fin 2) :
    (((xW.slice (Rect.unit (s := S2048x1024) off size p) (fun _ => rfl)).view.emb y) a).val = off' a + (y a).val := by
  subst h; show off a + 1 * (y a).val = _; omega

/-- The final contents at row `p`, column `q`, read at any index `j` of the input block with coordinates
    `p mod 2048` and `512·y + q`. -/
theorem Gfin_at (c : Dev nD) (i : S4096x512.Idx) (p q : Nat) (hp : (i 0).val = p) (hq : (i 1).val = q)
    (j : S2048x1024.Idx) (hj0 : (j 0).val = p % 2048) (hj1 : (j 1).val = 512 * my c + q) :
    Gfin m c i = if p / 2048 = my c then Xb m c j
      else if (p % 2048) / 1024 = mx c then Xb m (yn c) j else Xb m (yn (xn c)) j := by
  subst hp hq
  have hj : j = ix2 (⟨(i 0).val % 2048, Nat.mod_lt _ (by decide)⟩ : Fin 2048)
      (⟨512 * my c + (i 1).val, by have h1 : (i 1).val < 512 := (i 1).isLt; have h2 := my_lt c; omega⟩ : Fin 1024) := by
    funext a
    match a with
    | ⟨0, _⟩ => exact Fin.ext hj0
    | ⟨1, _⟩ => exact Fin.ext hj1
  rw [hj]; rfl

/-- An index of the input block with given row (mod 2048) and column `512·y + q`. -/
theorem exists_src (c : Dev nD) (p q : Nat) (hq : q < 512) :
    ∃ j : S2048x1024.Idx, (j 0).val = p % 2048 ∧ (j 1).val = 512 * my c + q :=
  ⟨ix2 (⟨p % 2048, Nat.mod_lt _ (by decide)⟩ : Fin 2048) (⟨512 * my c + q, by have := my_lt c; omega⟩ : Fin 1024), rfl, rfl⟩

/-- A y send's chunk, landed on the y neighbour. -/
theorem land_y (c : Dev nD) (r : Fin 16) (fd : Buf (Elt F) ((dstY c r).view.loc (yn c : Thread nD τ))) :
    (vPts (yn c) (dstY c r) ((dstY c r).view.write (Elt F) fd ((srcY c r).view.read (Elt F) (Xb m c)) Finset.univ) : sProp 𝕄)
      = vPts (yn c) (dstY c r) (Gfin m (yn c)) := by
  refine pointsTo_congr (fun i hi => ?_)
  obtain ⟨y, rfl⟩ := View.exists_emb_of_mem_set _ hi
  rw [View.write_emb_of_mem _ _ (Finset.mem_univ y)]
  show Xb m c ((srcY c r).view.emb y) = Gfin m (yn c) ((dstY c r).view.emb y)
  have d0 : (((dstY c r).view.emb y) 0).val = 2048 * my c + 1024 * mx c + 64 * r.val + (y 0).val :=
    oW_emb_val _ _ (off1_eq c r) (k0_off1_inb c r) y 0
  have d1 : (((dstY c r).view.emb y) 1).val = 0 + (y 1).val :=
    oW_emb_val _ _ (off1_eq c r) (k0_off1_inb c r) y 1
  have s0 : (((srcY c r).view.emb y) 0).val = 1024 * mx c + 64 * r.val + (y 0).val :=
    xW_emb_val _ _ (off2_eq c r) (k0_off2_inb c r) y 0
  have s1 : (((srcY c r).view.emb y) 1).val = 512 - 512 * my c + (y 1).val :=
    xW_emb_val _ _ (off2_eq c r) (k0_off2_inb c r) y 1
  have hy0 : (y 0).val < 64 := (y 0).isLt
  have hy1 : (y 1).val < 512 := (y 1).isLt
  have hx := mx_lt c; have hm := my_lt c; have hr := r.isLt
  rw [Gfin_at m (yn c) _ _ _ d0 d1 ((srcY c r).view.emb y) (by rw [s0]; omega) (by rw [s1, my_yn]; omega),
    if_neg (by rw [my_yn]; omega), if_pos (by rw [mx_yn]; omega)]
  exact Xb_congr m (yn_yn c).symm _ _ (fun _ => rfl)

/-- A forwarded chunk, landed on the x neighbour. -/
theorem land_x (c : Dev nD) (r : Fin 16) (fd : Buf (Elt F) ((fwdV c r).view.loc (xn c : Thread nD τ))) :
    (vPts (xn c) (fwdV c r) ((fwdV c r).view.write (Elt F) fd ((fwdV c r).view.read (Elt F) (Gfin m c)) Finset.univ) : sProp 𝕄)
      = vPts (xn c) (fwdV c r) (Gfin m (xn c)) := by
  refine pointsTo_congr (fun i hi => ?_)
  obtain ⟨y, rfl⟩ := View.exists_emb_of_mem_set _ hi
  rw [View.write_emb_of_mem _ _ (Finset.mem_univ y)]
  show Gfin m c ((fwdV c r).view.emb y) = Gfin m (xn c) ((fwdV c r).view.emb y)
  have f0 : (((fwdV c r).view.emb y) 0).val = (1024 * mx c + 64 * r.val + 2048) - 2048 * my c + (y 0).val :=
    oW_emb_val _ _ (off5_eq c r) (k0_off5_inb c r) y 0
  have f1 : (((fwdV c r).view.emb y) 1).val = 0 + (y 1).val :=
    oW_emb_val _ _ (off5_eq c r) (k0_off5_inb c r) y 1
  have hy0 : (y 0).val < 64 := (y 0).isLt
  have hy1 : (y 1).val < 512 := (y 1).isLt
  have hx := mx_lt c; have hm := my_lt c; have hr := r.isLt
  obtain ⟨j, hj0, hj1⟩ := exists_src c ((1024 * mx c + 64 * r.val + 2048) - 2048 * my c + (y 0).val) (0 + (y 1).val) (by omega)
  rw [Gfin_at m c _ _ _ f0 f1 j hj0 hj1, Gfin_at m (xn c) _ _ _ f0 f1 j hj0 (by rw [my_xn]; exact hj1),
    if_neg (by omega), if_pos (by omega), if_neg (by rw [my_xn]; omega), if_neg (by rw [mx_xn]; omega)]
  exact Xb_congr m (by rw [xn_xn]) _ _ (fun _ => rfl)

/-- The local copy, landed. -/
theorem land_l (c : Dev nD) (fd : Buf (Elt F) ((locD c).view.loc (c : Thread nD τ))) :
    (vPts c (locD c) ((locD c).view.write (Elt F) fd ((locS c).view.read (Elt F) (Xb m c)) Finset.univ) : sProp 𝕄)
      = vPts c (locD c) (Gfin m c) := by
  refine pointsTo_congr (fun i hi => ?_)
  obtain ⟨y, rfl⟩ := View.exists_emb_of_mem_set _ hi
  rw [View.write_emb_of_mem _ _ (Finset.mem_univ y)]
  show Xb m c ((locS c).view.emb y) = Gfin m c ((locD c).view.emb y)
  have l0 : (((locD c).view.emb y) 0).val = 2048 * my c + (y 0).val :=
    oW_emb_val _ _ (off3_eq c) (k0_off3_inb c) y 0
  have l1 : (((locD c).view.emb y) 1).val = 0 + (y 1).val :=
    oW_emb_val _ _ (off3_eq c) (k0_off3_inb c) y 1
  have t0 : (((locS c).view.emb y) 0).val = 0 + (y 0).val :=
    xW_emb_val _ _ (off4_eq c) (k0_off4_inb c) y 0
  have t1 : (((locS c).view.emb y) 1).val = 512 * my c + (y 1).val :=
    xW_emb_val _ _ (off4_eq c) (k0_off4_inb c) y 1
  have hy0 : (y 0).val < 2048 := (y 0).isLt
  have hy1 : (y 1).val < 512 := (y 1).isLt
  have hm := my_lt c
  rw [Gfin_at m c _ _ _ l0 l1 ((locS c).view.emb y) (by rw [t0]; omega) (by rw [t1]; omega), if_pos (by omega)]

/-- info: 'Cert.Kernel.A2A.land_y' depends on axioms: [propext, Classical.choice, Quot.sound] -/
#guard_msgs in #print axioms land_y

/-- info: 'Cert.Kernel.A2A.land_x' depends on axioms: [propext, Classical.choice, Quot.sound] -/
#guard_msgs in #print axioms land_x

end Cert.Kernel.A2A

end
-- ==== Proof.Kernel.Reindex.lean ====
/- Sums over a device's cells, cut by kind: the barrier cell and the DMA cells; the DMA cells into the local copy's and, per chunk, the four of that chunk. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- A separating conjunction over a device's sixty-six cells: the barrier cell's summand and the DMA cells'. -/
theorem bigSep_opt (Φ : Option (DmaSem sig) → sProp 𝕄) :
    bigSep Finset.univ Φ = iprop(Φ none ∗ bigSep Finset.univ fun q : DmaSem sig => Φ (some q)) := by
  have h : (Finset.univ : Finset (Option (DmaSem sig))).erase none = Finset.univ.map Function.Embedding.some := by
    ext o
    rw [Finset.mem_erase, Finset.mem_map]
    constructor
    · rintro ⟨hne, -⟩
      cases o with
      | none => exact absurd rfl hne
      | some q => exact ⟨q, Finset.mem_univ _, rfl⟩
    · rintro ⟨q, -, rfl⟩
      exact ⟨fun h => (by cases h), Finset.mem_univ _⟩
  rw [bigSep_univ_at Φ none, h, bigSep_map]
  rfl

/-- The DMA semaphore of kind k (y send, y receive, x send, x receive) and chunk r: number 1 + 16·k + r. -/
def kindSem (kr : Fin 4 × Fin 16) : DmaSem sig :=
  ⟨1 + 16 * kr.1.val + kr.2.val, by have h1 := kr.1.isLt; have h2 := kr.2.isLt; show 1 + 16 * kr.1.val + kr.2.val < 65; omega⟩

theorem kindSem_injective : Function.Injective kindSem := by
  rintro ⟨k, r⟩ ⟨k', r'⟩ h
  have h' : 1 + 16 * k.val + r.val = 1 + 16 * k'.val + r'.val := congrArg Fin.val h
  have h1 := r.isLt
  have h2 := r'.isLt
  exact Prod.ext (Fin.ext (by show k.val = k'.val; omega)) (Fin.ext (by show r.val = r'.val; omega))

/-- Every DMA semaphore but the local copy's is of exactly one kind and chunk. -/
theorem erase_lSem : (Finset.univ : Finset (DmaSem sig)).erase lSem = Finset.univ.map ⟨kindSem, kindSem_injective⟩ := by
  ext q
  rw [Finset.mem_erase, Finset.mem_map]
  constructor
  · rintro ⟨hne, -⟩
    have hq : q.val < 65 := q.isLt
    have h0 : q.val ≠ 0 := fun h => hne (Fin.ext h)
    refine ⟨(⟨(q.val - 1) / 16, by omega⟩, ⟨(q.val - 1) % 16, by omega⟩), Finset.mem_univ _, Fin.ext ?_⟩
    show 1 + 16 * ((q.val - 1) / 16) + (q.val - 1) % 16 = q.val
    omega
  · rintro ⟨kr, -, rfl⟩
    refine ⟨fun h => ?_, Finset.mem_univ _⟩
    have h' : 1 + 16 * kr.1.val + kr.2.val = 0 := congrArg Fin.val h
    omega

theorem kindSem_ys (r : Fin 16) : kindSem (0, r) = ysSem r := Fin.ext (by show 1 + 16 * 0 + r.val = 1 + r.val; omega)
theorem kindSem_yr (r : Fin 16) : kindSem (1, r) = yrSem r := Fin.ext (by show 1 + 16 * 1 + r.val = 17 + r.val; omega)
theorem kindSem_xs (r : Fin 16) : kindSem (2, r) = xsSem r := Fin.ext (by show 1 + 16 * 2 + r.val = 33 + r.val; omega)
theorem kindSem_xr (r : Fin 16) : kindSem (3, r) = xrSem r := Fin.ext (by show 1 + 16 * 3 + r.val = 49 + r.val; omega)

/-- A separating conjunction over the sixty-five DMA semaphores: the local copy's, and per chunk the y send's, the y receive's, the x send's and the x receive's. -/
theorem bigSep_dma (Φ : DmaSem sig → sProp 𝕄) :
    bigSep Finset.univ Φ = iprop(Φ lSem ∗ bigSep Finset.univ fun r : Fin 16 => iprop(Φ (ysSem r) ∗ Φ (yrSem r) ∗ Φ (xsSem r) ∗ Φ (xrSem r))) := by
  rw [bigSep_univ_at Φ lSem, erase_lSem, bigSep_map, bigSep_univ_prod, bigSep_univ_eq_bigSepL ([0, 1, 2, 3] : List (Fin 4)) (by decide) (by decide),
    bigSep_sep', bigSep_sep', bigSep_sep']
  simp only [← kindSem_ys, ← kindSem_yr, ← kindSem_xs, ← kindSem_xr]
  rfl

/-- A separating conjunction over the sixteen chunks, written out in program order. -/
theorem bigSep_chunks (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL chunks (by decide) (by decide) Φ

/-- info: 'Cert.Kernel.A2A.bigSep_opt' depends on axioms: [propext, Classical.choice, Quot.sound] -/
#guard_msgs in #print axioms bigSep_opt

/-- info: 'Cert.Kernel.A2A.bigSep_dma' depends on axioms: [propext, Classical.choice, Quot.sound] -/
#guard_msgs in #print axioms bigSep_dma

end Cert.Kernel.A2A

end
-- ==== Proof.Kernel.Steps.lean ====
/- One rule per effect of a device's body: the two barrier signals, the barrier wait, a chunk's send along y, the local
   copy, a chunk's receive wait and its forward along x, a forwarded chunk's receive wait, and the waits that close the
   device's own sends. Each is stated at a symbolic device and chunk. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import proofs.«900639_g7700000000000640_dist_a2a_v7x_xyz2x2x4_y_m2048_n512_f32_1_alg».proof.Proof.Kernel.Sched
import proofs.«900639_g7700000000000640_dist_a2a_v7x_xyz2x2x4_y_m2048_n512_f32_1_alg».proof.Proof.Kernel.Owes
import proofs.«900639_g7700000000000640_dist_a2a_v7x_xyz2x2x4_y_m2048_n512_f32_1_alg».proof.Proof.Kernel.Land
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

theorem inv_at (ck : Dev nD × Option (DmaSem sig)) : records m K ⊢ cellInv ER (sched m) (K ck) (kcell ck) := by
  unfold records
  exact sep_elim_left.trans (bigSep_elim (Φ := fun ck : Dev nD × Option (DmaSem sig) => (cellInv ER (sched m) (K ck) (kcell ck) : sProp 𝕄)) (Finset.mem_univ ck))
theorem reached_at (ck : Dev nD × Option (DmaSem sig)) : records m K ⊢ reached ER (kcell ck) 0 := by
  unfold records
  exact sep_elim_right.trans (bigSep_elim (Φ := fun ck : Dev nD × Option (DmaSem sig) => (reached ER (kcell ck) 0 : sProp 𝕄)) (Finset.mem_univ ck))

theorem payY_one (c : Dev nD) (r : Fin 16) :
    iprop(records m K ∗ ∃ f, vPts (F := F) c (fwdV c r) f) ⊢ iprop((∃ f, vPts (F := F) c (fwdV c r) f) ∗ reached ER (yrCell c r) 0) := by
  iintro ⟨#HR, H⟩
  isplitl [H]; · iexact H
  iapply (reached_at m K (c, some (yrSem r))); iexact HR
theorem payX_one (c : Dev nD) (r : Fin 16) :
    iprop(records m K ∗ ∃ f, vPts (F := F) c (othV c r) f) ⊢ iprop((∃ f, vPts (F := F) c (othV c r) f) ∗ reached ER (xrCell c r) 0) := by
  iintro ⟨#HR, H⟩
  isplitl [H]; · iexact H
  iapply (reached_at m K (c, some (xrSem r))); iexact HR

/-- What a device hands its y neighbour with its barrier unit: its own rows that the neighbour's sends write. -/
theorem barPayY_intro (c : Dev nD) :
    iprop(records m K ∗ bigSep Finset.univ fun r : Fin 16 => iprop(∃ f, vPts (F := F) c (fwdV c r) f)) ⊢ barPayY (yn c) := by
  unfold barPayY; rw [yn_yn]
  refine (sep_mono_left (bigSep_of_persistent (Finset.univ : Finset (Fin 16)) (records m K))).trans ?_
  rw [← bigSep_sep']
  exact bigSep_mono fun r _ => payY_one m K c r
/-- What it hands its x neighbour: its own rows that the neighbour's forwards write. -/
theorem barPayX_intro (c : Dev nD) :
    iprop(records m K ∗ bigSep Finset.univ fun r : Fin 16 => iprop(∃ f, vPts (F := F) c (othV c r) f)) ⊢ barPayX (xn c) := by
  unfold barPayX; rw [xn_xn]
  refine (sep_mono_left (bigSep_of_persistent (Finset.univ : Finset (Fin 16)) (records m K))).trans ?_
  rw [← bigSep_sep']
  exact bigSep_mono fun r _ => payX_one m K c r

section Steps

/-- The first signal: the unit on the y neighbour's barrier, handing it the rows of this device's result that it will write. -/
theorem step_signalY {α : Type} {Q : α → sProp 𝕄} {k : PUnit → Prog (TpuEff nD τ sig (Elt F) Λ₀ .tc) α} (c n : Dev nD) (hn : n = yn c) (W : Waits sig Unit) :
    ⊢ iprop(records m K -∗ owes (c : Thread nD τ) (O₀ c) W -∗ dutyTok ER (barCell (yn c)) 0 false
        -∗ (bigSep Finset.univ fun r : Fin 16 => iprop(∃ f, vPts (F := F) c (fwdV c r) f))
        -∗ (owes (c : Thread nD τ) (O₁ c) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS (1#32).toNat) k) Q) := by
  subst hn
  iintro #HR HO Htok Hpay
  iapply (Rounds.wp_signal 𝒱₀ ER (sched m) (c : Thread nD τ) none (dst := (yn c : Thread nD τ)) (κ := K (yn c, none))
      (d := false) (by rw [duties_bar]; exact Finset.mem_univ _) ((amount_bar m (yn c) false).trans (by decide)) () (O₁ c) rfl)
    $$ [HO Htok Hpay]
  isplitr; · iapply (inv_at m K (yn c, none)); iexact HR
  isplitl [HO]; · iexact HO
  isplitl [Htok]; · iexact Htok
  isplitl [Hpay]
  · rw [payload_bar_false]
    iapply (barPayY_intro m K c)
    isplitr; · iexact HR
    iexact Hpay
  · iapply (reached_at m K (yn c, none)); iexact HR

/-- The second signal: the unit on the x neighbour's barrier, handing it the rows it will forward into. -/
theorem step_signalX {α : Type} {Q : α → sProp 𝕄} {k : PUnit → Prog (TpuEff nD τ sig (Elt F) Λ₀ .tc) α} (c n : Dev nD) (hn : n = xn c) (W : Waits sig Unit) :
    ⊢ iprop(records m K -∗ owes (c : Thread nD τ) (O₁ c) W -∗ dutyTok ER (barCell (xn c)) 0 true
        -∗ (bigSep Finset.univ fun r : Fin 16 => iprop(∃ f, vPts (F := F) c (othV c r) f))
        -∗ (owes (c : Thread nD τ) (OY c chunks) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS (1#32).toNat) k) Q) := by
  subst hn
  iintro #HR HO Htok Hpay
  iapply (Rounds.wp_signal 𝒱₀ ER (sched m) (c : Thread nD τ) none (dst := (xn c : Thread nD τ)) (κ := K (xn c, none))
      (d := true) (by rw [duties_bar]; exact Finset.mem_univ _) ((amount_bar m (xn c) true).trans (by decide)) () (OY c chunks) rfl)
    $$ [HO Htok Hpay]
  isplitr; · iapply (inv_at m K (xn c, none)); iexact HR
  isplitl [HO]; · iexact HO
  isplitl [Htok]; · iexact Htok
  isplitl [Hpay]
  · rw [payload_bar_true]
    iapply (barPayX_intro m K c)
    isplitr; · iexact HR
    iexact Hpay
  · iapply (reached_at m K (xn c, none)); iexact HR

/-- The barrier wait: both neighbours are in the kernel, and each has handed over the rows this device writes on it. -/
theorem step_waitBar {α : Type} {Q : α → sProp 𝕄} {k : PUnit → Prog (TpuEff nD τ sig (Elt F) Λ₀ .tc) α} (c : Dev nD) (W : Waits sig Unit) :
    ⊢ iprop(records m K -∗ cred (tallyAt (barCell c) () 2) -∗ owes (c : Thread nD τ) (OY c chunks) W -∗ levAts L lv
        -∗ atPos ER (barCell c) 0 ∅ 0
        -∗ ((owes (c : Thread nD τ) (OY c chunks) (insert (SemLoc.reg barS, ()) W) ∗ atPos ER (barCell c) (0 + 1) ∅ 0 ∗ barPayY (F := F) c ∗ barPayX (F := F) c)
              -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32).toNat) k) Q) := by
  iintro #HR Hc HO #Hlev Hat Hk
  iapply (Rounds.wp_wait_rest_token 𝒱₀ ER (sched m) (c : Thread nD τ) none (κ := K (c, none))
      (wpE_semWait_eq 𝒱₀ (c : Thread nD τ) none Set.univ) (Set.mem_univ _) () (O := OY c chunks) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Points-to under slices of the result at equal offsets are the same assertion. -/
theorem vPts_slice_congr (d : Dev nD) {off off' : Fin 2 → Nat} (h : off = off')
    (p : ∀ a, off a + S64x512.size a ≤ S4096x512.size a) (p' : ∀ a, off' a + S64x512.size a ≤ S4096x512.size a)
    (g : Buf (Elt F) ((d : Thread nD τ).loc main_v1)) :
    (vPts d (oW.slice (Rect.unit (s := S4096x512) off S64x512.size p) (fun _ => rfl)) g : sProp 𝕄)
      = vPts d (oW.slice (Rect.unit (s := S4096x512) off' S64x512.size p') (fun _ => rfl)) g := by
  subst h; rfl
theorem vPts_dstY (c : Dev nD) (r : Fin 16) (d : Dev nD) (g : Buf (Elt F) ((d : Thread nD τ).loc main_v1)) :
    (vPts d (dstY c r) g : sProp 𝕄) = vPts d (fwdV (yn c) r) g := vPts_slice_congr d (off1_eq_off5 c r) _ _ g
theorem vPts_fwdV (c : Dev nD) (r : Fin 16) (d : Dev nD) (g : Buf (Elt F) ((d : Thread nD τ).loc main_v1)) :
    (vPts d (fwdV c r) g : sProp 𝕄) = vPts d (othV (xn c) r) g := vPts_slice_congr d (off5_eq_off6 c r) _ _ g

set_option maxHeartbeats 1600000 in
/-- Chunk `r`'s send along y. -/
theorem step_ysend {α : Type} {Q : α → sProp 𝕄} {k : PUnit → Prog (TpuEff nD τ sig (Elt F) Λ₀ .tc) α} (c n : Dev nD) (hn : n = yn c) (r : Fin 16) (rs : List (Fin 16)) (q₁ q₂ : DmaSem sig) (h₁ : q₁ = ysSem r) (h₂ : q₂ = yrSem r)
    (src dst : Memref sig .tc .hbm S64x512 .f32) (hs : src = srcY c r) (hd : dst = dstY c r)
    {hsc : (dst : Memref sig (Dev.tc n : Thread nD τ).2.kind .hbm S64x512 .f32).view.ref.isScScratch = false}
    {hsrc : src.view.WordExact} {hdst : dst.view.WordExact}
    {hsem : DmaTarget.Typed .hbm (.dma q₂) (.remote (Dev.tc n : Thread nD τ) dst (.dma q₁) hsc)}
    (W : Waits sig Unit) :
    ⊢ iprop(records m K -∗ vPts c (srcY c r) (Xb m c) -∗ (∃ f, vPts (F := F) (yn c) (fwdV (yn c) r) f) -∗ owes (c : Thread nD τ) (OY c (r :: rs)) W
        -∗ dutyTok ER (ysCell c r) 0 false -∗ dutyTok ER (yrCell (yn c) r) 0 false
        -∗ ((cred (tallyAt (ysCell c r) () N64) ∗ owes (c : Thread nD τ) (OY c rs) W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma q₁) hsc) (.dma q₂) hsrc hdst hsem) k) Q) := by
  subst hn h₁ h₂ hs hd
  iintro #HR Hsrc ⟨%fd, Hdst⟩ HO Ht1 Ht2
  ihave Hdst := (Entails.of_eq (vPts_dstY c r (yn c) fd).symm) $$ Hdst
  iapply (Rounds.wp_send_pointsTo 𝒱₀ ER (sched m) (c : Thread nD τ) none (κ₁ := K (c, some (ysSem r))) (κ₂ := K (yn c, some (yrSem r)))
    (c' := (yn c : Thread nD τ)) (src := srcY c r) (dst := dstY c r) (q := fullShare) (fs := Xb m c)
    (r₁ := 0) (r₂ := 0) (d₁ := false) (d₂ := false) (fd := fd)
    (by rw [duties_d]; exact Finset.mem_singleton_self _) (by rw [duties_d]; exact Finset.mem_singleton_self _)
    () () N64 rfl (amount_ys m c r false) (amount_yr m (yn c) r false) (OY c rs) rfl (W := W)
    (by rw [payload_ys]; exact BI.Entails.refl _)
    (by rw [payload_yr]; unfold yrPay; rw [← vPts_dstY]; exact Entails.of_eq (land_y m c r fd))) $$ [Hsrc Hdst HO Ht1 Ht2]
  isplitr; · iapply (inv_at m K (c, some (ysSem r))); iexact HR
  isplitr; · iapply (inv_at m K (yn c, some (yrSem r))); iexact HR
  isplitl [Hsrc]; · iexact Hsrc
  isplitl [Hdst]; · iexact Hdst
  isplitl [HO]; · iexact HO
  isplitl [Ht1]; · iexact Ht1
  isplitr; · iapply (reached_at m K (c, some (ysSem r))); iexact HR
  isplitl [Ht2]; · iexact Ht2
  iapply (reached_at m K (yn c, some (yrSem r))); iexact HR

/-- The local copy. -/
theorem step_local {α : Type} {Q : α → sProp 𝕄} {k : PUnit → Prog (TpuEff nD τ sig (Elt F) Λ₀ .tc) α} (c : Dev nD) (q : DmaSem sig) (hq : q = lSem)
    (src dst : Memref sig .tc .hbm S2048x512 .f32) (hs : src = locS c) (hd : dst = locD c)
    {hsrc : src.view.WordExact} {hdst : dst.view.WordExact} {hsem : DmaTarget.Typed .hbm (.dma q) (DmaTarget.here dst : DmaTarget nD τ sig (c : Thread nD τ).2 .hbm S2048x512 .f32)} :
    ⊢ iprop(records m K -∗ vPts c (locS c) (Xb m c) -∗ (∃ f, vPts (F := F) c (locD c) f) -∗ dutyTok ER (lCell c) 0 false
        -∗ (cred (tallyAt (lCell c) () NL) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma q) hsrc hdst hsem) k) Q) := by
  subst hq hs hd
  iintro #HR Hsrc ⟨%fd, Hdst⟩ Ht
  iapply (Rounds.wp_copy_pointsTo 𝒱₀ ER (sched m) (c : Thread nD τ) none (κ := K (c, some lSem)) (r := 0) (d := false) (fd := fd)
    (by rw [duties_d]; exact Finset.mem_singleton_self _) () NL rfl (amount_l m c false)
    (by rw [payload_l]; unfold lPay; rw [← land_l m c fd])) $$ [Hsrc Hdst Ht]
  isplitr; · iapply (inv_at m K (c, some lSem)); iexact HR
  isplitl [Hsrc]; · iexact Hsrc
  isplitl [Hdst]; · iexact Hdst
  isplitl [Ht]; · iexact Ht
  iapply (reached_at m K (c, some lSem)); iexact HR

/-- A wait on one of the device's own DMA cells for its one duty: the duty's payload comes with it. -/
theorem step_waitD {α : Type} {Q : α → sProp 𝕄} {k : PUnit → Prog (TpuEff nD τ sig (Elt F) Λ₀ .tc) α} (c : Dev nD) (q : DmaSem sig) (q' : DmaSem sig) (hq : q' = q) (N : ℕ) (hexp : (sched (F := F) m).expect (dCell c q) 0 = N)
    {sp sp' : Space} {s s' : Shape} {e e' : EltTy} (sv : Memref sig .tc sp' s' e') (dv : Memref sig .tc sp s e) (hN : dv.view.dmaCredit = N)
    {hsv : sv.view.WordExact} {hdv : dv.view.WordExact}
    (O : CellTallies nD τ sig Unit) (W : Waits sig Unit) :
    ⊢ iprop(records m K -∗ cred (tallyAt (dCell c q) () N) -∗ owes (c : Thread nD τ) O W -∗ MayWait (c : Thread nD τ) (.dma q) () O
        -∗ atPos ER (dCell c q) 0 ∅ 0
        -∗ ((owes (c : Thread nD τ) O (insert (SemLoc.dma q, ()) W) ∗ atPos ER (dCell c q) (0 + 1) ∅ 0
              ∗ bigSep ((sched (F := F) m).duties (dCell c q) 0 \ ∅) (fun d => (sched (F := F) m).payload (dCell c q) 0 d))
              -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q' sv dv hsv hdv) k) Q) := by
  subst hN
  subst q'
  iintro #HR Hc HO Hmw Hat Hk
  iapply (Rounds.wp_wait_rest_token 𝒱₀ ER (sched m) (c : Thread nD τ) none (κ := K (c, some q))
      (wpE_waitDma2_eq 𝒱₀ (c : Thread nD τ) none Set.univ) (Set.mem_univ _) () (O := O) (W := W) (R := 0) (m := 0) (T := ∅)
      (by rw [Nat.zero_add, hexp])) $$ [Hc HO Hmw Hat]
  · isplitr; · iapply (inv_at m K (c, some q)); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iexact Hpay

set_option maxHeartbeats 1600000 in
/-- Chunk `r`'s forward along x, from where the y neighbour's send landed. -/
theorem step_fwd {α : Type} {Q : α → sProp 𝕄} {k : PUnit → Prog (TpuEff nD τ sig (Elt F) Λ₀ .tc) α} (c n : Dev nD) (hn : n = xn c) (r : Fin 16) (rs : List (Fin 16)) (q₁ q₂ : DmaSem sig) (h₁ : q₁ = xsSem r) (h₂ : q₂ = xrSem r)
    (src dst : Memref sig .tc .hbm S64x512 .f32) (hs : src = fwdV c r) (hd : dst = fwdV c r)
    {hsc : (dst : Memref sig (Dev.tc n : Thread nD τ).2.kind .hbm S64x512 .f32).view.ref.isScScratch = false}
    {hsrc : src.view.WordExact} {hdst : dst.view.WordExact}
    {hsem : DmaTarget.Typed .hbm (.dma q₂) (.remote (Dev.tc n : Thread nD τ) dst (.dma q₁) hsc)}
    (W : Waits sig Unit) :
    ⊢ iprop(records m K -∗ vPts c (fwdV c r) (Gfin m c) -∗ (∃ f, vPts (F := F) (xn c) (othV (xn c) r) f) -∗ owes (c : Thread nD τ) (OX c (r :: rs)) W
        -∗ dutyTok ER (xsCell c r) 0 false -∗ dutyTok ER (xrCell (xn c) r) 0 false
        -∗ ((cred (tallyAt (xsCell c r) () N64) ∗ owes (c : Thread nD τ) (OX c rs) W) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma q₁) hsc) (.dma q₂) hsrc hdst hsem) k) Q) := by
  subst hn h₁ h₂ hs hd
  iintro #HR Hsrc ⟨%fd, Hdst⟩ HO Ht1 Ht2
  ihave Hdst := (Entails.of_eq (vPts_fwdV c r (xn c) fd).symm) $$ Hdst
  iapply (Rounds.wp_send_pointsTo 𝒱₀ ER (sched m) (c : Thread nD τ) none (κ₁ := K (c, some (xsSem r))) (κ₂ := K (xn c, some (xrSem r)))
    (c' := (xn c : Thread nD τ)) (src := fwdV c r) (dst := fwdV c r) (q := fullShare) (fs := Gfin m c)
    (r₁ := 0) (r₂ := 0) (d₁ := false) (d₂ := false) (fd := fd)
    (by rw [duties_d]; exact Finset.mem_singleton_self _) (by rw [duties_d]; exact Finset.mem_singleton_self _)
    () () N64 rfl (amount_xs m c r false) (amount_xr m (xn c) r false) (OX c rs) rfl (W := W)
    (by rw [payload_xs]; exact BI.Entails.refl _)
    (by rw [payload_xr]; unfold xrPay; rw [← vPts_fwdV]; exact Entails.of_eq (land_x m c r fd))) $$ [Hsrc Hdst HO Ht1 Ht2]
  isplitr; · iapply (inv_at m K (c, some (xsSem r))); iexact HR
  isplitr; · iapply (inv_at m K (xn c, some (xrSem r))); iexact HR
  isplitl [Hsrc]; · iexact Hsrc
  isplitl [Hdst]; · iexact Hdst
  isplitl [HO]; · iexact HO
  isplitl [Ht1]; · iexact Ht1
  isplitr; · iapply (reached_at m K (c, some (xsSem r))); iexact HR
  isplitl [Ht2]; · iexact Ht2
  iapply (reached_at m K (xn c, some (xrSem r))); iexact HR

/-- A device's own DMA cell, its one round over, closes: its counter is zero again. -/
theorem close_one (c : Dev nD) (q : DmaSem sig) :
    iprop(records m K ∗ atPos ER (dCell c q) (0 + 1) ∅ 0) ⊢ iprop(|={Set.univ}=> semVal (dCell c q) 0) := by
  iintro ⟨#HR, Hat⟩
  iapply (Rounds.cell_close ER (sched m) (Set.mem_univ (K (c, some q))) (fun h => h) (R := 0 + 1) (duties_later m (dCell c q)))
  isplitr; · iapply (inv_at m K (c, some q)); iexact HR
  iexact Hat

end Steps

end Cert.Kernel.A2A

end
-- ==== Proof.Kernel.Body.lean ====
/- One device's body, run once at a symbolic device: its two arrays are cut along the transfers' rectangles; the two
   barrier units go out with the rows the neighbours will write; after the barrier wait the sixteen chunks go to the y
   neighbour and the local copy starts; each chunk that arrives from the y neighbour is forwarded to the x neighbour;
   the forwarded chunks of the x neighbour arrive; the local copy and the device's own sends complete; every own
   cell closes and the two arrays are put back together. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import proofs.«900639_g7700000000000640_dist_a2a_v7x_xyz2x2x4_y_m2048_n512_f32_1_alg».proof.Proof.Kernel.Sched
import proofs.«900639_g7700000000000640_dist_a2a_v7x_xyz2x2x4_y_m2048_n512_f32_1_alg».proof.Proof.Kernel.Owes
import proofs.«900639_g7700000000000640_dist_a2a_v7x_xyz2x2x4_y_m2048_n512_f32_1_alg».proof.Proof.Kernel.Split
import proofs.«900639_g7700000000000640_dist_a2a_v7x_xyz2x2x4_y_m2048_n512_f32_1_alg».proof.Proof.Kernel.Land
import proofs.«900639_g7700000000000640_dist_a2a_v7x_xyz2x2x4_y_m2048_n512_f32_1_alg».proof.Proof.Kernel.Reindex
import proofs.«900639_g7700000000000640_dist_a2a_v7x_xyz2x2x4_y_m2048_n512_f32_1_alg».proof.Proof.Kernel.Steps
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-- The sixty-five own DMA cells close together. -/
theorem close_all (c : Dev nD) :
    iprop(records m K ∗ bigSep Finset.univ fun q : DmaSem sig => atPos ER (dCell c q) (0 + 1) ∅ 0)
      ⊢ iprop(|={Set.univ}=> bigSep Finset.univ fun q : DmaSem sig => semVal (dCell c q) 0) := by
  refine (sep_mono_left (bigSep_of_persistent (Finset.univ : Finset (DmaSem sig)) (records m K))).trans ?_
  rw [← bigSep_sep']
  exact (bigSep_mono fun q _ => close_one m K c q).trans (bigSep_fupd _ _)

theorem ex_intro_pts {sp : Space} {s : Shape} {e : EltTy} (c : Dev nD) (v : Memref sig .tc sp s e) (f : Buf (Elt F) (v.view.loc (c : Thread nD τ))) :
    (vPts c v f : sProp 𝕄) ⊢ iprop(∃ g, vPts (F := F) c v g) := by
  iintro H; iexists f; iexact H

theorem ex_intro_fw (c : Dev nD) (f0 : Buf (Elt F) ((c : Thread nD τ).loc main_v1)) :
    (bigSep Finset.univ fun r : Fin 16 => vPts (F := F) c (fwdV c r) f0) ⊢ bigSep Finset.univ fun r : Fin 16 => iprop(∃ g, vPts (F := F) c (fwdV c r) g) :=
  bigSep_mono fun r _ => ex_intro_pts c (fwdV c r) f0
theorem ex_intro_ot (c : Dev nD) (f0 : Buf (Elt F) ((c : Thread nD τ).loc main_v1)) :
    (bigSep Finset.univ fun r : Fin 16 => vPts (F := F) c (othV c r) f0) ⊢ bigSep Finset.univ fun r : Fin 16 => iprop(∃ g, vPts (F := F) c (othV c r) g) :=
  bigSep_mono fun r _ => ex_intro_pts c (othV c r) f0

set_option hygiene false in
open Lean in
/-- Chunk `r`'s send along y. -/
local macro "ysend_at " r:num : tactic => do
  let n := r.getNat
  let id (s : String) := mkIdent (Name.mkSimple (s ++ toString n))
  let elems : Array (TSyntax `term) := (List.range (15 - n)).toArray.map fun i => Syntax.mkNumLit (toString (n + 1 + i))
  let rs : TSyntax `term ← `(([$elems,*] : List (Fin 16)))
  `(tactic| (
    iapply (step_ysend m K c _ (by first | exact dev3_eq c | exact dev4_eq c | exact dev5_eq c | exact dev6_eq c | exact dev7_eq c | exact dev8_eq c | exact dev9_eq c | exact dev10_eq c | exact dev11_eq c | exact dev12_eq c | exact dev13_eq c | exact dev14_eq c | exact dev15_eq c | exact dev16_eq c | exact dev17_eq c | exact dev18_eq c) ($r : Fin 16) $rs _ _ (by decide) (by decide) _ _ rfl rfl _) $$ HR $(id "Hsrc"):ident $(id "Hdy"):ident HO $(id "Htys"):ident $(id "Htyr"):ident
    iintro ⟨$(id "Hcys"):ident, HO⟩))

set_option hygiene false in
open Lean in
/-- Chunk `r`'s receive from the y neighbour. -/
local macro "yr_at " r:num : tactic => do
  let n := r.getNat
  let id (s : String) := mkIdent (Name.mkSimple (s ++ toString n))
  let elems0 : Array (TSyntax `term) := (List.range (16 - n)).toArray.map fun i => Syntax.mkNumLit (toString (n + i))
  let rs0 : TSyntax `term ← `(([$elems0,*] : List (Fin 16)))
  `(tactic| (
    iapply (step_waitD m K c (yrSem ($r : Fin 16)) _ (by decide) N64 (expect_yr m c ($r : Fin 16)) _ _ (by rfl) (OX c $rs0) _) $$ HR $(id "Hcyr"):ident HO [] $(id "Hpyr"):ident
    · iapply (mayWait_yr c ($r : Fin 16) $rs0); iexact Hlev
    iintro ⟨HO, $(id "Hpyr"):ident, Hpay⟩
    ihave $(id "Hfw"):ident := (Entails.of_eq ((rest_yr m c ($r : Fin 16)).trans (by unfold yrPay; rfl))) $$ Hpay))

set_option hygiene false in
open Lean in
/-- Chunk `r`'s forward along x. -/
local macro "fwd_at " r:num : tactic => do
  let n := r.getNat
  let id (s : String) := mkIdent (Name.mkSimple (s ++ toString n))
  let elems : Array (TSyntax `term) := (List.range (15 - n)).toArray.map fun i => Syntax.mkNumLit (toString (n + 1 + i))
  let rs : TSyntax `term ← `(([$elems,*] : List (Fin 16)))
  `(tactic| (
    iapply (step_fwd m K c _ (by first | exact dev19_eq c | exact dev20_eq c | exact dev21_eq c | exact dev22_eq c | exact dev23_eq c | exact dev24_eq c | exact dev25_eq c | exact dev26_eq c | exact dev27_eq c | exact dev28_eq c | exact dev29_eq c | exact dev30_eq c | exact dev31_eq c | exact dev32_eq c | exact dev33_eq c | exact dev34_eq c) ($r : Fin 16) $rs _ _ (by decide) (by decide) _ _ rfl rfl _) $$ HR $(id "Hfw"):ident $(id "Hdx"):ident HO $(id "Htxs"):ident $(id "Htxr"):ident
    iintro ⟨$(id "Hcxs"):ident, HO⟩))

set_option hygiene false in
open Lean in
/-- Chunk `r`'s receive from the x neighbour. -/
local macro "xr_at " r:num : tactic => do
  let n := r.getNat
  let id (s : String) := mkIdent (Name.mkSimple (s ++ toString n))
  `(tactic| (
    iapply (step_waitD m K c (xrSem ($r : Fin 16)) _ (by decide) N64 (expect_xr m c ($r : Fin 16)) _ _ (by rfl) 0 _) $$ HR $(id "Hcxr"):ident HO [] $(id "Hpxr"):ident
    · rw [MayWait_zero]; iempintro
    iintro ⟨HO, $(id "Hpxr"):ident, Hpay⟩
    ihave $(id "Hot"):ident := (Entails.of_eq ((rest_xr m c ($r : Fin 16)).trans (by unfold xrPay; rfl))) $$ Hpay))

set_option hygiene false in
open Lean in
/-- Chunk `r`'s send along y completes: the source chunk is the device's again. -/
local macro "ys_at " r:num : tactic => do
  let n := r.getNat
  let id (s : String) := mkIdent (Name.mkSimple (s ++ toString n))
  `(tactic| (
    iapply (step_waitD m K c (ysSem ($r : Fin 16)) _ (by decide) N64 (expect_ys m c ($r : Fin 16)) _ _ (by rfl) 0 _) $$ HR $(id "Hcys"):ident HO [] $(id "Hpys"):ident
    · rw [MayWait_zero]; iempintro
    iintro ⟨HO, $(id "Hpys"):ident, Hpay⟩
    ihave $(id "Hsrc"):ident := (Entails.of_eq ((rest_ys m c ($r : Fin 16)).trans (by unfold ysPay; rfl))) $$ Hpay))

set_option hygiene false in
open Lean in
/-- Chunk `r`'s forward completes: the forwarded chunk is the device's again. -/
local macro "xs_at " r:num : tactic => do
  let n := r.getNat
  let id (s : String) := mkIdent (Name.mkSimple (s ++ toString n))
  `(tactic| (
    iapply (step_waitD m K c (xsSem ($r : Fin 16)) _ (by decide) N64 (expect_xs m c ($r : Fin 16)) _ _ (by rfl) 0 _) $$ HR $(id "Hcxs"):ident HO [] $(id "Hpxs"):ident
    · rw [MayWait_zero]; iempintro
    iintro ⟨HO, $(id "Hpxs"):ident, Hpay⟩
    ihave $(id "Hfw"):ident := (Entails.of_eq ((rest_xs m c ($r : Fin 16)).trans (by unfold xsPay; rfl))) $$ Hpay))

/-- The head of the program put in the form the rules are stated for. -/
local macro "norm" : tactic =>
  `(tactic| try simp only [semSignalWord, semWaitWord, Prog.lift, Prog.bind_op, Prog.bind_ret, Prog.pure_eq_ret, wp_deviceId])
/-- A printed part's last statement returns: on to what follows it. -/
local macro "leave" : tactic => `(tactic| (rw [wp_ret]; imodintro; try dsimp only))

set_option maxHeartbeats 40000000 in
/-- The body, from what the launch hands device `c` to what it hands back. -/
theorem sound_body (c : Dev nD) (W : Waits sig Unit) (Kt : PUnit → sProp 𝕄) :
    iprop((ghost m K c ∗ launchCreds (F := F) c ∗ levAts L lv
        ∗ (((c : Thread nD τ).loc main_arg0) ↦{fullShare} Xb m c) ∗ (∃ f, ((c : Thread nD τ).loc main_v1) ↦{fullShare} f))
        ∗ owes (c : Thread nD τ) (O₀ c) W
        ∗ ((finish m c ∗ ∃ W' : Waits sig Unit, owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2 cc0_scratch3 cc0_scratch4) Kt := by
  unfold cc0_body
  simp only [wp_bind]
  unfold k0_part32
  simp only [wp_bind]
  unfold k0_part1
  norm
  unfold ghost positions payToks launchCreds
  simp only [bigSep_opt, bigSep_dma, bigSep_sep']
  iintro ⟨⟨⟨#HR, ⟨HpB, HpL, Hpys, Hpyr, Hpxs, Hpxr⟩, HtBY, HtBX, HtL, Htys, Htyr, Htxs, Htxr⟩, ⟨HcB, Hcyr, Hcxr⟩, #Hlev, Hx, ⟨%f0, Ho⟩⟩, HO, Hk⟩
  -- the arrays, cut along the transfers' rectangles
  ihave Hx := (split_x c (Xb m c)).1 $$ Hx
  icases Hx with ⟨HlocS, Hsrc, Hxrest⟩
  ihave Ho := (split_o c f0).1 $$ Ho
  icases Ho with ⟨HlocD, Hfw, Hot⟩
  ihave Hfw := (ex_intro_fw c f0) $$ Hfw
  ihave Hot := (ex_intro_ot c f0) $$ Hot
  ihave HlocD := (ex_intro_pts c (locD c) f0) $$ HlocD
  -- the two barrier units and the wait
  iapply (step_signalY m K c _ (dev1_eq c) _) $$ HR HO HtBY Hfw
  iintro HO
  iapply (step_signalX m K c _ (dev2_eq c) _) $$ HR HO HtBX Hot
  iintro HO
  iapply (step_waitBar m K c _) $$ HR HcB HO Hlev HpB
  iintro ⟨HO, HpB, Hdy, Hdx⟩
  unfold barPayY barPayX
  simp only [bigSep_sep']
  icases Hdy with ⟨Hdy, -⟩
  icases Hdx with ⟨Hdx, -⟩
  -- everything per chunk, chunk by chunk
  simp only [bigSep_chunks]
  icases Hsrc with ⟨Hsrc0, Hsrc1, Hsrc2, Hsrc3, Hsrc4, Hsrc5, Hsrc6, Hsrc7, Hsrc8, Hsrc9, Hsrc10, Hsrc11, Hsrc12, Hsrc13, Hsrc14, Hsrc15⟩
  icases Hdy with ⟨Hdy0, Hdy1, Hdy2, Hdy3, Hdy4, Hdy5, Hdy6, Hdy7, Hdy8, Hdy9, Hdy10, Hdy11, Hdy12, Hdy13, Hdy14, Hdy15⟩
  icases Hdx with ⟨Hdx0, Hdx1, Hdx2, Hdx3, Hdx4, Hdx5, Hdx6, Hdx7, Hdx8, Hdx9, Hdx10, Hdx11, Hdx12, Hdx13, Hdx14, Hdx15⟩
  icases Htys with ⟨Htys0, Htys1, Htys2, Htys3, Htys4, Htys5, Htys6, Htys7, Htys8, Htys9, Htys10, Htys11, Htys12, Htys13, Htys14, Htys15⟩
  icases Htyr with ⟨Htyr0, Htyr1, Htyr2, Htyr3, Htyr4, Htyr5, Htyr6, Htyr7, Htyr8, Htyr9, Htyr10, Htyr11, Htyr12, Htyr13, Htyr14, Htyr15⟩
  icases Htxs with ⟨Htxs0, Htxs1, Htxs2, Htxs3, Htxs4, Htxs5, Htxs6, Htxs7, Htxs8, Htxs9, Htxs10, Htxs11, Htxs12, Htxs13, Htxs14, Htxs15⟩
  icases Htxr with ⟨Htxr0, Htxr1, Htxr2, Htxr3, Htxr4, Htxr5, Htxr6, Htxr7, Htxr8, Htxr9, Htxr10, Htxr11, Htxr12, Htxr13, Htxr14, Htxr15⟩
  icases Hcyr with ⟨Hcyr0, Hcyr1, Hcyr2, Hcyr3, Hcyr4, Hcyr5, Hcyr6, Hcyr7, Hcyr8, Hcyr9, Hcyr10, Hcyr11, Hcyr12, Hcyr13, Hcyr14, Hcyr15⟩
  icases Hcxr with ⟨Hcxr0, Hcxr1, Hcxr2, Hcxr3, Hcxr4, Hcxr5, Hcxr6, Hcxr7, Hcxr8, Hcxr9, Hcxr10, Hcxr11, Hcxr12, Hcxr13, Hcxr14, Hcxr15⟩
  icases Hpys with ⟨Hpys0, Hpys1, Hpys2, Hpys3, Hpys4, Hpys5, Hpys6, Hpys7, Hpys8, Hpys9, Hpys10, Hpys11, Hpys12, Hpys13, Hpys14, Hpys15⟩
  icases Hpyr with ⟨Hpyr0, Hpyr1, Hpyr2, Hpyr3, Hpyr4, Hpyr5, Hpyr6, Hpyr7, Hpyr8, Hpyr9, Hpyr10, Hpyr11, Hpyr12, Hpyr13, Hpyr14, Hpyr15⟩
  icases Hpxs with ⟨Hpxs0, Hpxs1, Hpxs2, Hpxs3, Hpxs4, Hpxs5, Hpxs6, Hpxs7, Hpxs8, Hpxs9, Hpxs10, Hpxs11, Hpxs12, Hpxs13, Hpxs14, Hpxs15⟩
  icases Hpxr with ⟨Hpxr0, Hpxr1, Hpxr2, Hpxr3, Hpxr4, Hpxr5, Hpxr6, Hpxr7, Hpxr8, Hpxr9, Hpxr10, Hpxr11, Hpxr12, Hpxr13, Hpxr14, Hpxr15⟩
  -- the sends along y, the local copy, the chunks from the y neighbour forwarded along x, printed part by printed part
  leave; unfold k0_part2; norm
  ysend_at 0
  ysend_at 1
  leave; unfold k0_part3; norm
  ysend_at 2
  ysend_at 3
  leave; unfold k0_part4; norm
  ysend_at 4
  ysend_at 5
  leave; unfold k0_part5; norm
  ysend_at 6
  ysend_at 7
  ysend_at 8
  leave; unfold k0_part6; norm
  ysend_at 9
  ysend_at 10
  leave; unfold k0_part7; norm
  ysend_at 11
  ysend_at 12
  leave; unfold k0_part8; norm
  ysend_at 13
  ysend_at 14
  leave; unfold k0_part9; norm
  ysend_at 15
  rw [show OY c ([] : List (Fin 16)) = OX c chunks from rfl]
  iapply (step_local m K c _ (by decide) _ _ rfl rfl) $$ HR HlocS HlocD HtL
  iintro HcL
  yr_at 0
  fwd_at 0
  leave; unfold k0_part10; norm
  yr_at 1
  fwd_at 1
  leave; unfold k0_part11; norm
  yr_at 2
  fwd_at 2
  yr_at 3
  leave; unfold k0_part12; norm
  fwd_at 3
  yr_at 4
  leave; unfold k0_part13; norm
  fwd_at 4
  yr_at 5
  fwd_at 5
  leave; unfold k0_part14; norm
  yr_at 6
  fwd_at 6
  leave; unfold k0_part15; norm
  yr_at 7
  fwd_at 7
  yr_at 8
  leave; unfold k0_part16; norm
  fwd_at 8
  yr_at 9
  fwd_at 9
  leave; unfold k0_part17; norm
  yr_at 10
  fwd_at 10
  leave; unfold k0_part18; norm
  yr_at 11
  fwd_at 11
  yr_at 12
  leave; unfold k0_part19; norm
  fwd_at 12
  yr_at 13
  leave; unfold k0_part20; norm
  fwd_at 13
  yr_at 14
  fwd_at 14
  leave; unfold k0_part21; norm
  yr_at 15
  fwd_at 15
  rw [show OX c ([] : List (Fin 16)) = 0 from rfl]
  -- the chunks the x neighbour forwards
  leave; unfold k0_part22; norm
  xr_at 0
  xr_at 1
  xr_at 2
  leave; unfold k0_part23; norm
  xr_at 3
  xr_at 4
  xr_at 5
  leave; unfold k0_part24; norm
  xr_at 6
  xr_at 7
  xr_at 8
  leave; unfold k0_part25; norm
  xr_at 9
  xr_at 10
  leave; unfold k0_part26; norm
  xr_at 11
  xr_at 12
  xr_at 13
  leave; unfold k0_part27; norm
  xr_at 14
  xr_at 15
  -- the local copy lands
  iapply (step_waitD m K c lSem _ (by decide) NL (expect_l m c) _ _ (by rfl) 0 _) $$ HR HcL HO [] HpL
  · rw [MayWait_zero]; iempintro
  iintro ⟨HO, HpL, Hpay⟩
  ihave Hl := (Entails.of_eq ((rest_l m c).trans (by unfold lPay; rfl))) $$ Hpay
  icases Hl with ⟨HlocD, HlocS⟩
  -- the device's own sends complete
  ys_at 0
  xs_at 0
  leave; unfold k0_part28; norm
  ys_at 1
  xs_at 1
  ys_at 2
  xs_at 2
  ys_at 3
  xs_at 3
  leave; unfold k0_part29; norm
  ys_at 4
  xs_at 4
  ys_at 5
  xs_at 5
  ys_at 6
  xs_at 6
  leave; unfold k0_part30; norm
  ys_at 7
  xs_at 7
  ys_at 8
  xs_at 8
  ys_at 9
  xs_at 9
  ys_at 10
  leave; unfold k0_part31; norm
  xs_at 10
  ys_at 11
  xs_at 11
  ys_at 12
  xs_at 12
  ys_at 13
  leave; norm
  xs_at 13
  leave; norm
  ys_at 14
  leave; norm
  xs_at 14
  leave; norm
  leave; norm
  ys_at 15
  leave; norm
  xs_at 15
  leave; norm
  -- every own cell closes
  imod (close_all m K c) $$ [HpL Hpys0 Hpyr0 Hpxs0 Hpxr0 Hpys1 Hpyr1 Hpxs1 Hpxr1 Hpys2 Hpyr2 Hpxs2 Hpxr2 Hpys3 Hpyr3 Hpxs3 Hpxr3 Hpys4 Hpyr4 Hpxs4 Hpxr4 Hpys5 Hpyr5 Hpxs5 Hpxr5 Hpys6 Hpyr6 Hpxs6 Hpxr6 Hpys7 Hpyr7 Hpxs7 Hpxr7 Hpys8 Hpyr8 Hpxs8 Hpxr8 Hpys9 Hpyr9 Hpxs9 Hpxr9 Hpys10 Hpyr10 Hpxs10 Hpxr10 Hpys11 Hpyr11 Hpxs11 Hpxr11 Hpys12 Hpyr12 Hpxs12 Hpxr12 Hpys13 Hpyr13 Hpxs13 Hpxr13 Hpys14 Hpyr14 Hpxs14 Hpxr14 Hpys15 Hpyr15 Hpxs15 Hpxr15] with Hz
  · isplitr; · iexact HR
    rw [bigSep_dma, bigSep_chunks]
    iframe
  -- the arrays, put back together
  ihave Hx := (split_x c (Xb m c)).2 $$ [HlocS Hsrc0 Hsrc1 Hsrc2 Hsrc3 Hsrc4 Hsrc5 Hsrc6 Hsrc7 Hsrc8 Hsrc9 Hsrc10 Hsrc11 Hsrc12 Hsrc13 Hsrc14 Hsrc15 Hxrest]
  · rw [bigSep_chunks]
    iframe
  ihave Ho := (split_o c (Gfin m c)).2 $$ [HlocD Hfw0 Hfw1 Hfw2 Hfw3 Hfw4 Hfw5 Hfw6 Hfw7 Hfw8 Hfw9 Hfw10 Hfw11 Hfw12 Hfw13 Hfw14 Hfw15 Hot0 Hot1 Hot2 Hot3 Hot4 Hot5 Hot6 Hot7 Hot8 Hot9 Hot10 Hot11 Hot12 Hot13 Hot14 Hot15]
  · rw [bigSep_chunks, bigSep_chunks]
    iframe
  rw [wp_ret]; imodintro
  iapply Hk
  unfold finish
  isplitl [Hx Ho Hz]
  · isplitl [Hx]; · iexact Hx
    isplitl [Ho]; · iexact Ho
    iexact Hz
  iexists _; iexact HO

/-- The body obligation on device `c`. -/
theorem body_obligation (c : Dev nD) : BodyObligation (dats (F := F) m 0 c) (defs₀ (F := F)) 𝒱₀ () Set.univ := fun t => by
  rw [fin_N t]
  simp only [Finset.univ_eq_empty, bigSep_empty]
  show iprop(start m c ∗ (dats (F := F) m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2 cc0_scratch3 cc0_scratch4)
    (fun _ => iprop(finish m c ∗ (dats (F := F) m 0 c).owesAt () t₀.succ ∗ emp))
  unfold start Dat.owesAt Pipeline.owesWithin
  rw [show (dats (F := F) m 0 c).owed t₀.castSucc = O₀ c from rfl, show (dats (F := F) m 0 c).owed t₀.succ = 0 from rfl]
  iintro ⟨⟨⟨%K, Hg⟩, Hcr, Hlev, Hx, Ho⟩, ⟨%W, %hW, HO⟩, -⟩
  iapply (sound_body m K c W _)
  isplitl [Hg Hcr Hlev Hx Ho]
  · isplitl [Hg]; · iexact Hg
    isplitl [Hcr]; · iexact Hcr
    isplitl [Hlev]; · iexact Hlev
    isplitl [Hx]; · iexact Hx
    iexact Ho
  isplitl [HO]; · iexact HO
  iintro ⟨Hf, ⟨%W', HO⟩⟩
  isplitl [Hf]; · iexact Hf
  isplitl [HO]
  · iexists W'
    isplitr; · ipureintro; exact fun _ _ => Or.inl trivial
    iexact HO
  iempintro

end Cert.Kernel.A2A

end
-- ==== Proof.Kernel.Launch.lean ====
/- The launch: every device's semaphores at zero become the cells' invariants, allocated for all devices at once; the
   tokens of each cell's duties are dealt to the devices that pay them; each device's body is run; at the end each
   device's result is read back at its final contents and its input as it was. -/
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Kernel.Iface
import proofs.«900639_g7700000000000640_dist_a2a_v7x_xyz2x2x4_y_m2048_n512_f32_1_alg».proof.Proof.Kernel.Reindex
import proofs.«900639_g7700000000000640_dist_a2a_v7x_xyz2x2x4_y_m2048_n512_f32_1_alg».proof.Proof.Kernel.Sched
import proofs.«900639_g7700000000000640_dist_a2a_v7x_xyz2x2x4_y_m2048_n512_f32_1_alg».proof.Proof.Kernel.Owes
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (ρ : Dev nD → PrngReg)

namespace Launch

/-! ## The kernel's own semaphores and the cells of the mesh -/

/-- The kernel's own scoped semaphores: all sixty-five DMA semaphores. -/
abbrev osem : DmaSem sig → SemLoc sig := .dma

theorem ownSemFacts : Pipeline.OwnSemFacts cfg0.spec osem :=
  ⟨(by decide : ∀ k : DmaSem sig, (SemLoc.dma k : SemLoc sig).isScoped .tc = true), fun _ _ h => SemLoc.dma.inj h, fun _ w => w.elim0⟩

theorem kcell_injective : Function.Injective (kcell : Dev nD × Option (DmaSem sig) → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    cases k with
    | none => cases k' with
      | none => rfl
      | some q' => exact absurd h2 (fun h' => by cases h')
    | some q => cases k' with
      | none => exact absurd h2 (fun h' => by cases h')
      | some q' => exact congrArg some (SemLoc.dma.inj h2)
  subst this; rfl

/-- All the cells of the mesh. -/
def meshCells : Finset (GSem nD τ sig) := Finset.univ.map ⟨kcell, kcell_injective⟩

/-- A device's own cells' duty tokens as minted: its barrier's two, and one per DMA cell. -/
abbrev tokOf (cj : Dev nD × (Bool ⊕ DmaSem sig)) : GSem nD τ sig × ℕ × Bool := match cj.2 with
  | .inl b => (barCell cj.1, 0, b) | .inr q => (dCell cj.1 q, 0, false)

theorem tokOf_injective : Function.Injective (tokOf : Dev nD × (Bool ⊕ DmaSem sig) → GSem nD τ sig × ℕ × Bool) := by
  rintro ⟨c, j⟩ ⟨c', j'⟩ h
  have h1 : c = c' := by
    have := congrArg (fun x : GSem nD τ sig × ℕ × Bool => x.1.1.1) h
    rcases j with b | q <;> rcases j' with b' | q' <;> exact this
  subst h1
  have : j = j' := by
    rcases j with b | q <;> rcases j' with b' | q'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (SemLoc.dma.inj (congrArg (fun x : GSem nD τ sig × ℕ × Bool => x.1.2) h))
  subst this; rfl

def meshToks : Finset (GSem nD τ sig × ℕ × Bool) := Finset.univ.map ⟨tokOf, tokOf_injective⟩

/-- The launch element: the pipeline's (no staging cell) beside the protocol's. -/
def u₀ : UU :=
  (initOf (Pipeline.cells cfgs cellOf_inj) (Pipeline.launchToks cfgs cellOf_inj), initOf meshCells meshToks)

/-- The duty tokens of a device's own cells. -/
def toks (c : Dev nD) : sProp 𝕄 :=
  iprop((dutyTok ER (barCell c) 0 false ∗ dutyTok ER (barCell c) 0 true) ∗ bigSep Finset.univ fun q : DmaSem sig => dutyTok ER (dCell c q) 0 false)

/-- What the launch element deals a device: its cells' round states, positions and reached-marks, its cells' tokens. -/
def G (c : Dev nD) : sProp 𝕄 :=
  iprop((bigSep Finset.univ fun o : Option (DmaSem sig) => roundState ER (sched m) (kcell (c, o)) 0)
    ∗ (bigSep Finset.univ fun o : Option (DmaSem sig) => iprop(atPos ER (kcell (c, o)) 0 ∅ 0 ∗ reached ER (kcell (c, o)) 0)) ∗ toks c)

/-- What the global step makes of it. -/
def G' (c : Dev nD) : sProp 𝕄 := iprop(∃ K, ghost m K c)

/-! ## Sums over the index types -/

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-! ## Funding and allocation -/

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun o : Option (DmaSem sig) => Φ (kcell (c, o)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum, bigSep_bool]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (DmaSem sig) => semVal (kcell (c, o)) 0 : sProp 𝕄) := by
  rw [unscopedSems0_eq, bigSep_opt]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option (DmaSem sig) => iprop(∃ κ : ℕ, cellInv ER (sched m) κ (kcell (c, o))))
          ∗ (bigSep Finset.univ fun o : Option (DmaSem sig) => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option (DmaSem sig) => semVal (kcell (c, o)) 0) ∗ bigSep Finset.univ fun o : Option (DmaSem sig) => roundState ER (sched m) (kcell (c, o)) 0)
      ⊢ (|={Set.univ}=> bigSep Finset.univ fun o : Option (DmaSem sig) => iprop(∃ κ : ℕ, cellInv ER (sched m) κ (kcell (c, o))) : sProp 𝕄) from by
        rw [← bigSep_sep']
        exact (bigSep_mono fun o _ => (Rounds.body_intro ER (sched m) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Option (DmaSem sig) → ℕ) (c : Dev nD) : iprop(records m K ∗ (positions c ∗ payToks c)) ⊢ G' m c := by
  unfold G' ghost
  iintro H
  iexists K
  iexact H

/-- The tokens dealt to their payers: a barrier's false token and the y-receive tokens to the y neighbour, its true
    token and the x-receive tokens to the x neighbour; the rest stay. -/
theorem toks_around : (bigSep Finset.univ fun c : Dev nD => (toks c : sProp 𝕄)) ⊢ bigSep Finset.univ fun c : Dev nD => payToks c := by
  unfold toks payToks
  simp only [bigSep_dma, bigSep_sep']
  rw [bigSep_univ_equiv ynE (fun c : Dev nD => (dutyTok ER (barCell c) 0 false : sProp 𝕄)),
    bigSep_univ_equiv xnE (fun c : Dev nD => (dutyTok ER (barCell c) 0 true : sProp 𝕄)),
    bigSep_univ_equiv ynE (fun c : Dev nD => (bigSep Finset.univ fun r : Fin 16 => dutyTok ER (yrCell c r) 0 false : sProp 𝕄)),
    bigSep_univ_equiv xnE (fun c : Dev nD => (bigSep Finset.univ fun r : Fin 16 => dutyTok ER (xrCell c r) 0 false : sProp 𝕄))]
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option (DmaSem sig) => iprop(∃ κ : ℕ, cellInv ER (sched m) κ (kcell (c, o))))
          ∗ (bigSep Finset.univ fun o : Option (DmaSem sig) => iprop(atPos ER (kcell (c, o)) 0 ∅ 0 ∗ reached ER (kcell (c, o)) 0)) ∗ toks c) : sProp 𝕄)
      ⊢ bigSep Finset.univ (G' m) := by
  rw [bigSep_sep', bigSep_sep', ← bigSep_univ_prod (fun ck : Dev nD × Option (DmaSem sig) => iprop(∃ κ : ℕ, cellInv ER (sched m) κ (kcell ck))),
    bigSep_congr (s := Finset.univ) (fun (c : Dev nD) _ => bigSep_sep' Finset.univ (fun o : Option (DmaSem sig) => (atPos ER (kcell (c, o)) 0 ∅ 0 : sProp 𝕄)) (fun o => reached ER (kcell (c, o)) 0)),
    bigSep_sep', ← bigSep_univ_prod (fun ck : Dev nD × Option (DmaSem sig) => (reached ER (kcell ck) 0 : sProp 𝕄))]
  iintro ⟨HI, ⟨Hat, #HR⟩, Htok⟩
  ihave HK := (BI.bigSep_exists_pi Finset.univ (fun (ck : Dev nD × Option (DmaSem sig)) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]
    · unfold positions; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem L_of_ne (g : GSem nD τ sig) (h : g.1.2 ≠ .tc) : L g = ∅ := if_neg h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexists (m ((c : Thread nD τ).loc main_v1)); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- What a device hands back at the end beside its own semaphores: its two arrays. -/
def Yend (c : Dev nD) : sProp 𝕄 :=
  iprop((((c : Thread nD τ).loc main_arg0) ↦{fullShare} Xb m c) ∗ (((c : Thread nD τ).loc main_v1) ↦{fullShare} Gfin m c))

theorem phi1_exit (c : Dev nD) :
    (dats m 0 c).Φ (Fin.last cfg0.N) ⊢ iprop(Yend m c ∗ Pipeline.ownSems0 osem c ∗ Pipeline.scopedRest cfg0.spec c) := by
  rw [show (dats m 0 c).Φ (Fin.last cfg0.N) = finish m c from rfl, scopedRest0_eq]
  unfold finish Yend Pipeline.ownSems0
  iintro ⟨Hx, Ho, Hs⟩
  isplitl [Hx Ho]
  · isplitl [Hx] <;> iassumption
  isplitl [Hs]; · iexact Hs
  iempintro

theorem waits (c : Dev nD) : (levAts L lv : sProp 𝕄) ⊢ Pipeline.cellsWaits cfgs (dats m) () 0 c :=
  Pipeline.cellsWaits_intro cfgs (dats m) () 0 c fun w => w.elim0

end Launch

/-! ## The run -/

open Launch in
/-- From any memory with zero counters: every weakly fair execution of @main on the sixteen devices terminates, and in
    every final state each device's result holds its final contents and its input is unchanged — given each device's
    body obligation. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c : Thread nD τ).loc main_v1) = Gfin m c ∧ r.2.mem ((c : Thread nD τ).loc main_arg0) = Xb m c) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ w => w.elim0) (hpf := fun _ k => k.elim0)
    (X := start m) (Y := Yend m) (Z := fun _ => iprop(emp))
    (hX := start_intro m ρ) (hin := phi0_intro m) (hout := phi1_exit m)
    (QY := fun c s => s.mem ((c : Thread nD τ).loc main_v1) = Gfin m c ∧ s.mem ((c : Thread nD τ).loc main_arg0) = Xb m c)
    (hY := fun c s' => by
      unfold Yend
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.RefRun.lean ====
/- The reference is the identity on its one array: its result buffer is its argument buffer and its @main performs no
   operation. So every weakly fair execution of it terminates at once, every buffer holding what it was launched with. -/
import proofs.«900639_g7700000000000640_dist_a2a_v7x_xyz2x2x4_y_m2048_n512_f32_1_alg».proof.Proof.Gen.ReferenceIdeal
import Idealize.ShloMosaic.Lib.StableHlo.Run

noncomputable section

namespace Cert.ReferenceIdeal.A2A

open Cert.ReferenceIdeal Cert.ReferenceIdeal.Gen Idealize.ShloMosaic Idealize.ShloMosaic.TcCoe Idealize.SL.Sem Idealize.ShloMosaic.StableHlo

variable {F : FTy → Type} [FloatOps F]

/-- @main is the empty line of operations. -/
theorem main_eq (c : Dev nD) : main (F := F) c = seq [] := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of @main terminates, and the array — argument and
    result at once — holds what it was launched with. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq scopedRefs_eq scopedSems_eq defs main (fun _ => []) main_eq (fun _ => trivial) m ρ)

/-- info: 'Cert.ReferenceIdeal.A2A.run' depends on axioms: [propext, Classical.choice, Quot.sound] -/
#guard_msgs in #print axioms run

end Cert.ReferenceIdeal.A2A

end
-- ==== Proof.lean ====
/- The all-to-all along y moves data and computes nothing: each device ends with its block of columns of the whole array whose
   blocks of rows the devices started with, and the reference, the identity on that array, ends with the array itself. -/
import proofs.«900639_g7700000000000640_dist_a2a_v7x_xyz2x2x4_y_m2048_n512_f32_1_alg».proof.Defs
import proofs.«900639_g7700000000000640_dist_a2a_v7x_xyz2x2x4_y_m2048_n512_f32_1_alg».proof.Proof.Gen.Kernel
import proofs.«900639_g7700000000000640_dist_a2a_v7x_xyz2x2x4_y_m2048_n512_f32_1_alg».proof.Proof.Gen.Kernel.Skeleton
import proofs.«900639_g7700000000000640_dist_a2a_v7x_xyz2x2x4_y_m2048_n512_f32_1_alg».proof.Proof.Gen.Kernel.Launch
import proofs.«900639_g7700000000000640_dist_a2a_v7x_xyz2x2x4_y_m2048_n512_f32_1_alg».proof.Proof.Gen.Kernel.Points
import proofs.«900639_g7700000000000640_dist_a2a_v7x_xyz2x2x4_y_m2048_n512_f32_1_alg».proof.Proof.Gen.Kernel.Frame
import proofs.«900639_g7700000000000640_dist_a2a_v7x_xyz2x2x4_y_m2048_n512_f32_1_alg».proof.Proof.Gen.KernelIdeal
import proofs.«900639_g7700000000000640_dist_a2a_v7x_xyz2x2x4_y_m2048_n512_f32_1_alg».proof.Proof.Gen.KernelIdeal.Skeleton
import proofs.«900639_g7700000000000640_dist_a2a_v7x_xyz2x2x4_y_m2048_n512_f32_1_alg».proof.Proof.Gen.KernelIdeal.Launch
import proofs.«900639_g7700000000000640_dist_a2a_v7x_xyz2x2x4_y_m2048_n512_f32_1_alg».proof.Proof.Gen.KernelIdeal.Points
import proofs.«900639_g7700000000000640_dist_a2a_v7x_xyz2x2x4_y_m2048_n512_f32_1_alg».proof.Proof.Gen.KernelIdeal.Frame
import proofs.«900639_g7700000000000640_dist_a2a_v7x_xyz2x2x4_y_m2048_n512_f32_1_alg».proof.Proof.Gen.ReferenceIdeal
import proofs.«900639_g7700000000000640_dist_a2a_v7x_xyz2x2x4_y_m2048_n512_f32_1_alg».proof.Proof.Gen.Pre_finite_inputs_Kernel
import proofs.«900639_g7700000000000640_dist_a2a_v7x_xyz2x2x4_y_m2048_n512_f32_1_alg».proof.Proof.Gen.Pre_finite_inputs_ReferenceIdeal
import proofs.«900639_g7700000000000640_dist_a2a_v7x_xyz2x2x4_y_m2048_n512_f32_1_alg».proof.Proof.KernelIdeal.Body
import proofs.«900639_g7700000000000640_dist_a2a_v7x_xyz2x2x4_y_m2048_n512_f32_1_alg».proof.Proof.KernelIdeal.Launch
import proofs.«900639_g7700000000000640_dist_a2a_v7x_xyz2x2x4_y_m2048_n512_f32_1_alg».proof.Proof.KernelIdeal.Value
import proofs.«900639_g7700000000000640_dist_a2a_v7x_xyz2x2x4_y_m2048_n512_f32_1_alg».proof.Proof.Kernel.Body
import proofs.«900639_g7700000000000640_dist_a2a_v7x_xyz2x2x4_y_m2048_n512_f32_1_alg».proof.Proof.Kernel.Launch
import proofs.«900639_g7700000000000640_dist_a2a_v7x_xyz2x2x4_y_m2048_n512_f32_1_alg».proof.Proof.RefRun
import Idealize.ShloMosaic.Adequacy
import Idealize.ShloMosaic.Init

noncomputable section

namespace Cert.Proof

open Idealize.ShloMosaic Idealize.SL.Sem Cert.Kernel

/-- The kernel as printed runs, its input blocks unchanged: the run of the sixteen devices with the result forgotten. -/
theorem frame_Kernel : Cert.frame_Kernel := fun m g _ =>
  (θ_run _ _ _).mono (fun _ h c => (h c).2) (Cert.Kernel.A2A.run_main m g (Cert.Kernel.A2A.body_obligation m))

/-- The same of the kernel read over the extended reals. -/
theorem frame_KernelIdeal : Cert.frame_KernelIdeal := fun m g _ =>
  (θ_run _ _ _).mono (fun _ h c => (h c).2) (Cert.KernelIdeal.A2A.run_main m g (Cert.KernelIdeal.A2A.body_obligation m))

/-- The reference runs, its array unchanged. -/
theorem frame_ReferenceIdeal : Cert.frame_ReferenceIdeal := fun m g _ => Cert.ReferenceIdeal.A2A.run m g

/-- From devices holding the row blocks of the reference's array, the kernel ends with device `c` holding its column block
    of that same array, which is what the reference ends with. -/
theorem algebraic : Cert.algebraic_KernelIdeal_ReferenceIdeal := by
  intro m g m' g' _ hlay
  refine ⟨m' (((0 : Dev Cert.ReferenceIdeal.nD).tc : Thread Cert.ReferenceIdeal.nD Cert.ReferenceIdeal.τ).loc Cert.ReferenceIdeal.main_arg0), ?_, ?_⟩
  · exact (θ_run _ _ _).mono
      (fun _ h c => ⟨(h c).1.trans (Cert.KernelIdeal.A2A.Gfin_block m _ hlay c), (h c).2⟩)
      (Cert.KernelIdeal.A2A.run_main m g (Cert.KernelIdeal.A2A.body_obligation m))
  · exact (θ_run _ _ _).mono (fun _ h => ⟨h 0, h 0⟩) (Cert.ReferenceIdeal.A2A.run m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
